-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x32 : Shape := ⟨2, ![1600000, 32]⟩
abbrev S1600000x1 : Shape := ⟨2, ![1600000, 1]⟩
abbrev S32x32 : Shape := ⟨2, ![32, 32]⟩
abbrev S32 : Shape := ⟨1, ![32]⟩
abbrev S8x65x32 : Shape := ⟨3, ![8, 65, 32]⟩
abbrev S8x32 : Shape := ⟨2, ![8, 32]⟩
abbrev S8x1x1 : Shape := ⟨3, ![8, 1, 1]⟩
abbrev S8x1 : Shape := ⟨2, ![8, 1]⟩
abbrev S8x32x32 : Shape := ⟨3, ![8, 32, 32]⟩
abbrev S2x1600000 : Shape := ⟨2, ![2, 1600000]⟩
abbrev S_ : Shape := ⟨0, ![]⟩

class Facts : Prop where
  bcast_S_S1600000x32 : S_.BroadcastsInDim S1600000x32 (![] : Fin 0 → Fin S1600000x32.rank)
  reducesTo_S1600000x32_S_d0_1 : S1600000x32.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S8x65x32 : S_.BroadcastsInDim S8x65x32 (![] : Fin 0 → Fin S8x65x32.rank)
  reducesTo_S8x65x32_S_d0_1_2 : S8x65x32.ReducesTo [0, 1, 2] S_
  bcast_S_S8x32 : S_.BroadcastsInDim S8x32 (![] : Fin 0 → Fin S8x32.rank)
  reducesTo_S8x32_S_d0_1 : S8x32.ReducesTo [0, 1] S_
  bcast_S_S8x1x1 : S_.BroadcastsInDim S8x1x1 (![] : Fin 0 → Fin S8x1x1.rank)
  reducesTo_S8x1x1_S_d0_1_2 : S8x1x1.ReducesTo [0, 1, 2] S_
  bcast_S_S8x1 : S_.BroadcastsInDim S8x1 (![] : Fin 0 → Fin S8x1.rank)
  reducesTo_S8x1_S_d0_1 : S8x1.ReducesTo [0, 1] S_
  bcast_S_S8x32x32 : S_.BroadcastsInDim S8x32x32 (![] : Fin 0 → Fin S8x32x32.rank)
  reducesTo_S8x32x32_S_d0_1_2 : S8x32x32.ReducesTo [0, 1, 2] S_

variable [Facts]

def fn_part2 {F : FTy → Type} [FloatOps F] (main_arg7 : FVec F S8x1 .f32) (main_arg8 : FVec F S8x32x32 .f32) (main_arg9 : FVec F S8x32 .f32) (main_v33 : IVec S_ 1) : IVec S_ 1 :=
  let main_v34 : FVec F S8x1 .f32 := Host.absf main_arg7
  let main_cst_12 : FVec F S_ .f32 := constant S_ .f32 0x7F800000#32
  let main_v35 : FVec F S8x1 .f32 := broadcastInDim S8x1 ![] bcast_S_S8x1 main_cst_12
  let main_v36 : IVec S8x1 1 := cmpf .olt main_v34 main_v35
  let main_c_13 : IVec S_ 1 := constantI S_ 1 1#1
  let main_v37 : IVec S_ 1 := (fun x v => Host.reduce IntOp.andi x v reducesTo_S8x1_S_d0_1 h_S_) main_v36 main_c_13
  let main_v38 : IVec S_ 1 := andi main_v33 main_v37
  let main_v39 : FVec F S8x32x32 .f32 := Host.absf main_arg8
  let main_cst_14 : FVec F S_ .f32 := constant S_ .f32 0x7F800000#32
  let main_v40 : FVec F S8x32x32 .f32 := broadcastInDim S8x32x32 ![] bcast_S_S8x32x32 main_cst_14
  let main_v41 : IVec S8x32x32 1 := cmpf .olt main_v39 main_v40
  let main_c_15 : IVec S_ 1 := constantI S_ 1 1#1
  let main_v42 : IVec S_ 1 := (fun x v => Host.reduce IntOp.andi x v reducesTo_S8x32x32_S_d0_1_2 h_S_) main_v41 main_c_15
  let main_v43 : IVec S_ 1 := andi main_v38 main_v42
  let main_v44 : FVec F S8x32 .f32 := Host.absf main_arg9
  let main_cst_16 : FVec F S_ .f32 := constant S_ .f32 0x7F800000#32
  let main_v45 : FVec F S8x32 .f32 := broadcastInDim S8x32 ![] bcast_S_S8x32 main_cst_16
  let main_v46 : IVec S8x32 1 := cmpf .olt main_v44 main_v45
  let main_c_17 : IVec S_ 1 := constantI S_ 1 1#1
  let main_v47 : IVec S_ 1 := (fun x v => Host.reduce IntOp.andi x v reducesTo_S8x32_S_d0_1 h_S_) main_v46 main_c_17
  let main_v48 : IVec S_ 1 := andi main_v43 main_v47
  main_v48

def fn_part1 {F : FTy → Type} [FloatOps F] (main_arg4 : FVec F S8x65x32 .f32) (main_arg5 : FVec F S8x32 .f32) (main_arg6 : FVec F S8x1x1 .f32) (main_arg7 : FVec F S8x1 .f32) (main_arg8 : FVec F S8x32x32 .f32) (main_arg9 : FVec F S8x32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S8x65x32 .f32 := Host.absf main_arg4
  let main_cst_6 : FVec F S_ .f32 := constant S_ .f32 0x7F800000#32
  let main_v20 : FVec F S8x65x32 .f32 := broadcastInDim S8x65x32 ![] bcast_S_S8x65x32 main_cst_6
  let main_v21 : IVec S8x65x32 1 := cmpf .olt main_v19 main_v20
  let main_c_7 : IVec S_ 1 := constantI S_ 1 1#1
  let main_v22 : IVec S_ 1 := (fun x v => Host.reduce IntOp.andi x v reducesTo_S8x65x32_S_d0_1_2 h_S_) main_v21 main_c_7
  let main_v23 : IVec S_ 1 := andi main_v18 main_v22
  let main_v24 : FVec F S8x32 .f32 := Host.absf main_arg5
  let main_cst_8 : FVec F S_ .f32 := constant S_ .f32 0x7F800000#32
  let main_v25 : FVec F S8x32 .f32 := broadcastInDim S8x32 ![] bcast_S_S8x32 main_cst_8
  let main_v26 : IVec S8x32 1 := cmpf .olt main_v24 main_v25
  let main_c_9 : IVec S_ 1 := constantI S_ 1 1#1
  let main_v27 : IVec S_ 1 := (fun x v => Host.reduce IntOp.andi x v reducesTo_S8x32_S_d0_1 h_S_) main_v26 main_c_9
  let main_v28 : IVec S_ 1 := andi main_v23 main_v27
  let main_v29 : FVec F S8x1x1 .f32 := Host.absf main_arg6
  let main_cst_10 : FVec F S_ .f32 := constant S_ .f32 0x7F800000#32
  let main_v30 : FVec F S8x1x1 .f32 := broadcastInDim S8x1x1 ![] bcast_S_S8x1x1 main_cst_10
  let main_v31 : IVec S8x1x1 1 := cmpf .olt main_v29 main_v30
  let main_c_11 : IVec S_ 1 := constantI S_ 1 1#1
  let main_v32 : IVec S_ 1 := (fun x v => Host.reduce IntOp.andi x v reducesTo_S8x1x1_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S1600000x32 .f32) (main_arg1 : FVec F S1600000x1 .f32) (main_arg2 : FVec F S32x32 .f32) (main_arg3 : FVec F S32 .f32) (main_arg4 : FVec F S8x65x32 .f32) (main_arg5 : FVec F S8x32 .f32) (main_arg6 : FVec F S8x1x1 .f32) (main_arg7 : FVec F S8x1 .f32) (main_arg8 : FVec F S8x32x32 .f32) (main_arg9 : FVec F S8x32 .f32) (main_arg10 : IVec S2x1600000 32) : IVec S_ 1 :=
  let main_v0 : FVec F S1600000x32 .f32 := Host.absf main_arg0
  let main_cst : FVec F S_ .f32 := constant S_ .f32 0x7F800000#32
  let main_v1 : FVec F S1600000x32 .f32 := broadcastInDim S1600000x32 ![] bcast_S_S1600000x32 main_cst
  let main_v2 : IVec S1600000x32 1 := cmpf .olt main_v0 main_v1
  let main_c : IVec S_ 1 := constantI S_ 1 1#1
  let main_v3 : IVec S_ 1 := (fun x v => Host.reduce IntOp.andi x v reducesTo_S1600000x32_S_d0_1 h_S_) main_v2 main_c
  let main_v4 : FVec F S1600000x1 .f32 := Host.absf main_arg1
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_v13 main_v16
-- ==== Kernel.lean ====
abbrev S1600000x32 : Shape := ⟨2, ![1600000, 32]⟩
abbrev S1600000x1 : Shape := ⟨2, ![1600000, 1]⟩
abbrev S32x32 : Shape := ⟨2, ![32, 32]⟩
abbrev S32 : Shape := ⟨1, ![32]⟩
abbrev S8x65x32 : Shape := ⟨3, ![8, 65, 32]⟩
abbrev S8x32 : Shape := ⟨2, ![8, 32]⟩
abbrev S8x1x1 : Shape := ⟨3, ![8, 1, 1]⟩
abbrev S8x1 : Shape := ⟨2, ![8, 1]⟩
abbrev S8x32x32 : Shape := ⟨3, ![8, 32, 32]⟩
abbrev S2x1600000 : Shape := ⟨2, ![2, 1600000]⟩
abbrev S1x1x1 : Shape := ⟨3, ![1, 1, 1]⟩
abbrev S1x1 : Shape := ⟨2, ![1, 1]⟩
abbrev S1 : Shape := ⟨1, ![1]⟩
abbrev S12500x128 : Shape := ⟨2, ![12500, 128]⟩
abbrev S12500 : Shape := ⟨1, ![12500]⟩
abbrev S12500x1 : Shape := ⟨2, ![12500, 1]⟩
abbrev S_ : Shape := ⟨0, ![]⟩

abbrev nBuf : Space → Nat
  | .hbm => 21
  | .vmem => 4
  | .smem => 0
  | _ => 0

abbrev bufTy : (tb : Table) → Fin (tcTables nBuf tb) → BufTy
  | .hbm, ⟨0, _⟩ => ⟨S1600000x32, .f32⟩
  | .hbm, ⟨1, _⟩ => ⟨S1600000x1, .f32⟩
  | .hbm, ⟨2, _⟩ => ⟨S32x32, .f32⟩
  | .hbm, ⟨3, _⟩ => ⟨S32, .f32⟩
  | .hbm, ⟨4, _⟩ => ⟨S8x65x32, .f32⟩
  | .hbm, ⟨5, _⟩ => ⟨S8x32, .f32⟩
  | .hbm, ⟨6, _⟩ => ⟨S8x1x1, .f32⟩
  | .hbm, ⟨7, _⟩ => ⟨S8x1, .f32⟩
  | .hbm, ⟨8, _⟩ => ⟨S8x32x32, .f32⟩
  | .hbm, ⟨9, _⟩ => ⟨S8x32, .f32⟩
  | .hbm, ⟨10, _⟩ => ⟨S2x1600000, .i32⟩
  | .hbm, ⟨11, _⟩ => ⟨S1x1x1, .f32⟩
  | .hbm, ⟨12, _⟩ => ⟨S1x1, .f32⟩
  | .hbm, ⟨13, _⟩ => ⟨S1x1, .f32⟩
  | .hbm, ⟨14, _⟩ => ⟨S1, .f32⟩
  | .hbm, ⟨15, _⟩ => ⟨S12500x128, .f32⟩
  | .hbm, ⟨16, _⟩ => ⟨S1x1, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S12500x128, .f32⟩
  | .local _ .vmem, ⟨1, _⟩ => ⟨S1x1, .f32⟩
  | .local _ .vmem, ⟨2, _⟩ => ⟨S1x1, .f32⟩
  | .local _ .vmem, ⟨3, _⟩ => ⟨S1x1, .f32⟩
  | _, _ => ⟨S1600000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S12500x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S8x1x1_S1x1x1_0_0_0 : S8x1x1.Slices ![0, 0, 0] S1x1x1
  shapeCasts_S1x1x1_S1x1 : S1x1x1.ShapeCasts S1x1
  slices_S8x1_S1x1_0_0 : S8x1.Slices ![0, 0] S1x1
  shapeCasts_S1x1_S1 : S1x1.ShapeCasts S1
  shapeCasts_S1600000x1_S12500x128 : S1600000x1.ShapeCasts S12500x128
  shapeCasts_S1_S1x1 : S1.ShapeCasts S1x1
  inb_S12500x128_S12500x128_0_0 : ∀ a, (![0, 0] : Fin 2 → Nat) a + S12500x128.size a ≤ S12500x128.size a
  h_S12500x128 : 0 < S12500x128.numel
  shapeCasts_S12500x128_S12500x128 : S12500x128.ShapeCasts S12500x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S12500x128 : S1x1.Broadcasts S12500x128
  reduces_S12500x128_S12500 : S12500x128.Reduces [1] S12500
  shapeCasts_S12500_S12500x1 : S12500.ShapeCasts S12500x1
  reduces_S12500x1_S1 : S12500x1.Reduces [0] S1
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S12500x128.size a ≤ S12500x128.size a
  hwx0_0 : ∀ i : grid0.Coords, EltTy.bits .f32 = 32 ∨ (Rect.block (s := S12500x128) S12500x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v4) S12500x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1600000x32 : Shape := ⟨2, ![1600000, 32]⟩
abbrev S1600000x1 : Shape := ⟨2, ![1600000, 1]⟩
abbrev S32x32 : Shape := ⟨2, ![32, 32]⟩
abbrev S32 : Shape := ⟨1, ![32]⟩
abbrev S8x65x32 : Shape := ⟨3, ![8, 65, 32]⟩
abbrev S8x32 : Shape := ⟨2, ![8, 32]⟩
abbrev S8x1x1 : Shape := ⟨3, ![8, 1, 1]⟩
abbrev S8x1 : Shape := ⟨2, ![8, 1]⟩
abbrev S8x32x32 : Shape := ⟨3, ![8, 32, 32]⟩
abbrev S2x1600000 : Shape := ⟨2, ![2, 1600000]⟩
abbrev S1x1600000 : Shape := ⟨2, ![1, 1600000]⟩
abbrev S1600000 : Shape := ⟨1, ![1600000]⟩
abbrev S1x32 : Shape := ⟨2, ![1, 32]⟩
abbrev S_ : Shape := ⟨0, ![]⟩
abbrev S3200000 : Shape := ⟨1, ![3200000]⟩
abbrev S3200000x32 : Shape := ⟨2, ![3200000, 32]⟩
abbrev S50000x32 : Shape := ⟨2, ![50000, 32]⟩
abbrev S3200000x1 : Shape := ⟨2, ![3200000, 1]⟩
abbrev S50000x1 : Shape := ⟨2, ![50000, 1]⟩
abbrev S1x65x32 : Shape := ⟨3, ![1, 65, 32]⟩
abbrev S65x32 : Shape := ⟨2, ![65, 32]⟩
abbrev S1x1x1 : Shape := ⟨3, ![1, 1, 1]⟩
abbrev S1x1 : Shape := ⟨2, ![1, 1]⟩
abbrev S1 : Shape := ⟨1, ![1]⟩
abbrev S1x32x32 : Shape := ⟨3, ![1, 32, 32]⟩
abbrev S1600000x65 : Shape := ⟨2, ![1600000, 65]⟩

abbrev nBuf : Space → Nat
  | .hbm => 783
  | .vmem => 0
  | .smem => 0
  | _ => 0

abbrev hbmTy0_0 (i : Nat) : BufTy := match i % 128 with
  | 0 => ⟨S1600000x32, .f32⟩
  | 1 => ⟨S1600000x1, .f32⟩
  | 2 => ⟨S32x32, .f32⟩
  | 3 => ⟨S32, .f32⟩
  | 4 => ⟨S8x65x32, .f32⟩
  | 5 => ⟨S8x32, .f32⟩
  | 6 => ⟨S8x1x1, .f32⟩
  | 7 => ⟨S8x1, .f32⟩
  | 8 => ⟨S8x32x32, .f32⟩
  | 9 => ⟨S8x32, .f32⟩
  | 10 => ⟨S2x1600000, .i32⟩
  | 11 => ⟨S1x1600000, .i32⟩
  | 12 => ⟨S1600000, .i32⟩
  | 13 => ⟨S1x1600000, .i32⟩
  | 14 => ⟨S1600000, .i32⟩
  | 15 => ⟨S1600000x32, .f32⟩
  | 16 => ⟨S1x32, .f32⟩
  | 17 => ⟨S1600000x32, .f32⟩
  | 18 => ⟨S1600000x32, .f32⟩
  | 19 => ⟨S_, .f32⟩
  | 20 => ⟨S1600000x32, .f32⟩
  | 21 => ⟨S1600000x32, .f32⟩
  | 22 => ⟨S3200000, .i32⟩
  | 23 => ⟨S3200000x32, .f32⟩
  | 24 => ⟨S_, .f32⟩
  | 25 => ⟨S50000x32, .f32⟩
  | 26 => ⟨S3200000x1, .i32⟩
  | 27 => ⟨S50000x32, .f32⟩
  | 28 => ⟨S_, .f32⟩
  | 29 => ⟨S3200000x1, .f32⟩
  | 30 => ⟨S_, .f32⟩
  | 31 => ⟨S50000x1, .f32⟩
  | 32 => ⟨S3200000x1, .i32⟩
  | 33 => ⟨S50000x1, .f32⟩
  | 34 => ⟨S_, .f32⟩
  | 35 => ⟨S50000x1, .f32⟩
  | 36 => ⟨S50000x1, .f32⟩
  | 37 => ⟨S50000x32, .f32⟩
  | 38 => ⟨S50000x32, .f32⟩
  | 39 => ⟨S1x65x32, .f32⟩
  | 40 => ⟨S65x32, .f32⟩
  | 41 => ⟨S1x32, .f32⟩
  | 42 => ⟨S32, .f32⟩
  | 43 => ⟨S1x1x1, .f32⟩
  | 44 => ⟨S1x1, .f32⟩
  | 45 => ⟨S1x1, .f32⟩
  | 46 => ⟨S1, .f32⟩
  | 47 => ⟨S1x32x32, .f32⟩
  | 48 => ⟨S32x32, .f32⟩
  | 49 => ⟨S1x32, .f32⟩
  | 50 => ⟨S32, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x32, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x32, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x32, .f32⟩
  | 78 => ⟨S1600000x32, .f32⟩
  | 79 => ⟨S1600000x65, .f32⟩
  | 80 => ⟨S1600000x32, .f32⟩
  | 81 => ⟨S1x32, .f32⟩
  | 82 => ⟨S1600000x32, .f32⟩
  | 83 => ⟨S1600000x32, .f32⟩
  | 84 => ⟨S_, .f32⟩
  | 85 => ⟨S1600000x32, .f32⟩
  | 86 => ⟨S1600000x32, .f32⟩
  | 87 => ⟨S1600000x1, .f32⟩
  | 88 => ⟨S1x1, .f32⟩
  | 89 => ⟨S1600000x1, .f32⟩
  | 90 => ⟨S1600000x1, .f32⟩
  | 91 => ⟨S1600000x1, .f32⟩
  | 92 => ⟨S1600000x1, .f32⟩
  | 93 => ⟨S_, .f32⟩
  | 94 => ⟨S1600000x1, .f32⟩
  | 95 => ⟨S1600000x1, .f32⟩
  | 96 => ⟨S_, .f32⟩
  | 97 => ⟨S1600000x1, .f32⟩
  | 98 => ⟨S1600000x1, .f32⟩
  | 99 => ⟨S1600000x32, .f32⟩
  | 100 => ⟨S1600000x32, .f32⟩
  | 101 => ⟨S_, .f32⟩
  | 102 => ⟨S50000x32, .f32⟩
  | 103 => ⟨S1600000x1, .i32⟩
  | 104 => ⟨S50000x32, .f32⟩
  | 105 => ⟨S_, .f32⟩
  | 106 => ⟨S1600000x1, .f32⟩
  | 107 => ⟨S_, .f32⟩
  | 108 => ⟨S50000x1, .f32⟩
  | 109 => ⟨S1600000x1, .i32⟩
  | 110 => ⟨S50000x1, .f32⟩
  | 111 => ⟨S_, .f32⟩
  | 112 => ⟨S50000x1, .f32⟩
  | 113 => ⟨S50000x1, .f32⟩
  | 114 => ⟨S50000x32, .f32⟩
  | 115 => ⟨S50000x32, .f32⟩
  | 116 => ⟨S50000x32, .f32⟩
  | 117 => ⟨S1x32, .f32⟩
  | 118 => ⟨S50000x32, .f32⟩
  | 119 => ⟨S50000x32, .f32⟩
  | 120 => ⟨S50000x32, .f32⟩
  | 121 => ⟨S_, .f32⟩
  | 122 => ⟨S50000x32, .f32⟩
  | 123 => ⟨S50000x32, .f32⟩
  | 124 => ⟨S_, .f32⟩
  | 125 => ⟨S1600000x1, .f32⟩
  | 126 => ⟨S1600000x1, .f32⟩
  | 127 => ⟨S1600000x1, .f32⟩
  | _ => ⟨S1600000x32, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S1x65x32, .f32⟩
  | 5 => ⟨S65x32, .f32⟩
  | 6 => ⟨S1x32, .f32⟩
  | 7 => ⟨S32, .f32⟩
  | 8 => ⟨S1x1x1, .f32⟩
  | 9 => ⟨S1x1, .f32⟩
  | 10 => ⟨S1x1, .f32⟩
  | 11 => ⟨S1, .f32⟩
  | 12 => ⟨S1x32x32, .f32⟩
  | 13 => ⟨S32x32, .f32⟩
  | 14 => ⟨S1x32, .f32⟩
  | 15 => ⟨S32, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x32, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x32, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x32, .f32⟩
  | 43 => ⟨S1600000x32, .f32⟩
  | 44 => ⟨S1600000x65, .f32⟩
  | 45 => ⟨S1600000x32, .f32⟩
  | 46 => ⟨S1x32, .f32⟩
  | 47 => ⟨S1600000x32, .f32⟩
  | 48 => ⟨S1600000x32, .f32⟩
  | 49 => ⟨S_, .f32⟩
  | 50 => ⟨S1600000x32, .f32⟩
  | 51 => ⟨S1600000x32, .f32⟩
  | 52 => ⟨S1600000x1, .f32⟩
  | 53 => ⟨S1x1, .f32⟩
  | 54 => ⟨S1600000x1, .f32⟩
  | 55 => ⟨S1600000x1, .f32⟩
  | 56 => ⟨S1600000x1, .f32⟩
  | 57 => ⟨S1600000x1, .f32⟩
  | 58 => ⟨S_, .f32⟩
  | 59 => ⟨S1600000x1, .f32⟩
  | 60 => ⟨S1600000x1, .f32⟩
  | 61 => ⟨S_, .f32⟩
  | 62 => ⟨S1600000x1, .f32⟩
  | 63 => ⟨S1600000x1, .f32⟩
  | 64 => ⟨S1600000x32, .f32⟩
  | 65 => ⟨S1600000x32, .f32⟩
  | 66 => ⟨S_, .f32⟩
  | 67 => ⟨S50000x32, .f32⟩
  | 68 => ⟨S1600000x1, .i32⟩
  | 69 => ⟨S50000x32, .f32⟩
  | 70 => ⟨S_, .f32⟩
  | 71 => ⟨S1600000x1, .f32⟩
  | 72 => ⟨S_, .f32⟩
  | 73 => ⟨S50000x1, .f32⟩
  | 74 => ⟨S1600000x1, .i32⟩
  | 75 => ⟨S50000x1, .f32⟩
  | 76 => ⟨S_, .f32⟩
  | 77 => ⟨S50000x1, .f32⟩
  | 78 => ⟨S50000x1, .f32⟩
  | 79 => ⟨S50000x32, .f32⟩
  | 80 => ⟨S50000x32, .f32⟩
  | 81 => ⟨S50000x32, .f32⟩
  | 82 => ⟨S1x32, .f32⟩
  | 83 => ⟨S50000x32, .f32⟩
  | 84 => ⟨S50000x32, .f32⟩
  | 85 => ⟨S50000x32, .f32⟩
  | 86 => ⟨S_, .f32⟩
  | 87 => ⟨S50000x32, .f32⟩
  | 88 => ⟨S50000x32, .f32⟩
  | 89 => ⟨S_, .f32⟩
  | 90 => ⟨S1600000x1, .f32⟩
  | 91 => ⟨S1600000x1, .f32⟩
  | 92 => ⟨S1600000x1, .f32⟩
  | 93 => ⟨S_, .f32⟩
  | 94 => ⟨S_, .f32⟩
  | 95 => ⟨S_, .f32⟩
  | 96 => ⟨S_, .f32⟩
  | 97 => ⟨S1x65x32, .f32⟩
  | 98 => ⟨S65x32, .f32⟩
  | 99 => ⟨S1x32, .f32⟩
  | 100 => ⟨S32, .f32⟩
  | 101 => ⟨S1x1x1, .f32⟩
  | 102 => ⟨S1x1, .f32⟩
  | 103 => ⟨S1x1, .f32⟩
  | 104 => ⟨S1, .f32⟩
  | 105 => ⟨S1x32x32, .f32⟩
  | 106 => ⟨S32x32, .f32⟩
  | 107 => ⟨S1x32, .f32⟩
  | 108 => ⟨S32, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x32, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x32, .f32⟩
  | 127 => ⟨S_, .i32⟩
  | _ => ⟨S1600000x32, .f32⟩

abbrev hbmTy0_2 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x32, .f32⟩
  | 8 => ⟨S1600000x32, .f32⟩
  | 9 => ⟨S1600000x65, .f32⟩
  | 10 => ⟨S1600000x32, .f32⟩
  | 11 => ⟨S1x32, .f32⟩
  | 12 => ⟨S1600000x32, .f32⟩
  | 13 => ⟨S1600000x32, .f32⟩
  | 14 => ⟨S_, .f32⟩
  | 15 => ⟨S1600000x32, .f32⟩
  | 16 => ⟨S1600000x32, .f32⟩
  | 17 => ⟨S1600000x1, .f32⟩
  | 18 => ⟨S1x1, .f32⟩
  | 19 => ⟨S1600000x1, .f32⟩
  | 20 => ⟨S1600000x1, .f32⟩
  | 21 => ⟨S1600000x1, .f32⟩
  | 22 => ⟨S1600000x1, .f32⟩
  | 23 => ⟨S_, .f32⟩
  | 24 => ⟨S1600000x1, .f32⟩
  | 25 => ⟨S1600000x1, .f32⟩
  | 26 => ⟨S_, .f32⟩
  | 27 => ⟨S1600000x1, .f32⟩
  | 28 => ⟨S1600000x1, .f32⟩
  | 29 => ⟨S1600000x32, .f32⟩
  | 30 => ⟨S1600000x32, .f32⟩
  | 31 => ⟨S_, .f32⟩
  | 32 => ⟨S50000x32, .f32⟩
  | 33 => ⟨S1600000x1, .i32⟩
  | 34 => ⟨S50000x32, .f32⟩
  | 35 => ⟨S_, .f32⟩
  | 36 => ⟨S1600000x1, .f32⟩
  | 37 => ⟨S_, .f32⟩
  | 38 => ⟨S50000x1, .f32⟩
  | 39 => ⟨S1600000x1, .i32⟩
  | 40 => ⟨S50000x1, .f32⟩
  | 41 => ⟨S_, .f32⟩
  | 42 => ⟨S50000x1, .f32⟩
  | 43 => ⟨S50000x1, .f32⟩
  | 44 => ⟨S50000x32, .f32⟩
  | 45 => ⟨S50000x32, .f32⟩
  | 46 => ⟨S50000x32, .f32⟩
  | 47 => ⟨S1x32, .f32⟩
  | 48 => ⟨S50000x32, .f32⟩
  | 49 => ⟨S50000x32, .f32⟩
  | 50 => ⟨S50000x32, .f32⟩
  | 51 => ⟨S_, .f32⟩
  | 52 => ⟨S50000x32, .f32⟩
  | 53 => ⟨S50000x32, .f32⟩
  | 54 => ⟨S_, .f32⟩
  | 55 => ⟨S1600000x1, .f32⟩
  | 56 => ⟨S1600000x1, .f32⟩
  | 57 => ⟨S1600000x1, .f32⟩
  | 58 => ⟨S_, .f32⟩
  | 59 => ⟨S_, .f32⟩
  | 60 => ⟨S_, .f32⟩
  | 61 => ⟨S_, .f32⟩
  | 62 => ⟨S1x65x32, .f32⟩
  | 63 => ⟨S65x32, .f32⟩
  | 64 => ⟨S1x32, .f32⟩
  | 65 => ⟨S32, .f32⟩
  | 66 => ⟨S1x1x1, .f32⟩
  | 67 => ⟨S1x1, .f32⟩
  | 68 => ⟨S1x1, .f32⟩
  | 69 => ⟨S1, .f32⟩
  | 70 => ⟨S1x32x32, .f32⟩
  | 71 => ⟨S32x32, .f32⟩
  | 72 => ⟨S1x32, .f32⟩
  | 73 => ⟨S32, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x32, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x32, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x32, .f32⟩
  | 101 => ⟨S1600000x32, .f32⟩
  | 102 => ⟨S1600000x65, .f32⟩
  | 103 => ⟨S1600000x32, .f32⟩
  | 104 => ⟨S1x32, .f32⟩
  | 105 => ⟨S1600000x32, .f32⟩
  | 106 => ⟨S1600000x32, .f32⟩
  | 107 => ⟨S_, .f32⟩
  | 108 => ⟨S1600000x32, .f32⟩
  | 109 => ⟨S1600000x32, .f32⟩
  | 110 => ⟨S1600000x1, .f32⟩
  | 111 => ⟨S1x1, .f32⟩
  | 112 => ⟨S1600000x1, .f32⟩
  | 113 => ⟨S1600000x1, .f32⟩
  | 114 => ⟨S1600000x1, .f32⟩
  | 115 => ⟨S1600000x1, .f32⟩
  | 116 => ⟨S_, .f32⟩
  | 117 => ⟨S1600000x1, .f32⟩
  | 118 => ⟨S1600000x1, .f32⟩
  | 119 => ⟨S_, .f32⟩
  | 120 => ⟨S1600000x1, .f32⟩
  | 121 => ⟨S1600000x1, .f32⟩
  | 122 => ⟨S1600000x32, .f32⟩
  | 123 => ⟨S1600000x32, .f32⟩
  | 124 => ⟨S_, .f32⟩
  | 125 => ⟨S50000x32, .f32⟩
  | 126 => ⟨S1600000x1, .i32⟩
  | 127 => ⟨S50000x32, .f32⟩
  | _ => ⟨S1600000x32, .f32⟩

abbrev hbmTy0_3 (i : Nat) : BufTy := match i % 128 with
  | 0 => ⟨S_, .f32⟩
  | 1 => ⟨S1600000x1, .f32⟩
  | 2 => ⟨S_, .f32⟩
  | 3 => ⟨S50000x1, .f32⟩
  | 4 => ⟨S1600000x1, .i32⟩
  | 5 => ⟨S50000x1, .f32⟩
  | 6 => ⟨S_, .f32⟩
  | 7 => ⟨S50000x1, .f32⟩
  | 8 => ⟨S50000x1, .f32⟩
  | 9 => ⟨S50000x32, .f32⟩
  | 10 => ⟨S50000x32, .f32⟩
  | 11 => ⟨S50000x32, .f32⟩
  | 12 => ⟨S1x32, .f32⟩
  | 13 => ⟨S50000x32, .f32⟩
  | 14 => ⟨S50000x32, .f32⟩
  | 15 => ⟨S50000x32, .f32⟩
  | 16 => ⟨S_, .f32⟩
  | 17 => ⟨S50000x32, .f32⟩
  | 18 => ⟨S50000x32, .f32⟩
  | 19 => ⟨S_, .f32⟩
  | 20 => ⟨S1600000x1, .f32⟩
  | 21 => ⟨S1600000x1, .f32⟩
  | 22 => ⟨S1600000x1, .f32⟩
  | 23 => ⟨S_, .f32⟩
  | 24 => ⟨S_, .f32⟩
  | 25 => ⟨S_, .f32⟩
  | 26 => ⟨S_, .f32⟩
  | 27 => ⟨S1x65x32, .f32⟩
  | 28 => ⟨S65x32, .f32⟩
  | 29 => ⟨S1x32, .f32⟩
  | 30 => ⟨S32, .f32⟩
  | 31 => ⟨S1x1x1, .f32⟩
  | 32 => ⟨S1x1, .f32⟩
  | 33 => ⟨S1x1, .f32⟩
  | 34 => ⟨S1, .f32⟩
  | 35 => ⟨S1x32x32, .f32⟩
  | 36 => ⟨S32x32, .f32⟩
  | 37 => ⟨S1x32, .f32⟩
  | 38 => ⟨S32, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x32, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x32, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x32, .f32⟩
  | 66 => ⟨S1600000x32, .f32⟩
  | 67 => ⟨S1600000x65, .f32⟩
  | 68 => ⟨S1600000x32, .f32⟩
  | 69 => ⟨S1x32, .f32⟩
  | 70 => ⟨S1600000x32, .f32⟩
  | 71 => ⟨S1600000x32, .f32⟩
  | 72 => ⟨S_, .f32⟩
  | 73 => ⟨S1600000x32, .f32⟩
  | 74 => ⟨S1600000x32, .f32⟩
  | 75 => ⟨S1600000x1, .f32⟩
  | 76 => ⟨S1x1, .f32⟩
  | 77 => ⟨S1600000x1, .f32⟩
  | 78 => ⟨S1600000x1, .f32⟩
  | 79 => ⟨S1600000x1, .f32⟩
  | 80 => ⟨S1600000x1, .f32⟩
  | 81 => ⟨S_, .f32⟩
  | 82 => ⟨S1600000x1, .f32⟩
  | 83 => ⟨S1600000x1, .f32⟩
  | 84 => ⟨S_, .f32⟩
  | 85 => ⟨S1600000x1, .f32⟩
  | 86 => ⟨S1600000x1, .f32⟩
  | 87 => ⟨S1600000x32, .f32⟩
  | 88 => ⟨S1600000x32, .f32⟩
  | 89 => ⟨S_, .f32⟩
  | 90 => ⟨S50000x32, .f32⟩
  | 91 => ⟨S1600000x1, .i32⟩
  | 92 => ⟨S50000x32, .f32⟩
  | 93 => ⟨S_, .f32⟩
  | 94 => ⟨S1600000x1, .f32⟩
  | 95 => ⟨S_, .f32⟩
  | 96 => ⟨S50000x1, .f32⟩
  | 97 => ⟨S1600000x1, .i32⟩
  | 98 => ⟨S50000x1, .f32⟩
  | 99 => ⟨S_, .f32⟩
  | 100 => ⟨S50000x1, .f32⟩
  | 101 => ⟨S50000x1, .f32⟩
  | 102 => ⟨S50000x32, .f32⟩
  | 103 => ⟨S50000x32, .f32⟩
  | 104 => ⟨S50000x32, .f32⟩
  | 105 => ⟨S1x32, .f32⟩
  | 106 => ⟨S50000x32, .f32⟩
  | 107 => ⟨S50000x32, .f32⟩
  | 108 => ⟨S50000x32, .f32⟩
  | 109 => ⟨S_, .f32⟩
  | 110 => ⟨S50000x32, .f32⟩
  | 111 => ⟨S50000x32, .f32⟩
  | 112 => ⟨S_, .f32⟩
  | 113 => ⟨S1600000x1, .f32⟩
  | 114 => ⟨S1600000x1, .f32⟩
  | 115 => ⟨S1600000x1, .f32⟩
  | 116 => ⟨S_, .f32⟩
  | 117 => ⟨S_, .f32⟩
  | 118 => ⟨S_, .f32⟩
  | 119 => ⟨S_, .f32⟩
  | 120 => ⟨S1x65x32, .f32⟩
  | 121 => ⟨S65x32, .f32⟩
  | 122 => ⟨S1x32, .f32⟩
  | 123 => ⟨S32, .f32⟩
  | 124 => ⟨S1x1x1, .f32⟩
  | 125 => ⟨S1x1, .f32⟩
  | 126 => ⟨S1x1, .f32⟩
  | 127 => ⟨S1, .f32⟩
  | _ => ⟨S1600000x32, .f32⟩

abbrev hbmTy0_4 (i : Nat) : BufTy := match i % 128 with
  | 0 => ⟨S1x32x32, .f32⟩
  | 1 => ⟨S32x32, .f32⟩
  | 2 => ⟨S1x32, .f32⟩
  | 3 => ⟨S32, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x32, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x32, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x32, .f32⟩
  | 31 => ⟨S1600000x32, .f32⟩
  | 32 => ⟨S1600000x65, .f32⟩
  | 33 => ⟨S1600000x32, .f32⟩
  | 34 => ⟨S1x32, .f32⟩
  | 35 => ⟨S1600000x32, .f32⟩
  | 36 => ⟨S1600000x32, .f32⟩
  | 37 => ⟨S_, .f32⟩
  | 38 => ⟨S1600000x32, .f32⟩
  | 39 => ⟨S1600000x32, .f32⟩
  | 40 => ⟨S1600000x1, .f32⟩
  | 41 => ⟨S1x1, .f32⟩
  | 42 => ⟨S1600000x1, .f32⟩
  | 43 => ⟨S1600000x1, .f32⟩
  | 44 => ⟨S1600000x1, .f32⟩
  | 45 => ⟨S1600000x1, .f32⟩
  | 46 => ⟨S_, .f32⟩
  | 47 => ⟨S1600000x1, .f32⟩
  | 48 => ⟨S1600000x1, .f32⟩
  | 49 => ⟨S_, .f32⟩
  | 50 => ⟨S1600000x1, .f32⟩
  | 51 => ⟨S1600000x1, .f32⟩
  | 52 => ⟨S1600000x32, .f32⟩
  | 53 => ⟨S1600000x32, .f32⟩
  | 54 => ⟨S_, .f32⟩
  | 55 => ⟨S50000x32, .f32⟩
  | 56 => ⟨S1600000x1, .i32⟩
  | 57 => ⟨S50000x32, .f32⟩
  | 58 => ⟨S_, .f32⟩
  | 59 => ⟨S1600000x1, .f32⟩
  | 60 => ⟨S_, .f32⟩
  | 61 => ⟨S50000x1, .f32⟩
  | 62 => ⟨S1600000x1, .i32⟩
  | 63 => ⟨S50000x1, .f32⟩
  | 64 => ⟨S_, .f32⟩
  | 65 => ⟨S50000x1, .f32⟩
  | 66 => ⟨S50000x1, .f32⟩
  | 67 => ⟨S50000x32, .f32⟩
  | 68 => ⟨S50000x32, .f32⟩
  | 69 => ⟨S50000x32, .f32⟩
  | 70 => ⟨S1x32, .f32⟩
  | 71 => ⟨S50000x32, .f32⟩
  | 72 => ⟨S50000x32, .f32⟩
  | 73 => ⟨S50000x32, .f32⟩
  | 74 => ⟨S_, .f32⟩
  | 75 => ⟨S50000x32, .f32⟩
  | 76 => ⟨S50000x32, .f32⟩
  | 77 => ⟨S_, .f32⟩
  | 78 => ⟨S1600000x1, .f32⟩
  | 79 => ⟨S1600000x1, .f32⟩
  | 80 => ⟨S1600000x1, .f32⟩
  | 81 => ⟨S_, .f32⟩
  | 82 => ⟨S_, .f32⟩
  | 83 => ⟨S_, .f32⟩
  | 84 => ⟨S_, .f32⟩
  | 85 => ⟨S1x65x32, .f32⟩
  | 86 => ⟨S65x32, .f32⟩
  | 87 => ⟨S1x32, .f32⟩
  | 88 => ⟨S32, .f32⟩
  | 89 => ⟨S1x1x1, .f32⟩
  | 90 => ⟨S1x1, .f32⟩
  | 91 => ⟨S1x1, .f32⟩
  | 92 => ⟨S1, .f32⟩
  | 93 => ⟨S1x32x32, .f32⟩
  | 94 => ⟨S32x32, .f32⟩
  | 95 => ⟨S1x32, .f32⟩
  | 96 => ⟨S32, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x32, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x32, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x32, .f32⟩
  | 124 => ⟨S1600000x32, .f32⟩
  | 125 => ⟨S1600000x65, .f32⟩
  | 126 => ⟨S1600000x32, .f32⟩
  | 127 => ⟨S1x32, .f32⟩
  | _ => ⟨S1600000x32, .f32⟩

abbrev hbmTy0_5 (i : Nat) : BufTy := match i % 128 with
  | 0 => ⟨S1600000x32, .f32⟩
  | 1 => ⟨S1600000x32, .f32⟩
  | 2 => ⟨S_, .f32⟩
  | 3 => ⟨S1600000x32, .f32⟩
  | 4 => ⟨S1600000x32, .f32⟩
  | 5 => ⟨S1600000x1, .f32⟩
  | 6 => ⟨S1x1, .f32⟩
  | 7 => ⟨S1600000x1, .f32⟩
  | 8 => ⟨S1600000x1, .f32⟩
  | 9 => ⟨S1600000x1, .f32⟩
  | 10 => ⟨S1600000x1, .f32⟩
  | 11 => ⟨S_, .f32⟩
  | 12 => ⟨S1600000x1, .f32⟩
  | 13 => ⟨S1600000x1, .f32⟩
  | 14 => ⟨S_, .f32⟩
  | 15 => ⟨S1600000x1, .f32⟩
  | 16 => ⟨S1600000x1, .f32⟩
  | 17 => ⟨S1600000x32, .f32⟩
  | 18 => ⟨S1600000x32, .f32⟩
  | 19 => ⟨S_, .f32⟩
  | 20 => ⟨S50000x32, .f32⟩
  | 21 => ⟨S1600000x1, .i32⟩
  | 22 => ⟨S50000x32, .f32⟩
  | 23 => ⟨S_, .f32⟩
  | 24 => ⟨S1600000x1, .f32⟩
  | 25 => ⟨S_, .f32⟩
  | 26 => ⟨S50000x1, .f32⟩
  | 27 => ⟨S1600000x1, .i32⟩
  | 28 => ⟨S50000x1, .f32⟩
  | 29 => ⟨S_, .f32⟩
  | 30 => ⟨S50000x1, .f32⟩
  | 31 => ⟨S50000x1, .f32⟩
  | 32 => ⟨S50000x32, .f32⟩
  | 33 => ⟨S50000x32, .f32⟩
  | 34 => ⟨S50000x32, .f32⟩
  | 35 => ⟨S1x32, .f32⟩
  | 36 => ⟨S50000x32, .f32⟩
  | 37 => ⟨S50000x32, .f32⟩
  | 38 => ⟨S50000x32, .f32⟩
  | 39 => ⟨S_, .f32⟩
  | 40 => ⟨S50000x32, .f32⟩
  | 41 => ⟨S50000x32, .f32⟩
  | 42 => ⟨S_, .f32⟩
  | 43 => ⟨S1600000x1, .f32⟩
  | 44 => ⟨S1600000x1, .f32⟩
  | 45 => ⟨S1600000x1, .f32⟩
  | 46 => ⟨S_, .f32⟩
  | 47 => ⟨S_, .f32⟩
  | 48 => ⟨S_, .f32⟩
  | 49 => ⟨S_, .f32⟩
  | 50 => ⟨S1x65x32, .f32⟩
  | 51 => ⟨S65x32, .f32⟩
  | 52 => ⟨S1x32, .f32⟩
  | 53 => ⟨S32, .f32⟩
  | 54 => ⟨S1x1x1, .f32⟩
  | 55 => ⟨S1x1, .f32⟩
  | 56 => ⟨S1x1, .f32⟩
  | 57 => ⟨S1, .f32⟩
  | 58 => ⟨S1x32x32, .f32⟩
  | 59 => ⟨S32x32, .f32⟩
  | 60 => ⟨S1x32, .f32⟩
  | 61 => ⟨S32, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x32, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x32, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x32, .f32⟩
  | 89 => ⟨S1600000x32, .f32⟩
  | 90 => ⟨S1600000x65, .f32⟩
  | 91 => ⟨S1600000x32, .f32⟩
  | 92 => ⟨S1x32, .f32⟩
  | 93 => ⟨S1600000x32, .f32⟩
  | 94 => ⟨S1600000x32, .f32⟩
  | 95 => ⟨S_, .f32⟩
  | 96 => ⟨S1600000x32, .f32⟩
  | 97 => ⟨S1600000x32, .f32⟩
  | 98 => ⟨S1600000x1, .f32⟩
  | 99 => ⟨S1x1, .f32⟩
  | 100 => ⟨S1600000x1, .f32⟩
  | 101 => ⟨S1600000x1, .f32⟩
  | 102 => ⟨S1600000x1, .f32⟩
  | 103 => ⟨S1600000x1, .f32⟩
  | 104 => ⟨S_, .f32⟩
  | 105 => ⟨S1600000x1, .f32⟩
  | 106 => ⟨S1600000x1, .f32⟩
  | 107 => ⟨S_, .f32⟩
  | 108 => ⟨S1600000x1, .f32⟩
  | 109 => ⟨S1600000x1, .f32⟩
  | 110 => ⟨S1600000x32, .f32⟩
  | 111 => ⟨S1600000x32, .f32⟩
  | 112 => ⟨S_, .f32⟩
  | 113 => ⟨S50000x32, .f32⟩
  | 114 => ⟨S1600000x1, .i32⟩
  | 115 => ⟨S50000x32, .f32⟩
  | 116 => ⟨S_, .f32⟩
  | 117 => ⟨S1600000x1, .f32⟩
  | 118 => ⟨S_, .f32⟩
  | 119 => ⟨S50000x1, .f32⟩
  | 120 => ⟨S1600000x1, .i32⟩
  | 121 => ⟨S50000x1, .f32⟩
  | 122 => ⟨S_, .f32⟩
  | 123 => ⟨S50000x1, .f32⟩
  | 124 => ⟨S50000x1, .f32⟩
  | 125 => ⟨S50000x32, .f32⟩
  | 126 => ⟨S50000x32, .f32⟩
  | 127 => ⟨S50000x32, .f32⟩
  | _ => ⟨S1600000x32, .f32⟩

abbrev hbmTy0_6 (i : Nat) : BufTy := match i % 128 with
  | 0 => ⟨S1x32, .f32⟩
  | 1 => ⟨S50000x32, .f32⟩
  | 2 => ⟨S50000x32, .f32⟩
  | 3 => ⟨S50000x32, .f32⟩
  | 4 => ⟨S_, .f32⟩
  | 5 => ⟨S50000x32, .f32⟩
  | 6 => ⟨S50000x32, .f32⟩
  | 7 => ⟨S_, .f32⟩
  | 8 => ⟨S1600000x1, .f32⟩
  | 9 => ⟨S1600000x1, .f32⟩
  | 10 => ⟨S1600000x1, .f32⟩
  | 11 => ⟨S_, .f32⟩
  | 12 => ⟨S_, .f32⟩
  | 13 => ⟨S_, .f32⟩
  | 14 => ⟨S_, .f32⟩
  | _ => ⟨S1600000x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S1600000x32, .f32⟩

abbrev bufTy : (tb : Table) → Fin (tcTables nBuf tb) → BufTy
  | .hbm, ⟨i, _⟩ => hbmTy i
  | _, _ => ⟨S1600000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_cst : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c : Ref sig .tc := ⟨.hbm, 51, rfl⟩
abbrev main_v34 : Ref sig .tc := ⟨.hbm, 52, rfl⟩
abbrev main_v35 : Ref sig .tc := ⟨.hbm, 53, rfl⟩
abbrev main_c_3 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_4 : Ref sig .tc := ⟨.hbm, 60, rfl⟩
abbrev main_v41 : Ref sig .tc := ⟨.hbm, 61, rfl⟩
abbrev main_v42 : Ref sig .tc := ⟨.hbm, 62, rfl⟩
abbrev main_c_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_6 : Ref sig .tc := ⟨.hbm, 69, rfl⟩
abbrev main_v48 : Ref sig .tc := ⟨.hbm, 70, rfl⟩
abbrev main_v49 : Ref sig .tc := ⟨.hbm, 71, rfl⟩
abbrev main_c_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call1_cst : Ref sig .tc := ⟨.hbm, 84, rfl⟩
abbrev main_call1_v0 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_8 : Ref sig .tc := ⟨.hbm, 93, rfl⟩
abbrev main_v68 : Ref sig .tc := ⟨.hbm, 94, rfl⟩
abbrev main_v69 : Ref sig .tc := ⟨.hbm, 95, rfl⟩
abbrev main_cst_9 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_10 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_11 : Ref sig .tc := ⟨.hbm, 105, rfl⟩
abbrev main_v77 : Ref sig .tc := ⟨.hbm, 106, rfl⟩
abbrev main_cst_12 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_13 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_call2_cst : Ref sig .tc := ⟨.hbm, 121, rfl⟩
abbrev main_call2_v0 : Ref sig .tc := ⟨.hbm, 122, rfl⟩
abbrev main_v90 : Ref sig .tc := ⟨.hbm, 123, rfl⟩
abbrev main_cst_14 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_15 : Ref sig .tc := ⟨.hbm, 128, rfl⟩
abbrev main_v94 : Ref sig .tc := ⟨.hbm, 129, rfl⟩
abbrev main_cst_16 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_17 : Ref sig .tc := ⟨.hbm, 144, rfl⟩
abbrev main_v108 : Ref sig .tc := ⟨.hbm, 145, rfl⟩
abbrev main_v109 : Ref sig .tc := ⟨.hbm, 146, rfl⟩
abbrev main_c_18 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_c_19 : Ref sig .tc := ⟨.hbm, 153, rfl⟩
abbrev main_v115 : Ref sig .tc := ⟨.hbm, 154, rfl⟩
abbrev main_v116 : Ref sig .tc := ⟨.hbm, 155, rfl⟩
abbrev main_c_20 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_c_21 : Ref sig .tc := ⟨.hbm, 162, rfl⟩
abbrev main_v122 : Ref sig .tc := ⟨.hbm, 163, rfl⟩
abbrev main_v123 : Ref sig .tc := ⟨.hbm, 164, rfl⟩
abbrev main_c_22 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_call3_cst : Ref sig .tc := ⟨.hbm, 177, rfl⟩
abbrev main_call3_v0 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_cst_23 : Ref sig .tc := ⟨.hbm, 186, rfl⟩
abbrev main_v142 : Ref sig .tc := ⟨.hbm, 187, rfl⟩
abbrev main_v143 : Ref sig .tc := ⟨.hbm, 188, rfl⟩
abbrev main_cst_24 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_cst_25 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_cst_26 : Ref sig .tc := ⟨.hbm, 198, rfl⟩
abbrev main_v151 : Ref sig .tc := ⟨.hbm, 199, rfl⟩
abbrev main_cst_27 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_cst_28 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_call4_cst : Ref sig .tc := ⟨.hbm, 214, rfl⟩
abbrev main_call4_v0 : Ref sig .tc := ⟨.hbm, 215, rfl⟩
abbrev main_v164 : Ref sig .tc := ⟨.hbm, 216, rfl⟩
abbrev main_cst_29 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_cst_30 : Ref sig .tc := ⟨.hbm, 221, rfl⟩
abbrev main_v168 : Ref sig .tc := ⟨.hbm, 222, rfl⟩
abbrev main_cst_31 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_c_32 : Ref sig .tc := ⟨.hbm, 237, rfl⟩
abbrev main_v182 : Ref sig .tc := ⟨.hbm, 238, rfl⟩
abbrev main_v183 : Ref sig .tc := ⟨.hbm, 239, rfl⟩
abbrev main_c_33 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_c_34 : Ref sig .tc := ⟨.hbm, 246, rfl⟩
abbrev main_v189 : Ref sig .tc := ⟨.hbm, 247, rfl⟩
abbrev main_v190 : Ref sig .tc := ⟨.hbm, 248, rfl⟩
abbrev main_c_35 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_c_36 : Ref sig .tc := ⟨.hbm, 255, rfl⟩
abbrev main_v196 : Ref sig .tc := ⟨.hbm, 256, rfl⟩
abbrev main_v197 : Ref sig .tc := ⟨.hbm, 257, rfl⟩
abbrev main_c_37 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_call5_cst : Ref sig .tc := ⟨.hbm, 270, rfl⟩
abbrev main_call5_v0 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_cst_38 : Ref sig .tc := ⟨.hbm, 279, rfl⟩
abbrev main_v216 : Ref sig .tc := ⟨.hbm, 280, rfl⟩
abbrev main_v217 : Ref sig .tc := ⟨.hbm, 281, rfl⟩
abbrev main_cst_39 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_cst_40 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_cst_41 : Ref sig .tc := ⟨.hbm, 291, rfl⟩
abbrev main_v225 : Ref sig .tc := ⟨.hbm, 292, rfl⟩
abbrev main_cst_42 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_cst_43 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_call6_cst : Ref sig .tc := ⟨.hbm, 307, rfl⟩
abbrev main_call6_v0 : Ref sig .tc := ⟨.hbm, 308, rfl⟩
abbrev main_v238 : Ref sig .tc := ⟨.hbm, 309, rfl⟩
abbrev main_cst_44 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_cst_45 : Ref sig .tc := ⟨.hbm, 314, rfl⟩
abbrev main_v242 : Ref sig .tc := ⟨.hbm, 315, rfl⟩
abbrev main_cst_46 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_v246 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_v253 : Ref sig .tc := ⟨.hbm, 327, rfl⟩
abbrev main_v254 : Ref sig .tc := ⟨.hbm, 328, rfl⟩
abbrev main_v255 : Ref sig .tc := ⟨.hbm, 329, rfl⟩
abbrev main_c_47 : Ref sig .tc := ⟨.hbm, 330, rfl⟩
abbrev main_v256 : Ref sig .tc := ⟨.hbm, 331, rfl⟩
abbrev main_v257 : Ref sig .tc := ⟨.hbm, 332, rfl⟩
abbrev main_c_48 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_c_49 : Ref sig .tc := ⟨.hbm, 339, rfl⟩
abbrev main_v263 : Ref sig .tc := ⟨.hbm, 340, rfl⟩
abbrev main_v264 : Ref sig .tc := ⟨.hbm, 341, rfl⟩
abbrev main_c_50 : Ref sig .tc := ⟨.hbm, 342, rfl⟩
abbrev main_v265 : Ref sig .tc := ⟨.hbm, 343, rfl⟩
abbrev main_v266 : Ref sig .tc := ⟨.hbm, 344, rfl⟩
abbrev main_v267 : Ref sig .tc := ⟨.hbm, 345, rfl⟩
abbrev main_v268 : Ref sig .tc := ⟨.hbm, 346, rfl⟩
abbrev main_v269 : Ref sig .tc := ⟨.hbm, 347, rfl⟩
abbrev main_c_51 : Ref sig .tc := ⟨.hbm, 348, rfl⟩
abbrev main_v270 : Ref sig .tc := ⟨.hbm, 349, rfl⟩
abbrev main_v271 : Ref sig .tc := ⟨.hbm, 350, rfl⟩
abbrev main_c_52 : Ref sig .tc := ⟨.hbm, 351, rfl⟩
abbrev main_v272 : Ref sig .tc := ⟨.hbm, 352, rfl⟩
abbrev main_v273 : Ref sig .tc := ⟨.hbm, 353, rfl⟩
abbrev main_v274 : Ref sig .tc := ⟨.hbm, 354, rfl⟩
abbrev main_v275 : Ref sig .tc := ⟨.hbm, 355, rfl⟩
abbrev main_v276 : Ref sig .tc := ⟨.hbm, 356, rfl⟩
abbrev main_v277 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_v281 : Ref sig .tc := ⟨.hbm, 361, rfl⟩
abbrev main_v282 : Ref sig .tc := ⟨.hbm, 362, rfl⟩
abbrev main_call7_cst : Ref sig .tc := ⟨.hbm, 363, rfl⟩
abbrev main_call7_v0 : Ref sig .tc := ⟨.hbm, 364, rfl⟩
abbrev main_v283 : Ref sig .tc := ⟨.hbm, 365, rfl⟩
abbrev main_v284 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_cst_53 : Ref sig .tc := ⟨.hbm, 372, rfl⟩
abbrev main_v290 : Ref sig .tc := ⟨.hbm, 373, rfl⟩
abbrev main_v291 : Ref sig .tc := ⟨.hbm, 374, rfl⟩
abbrev main_cst_54 : Ref sig .tc := ⟨.hbm, 375, rfl⟩
abbrev main_v292 : Ref sig .tc := ⟨.hbm, 376, rfl⟩
abbrev main_v293 : Ref sig .tc := ⟨.hbm, 377, rfl⟩
abbrev main_v294 : Ref sig .tc := ⟨.hbm, 378, rfl⟩
abbrev main_v295 : Ref sig .tc := ⟨.hbm, 379, rfl⟩
abbrev main_cst_55 : Ref sig .tc := ⟨.hbm, 380, rfl⟩
abbrev main_v296 : Ref sig .tc := ⟨.hbm, 381, rfl⟩
abbrev main_v297 : Ref sig .tc := ⟨.hbm, 382, rfl⟩
abbrev main_v298 : Ref sig .tc := ⟨.hbm, 383, rfl⟩
abbrev main_cst_56 : Ref sig .tc := ⟨.hbm, 384, rfl⟩
abbrev main_v299 : Ref sig .tc := ⟨.hbm, 385, rfl⟩
abbrev main_cst_57 : Ref sig .tc := ⟨.hbm, 386, rfl⟩
abbrev main_v300 : Ref sig .tc := ⟨.hbm, 387, rfl⟩
abbrev main_v301 : Ref sig .tc := ⟨.hbm, 388, rfl⟩
abbrev main_v302 : Ref sig .tc := ⟨.hbm, 389, rfl⟩
abbrev main_cst_58 : Ref sig .tc := ⟨.hbm, 390, rfl⟩
abbrev main_v303 : Ref sig .tc := ⟨.hbm, 391, rfl⟩
abbrev main_v304 : Ref sig .tc := ⟨.hbm, 392, rfl⟩
abbrev main_v305 : Ref sig .tc := ⟨.hbm, 393, rfl⟩
abbrev main_v306 : Ref sig .tc := ⟨.hbm, 394, rfl⟩
abbrev main_v307 : Ref sig .tc := ⟨.hbm, 395, rfl⟩
abbrev main_v308 : Ref sig .tc := ⟨.hbm, 396, rfl⟩
abbrev main_v309 : Ref sig .tc := ⟨.hbm, 397, rfl⟩
abbrev main_v310 : Ref sig .tc := ⟨.hbm, 398, rfl⟩
abbrev main_v311 : Ref sig .tc := ⟨.hbm, 399, rfl⟩
abbrev main_call8_cst : Ref sig .tc := ⟨.hbm, 400, rfl⟩
abbrev main_call8_v0 : Ref sig .tc := ⟨.hbm, 401, rfl⟩
abbrev main_v312 : Ref sig .tc := ⟨.hbm, 402, rfl⟩
abbrev main_cst_59 : Ref sig .tc := ⟨.hbm, 403, rfl⟩
abbrev main_v313 : Ref sig .tc := ⟨.hbm, 404, rfl⟩
abbrev main_v314 : Ref sig .tc := ⟨.hbm, 405, rfl⟩
abbrev main_v315 : Ref sig .tc := ⟨.hbm, 406, rfl⟩
abbrev main_cst_60 : Ref sig .tc := ⟨.hbm, 407, rfl⟩
abbrev main_v316 : Ref sig .tc := ⟨.hbm, 408, rfl⟩
abbrev main_cst_61 : Ref sig .tc := ⟨.hbm, 409, rfl⟩
abbrev main_v317 : Ref sig .tc := ⟨.hbm, 410, rfl⟩
abbrev main_v318 : Ref sig .tc := ⟨.hbm, 411, rfl⟩
abbrev main_v319 : Ref sig .tc := ⟨.hbm, 412, rfl⟩
abbrev main_v320 : Ref sig .tc := ⟨.hbm, 413, rfl⟩
abbrev main_v321 : Ref sig .tc := ⟨.hbm, 414, rfl⟩
abbrev main_v322 : Ref sig .tc := ⟨.hbm, 415, rfl⟩
abbrev main_v323 : Ref sig .tc := ⟨.hbm, 416, rfl⟩
abbrev main_v324 : Ref sig .tc := ⟨.hbm, 417, rfl⟩
abbrev main_v325 : Ref sig .tc := ⟨.hbm, 418, rfl⟩
abbrev main_v326 : Ref sig .tc := ⟨.hbm, 419, rfl⟩
abbrev main_v327 : Ref sig .tc := ⟨.hbm, 420, rfl⟩
abbrev main_v328 : Ref sig .tc := ⟨.hbm, 421, rfl⟩
abbrev main_v329 : Ref sig .tc := ⟨.hbm, 422, rfl⟩
abbrev main_c_62 : Ref sig .tc := ⟨.hbm, 423, rfl⟩
abbrev main_v330 : Ref sig .tc := ⟨.hbm, 424, rfl⟩
abbrev main_v331 : Ref sig .tc := ⟨.hbm, 425, rfl⟩
abbrev main_c_63 : Ref sig .tc := ⟨.hbm, 426, rfl⟩
abbrev main_v332 : Ref sig .tc := ⟨.hbm, 427, rfl⟩
abbrev main_v333 : Ref sig .tc := ⟨.hbm, 428, rfl⟩
abbrev main_v334 : Ref sig .tc := ⟨.hbm, 429, rfl⟩
abbrev main_v335 : Ref sig .tc := ⟨.hbm, 430, rfl⟩
abbrev main_v336 : Ref sig .tc := ⟨.hbm, 431, rfl⟩
abbrev main_c_64 : Ref sig .tc := ⟨.hbm, 432, rfl⟩
abbrev main_v337 : Ref sig .tc := ⟨.hbm, 433, rfl⟩
abbrev main_v338 : Ref sig .tc := ⟨.hbm, 434, rfl⟩
abbrev main_c_65 : Ref sig .tc := ⟨.hbm, 435, rfl⟩
abbrev main_v339 : Ref sig .tc := ⟨.hbm, 436, rfl⟩
abbrev main_v340 : Ref sig .tc := ⟨.hbm, 437, rfl⟩
abbrev main_v341 : Ref sig .tc := ⟨.hbm, 438, rfl⟩
abbrev main_v342 : Ref sig .tc := ⟨.hbm, 439, rfl⟩
abbrev main_v343 : Ref sig .tc := ⟨.hbm, 440, rfl⟩
abbrev main_c_66 : Ref sig .tc := ⟨.hbm, 441, rfl⟩
abbrev main_v344 : Ref sig .tc := ⟨.hbm, 442, rfl⟩
abbrev main_v345 : Ref sig .tc := ⟨.hbm, 443, rfl⟩
abbrev main_c_67 : Ref sig .tc := ⟨.hbm, 444, rfl⟩
abbrev main_v346 : Ref sig .tc := ⟨.hbm, 445, rfl⟩
abbrev main_v347 : Ref sig .tc := ⟨.hbm, 446, rfl⟩
abbrev main_v348 : Ref sig .tc := ⟨.hbm, 447, rfl⟩
abbrev main_v349 : Ref sig .tc := ⟨.hbm, 448, rfl⟩
abbrev main_v350 : Ref sig .tc := ⟨.hbm, 449, rfl⟩
abbrev main_v351 : Ref sig .tc := ⟨.hbm, 450, rfl⟩
abbrev main_v352 : Ref sig .tc := ⟨.hbm, 451, rfl⟩
abbrev main_v353 : Ref sig .tc := ⟨.hbm, 452, rfl⟩
abbrev main_v354 : Ref sig .tc := ⟨.hbm, 453, rfl⟩
abbrev main_v355 : Ref sig .tc := ⟨.hbm, 454, rfl⟩
abbrev main_v356 : Ref sig .tc := ⟨.hbm, 455, rfl⟩
abbrev main_call9_cst : Ref sig .tc := ⟨.hbm, 456, rfl⟩
abbrev main_call9_v0 : Ref sig .tc := ⟨.hbm, 457, rfl⟩
abbrev main_v357 : Ref sig .tc := ⟨.hbm, 458, rfl⟩
abbrev main_v358 : Ref sig .tc := ⟨.hbm, 459, rfl⟩
abbrev main_v359 : Ref sig .tc := ⟨.hbm, 460, rfl⟩
abbrev main_v360 : Ref sig .tc := ⟨.hbm, 461, rfl⟩
abbrev main_v361 : Ref sig .tc := ⟨.hbm, 462, rfl⟩
abbrev main_v362 : Ref sig .tc := ⟨.hbm, 463, rfl⟩
abbrev main_v363 : Ref sig .tc := ⟨.hbm, 464, rfl⟩
abbrev main_cst_68 : Ref sig .tc := ⟨.hbm, 465, rfl⟩
abbrev main_v364 : Ref sig .tc := ⟨.hbm, 466, rfl⟩
abbrev main_v365 : Ref sig .tc := ⟨.hbm, 467, rfl⟩
abbrev main_cst_69 : Ref sig .tc := ⟨.hbm, 468, rfl⟩
abbrev main_v366 : Ref sig .tc := ⟨.hbm, 469, rfl⟩
abbrev main_v367 : Ref sig .tc := ⟨.hbm, 470, rfl⟩
abbrev main_v368 : Ref sig .tc := ⟨.hbm, 471, rfl⟩
abbrev main_v369 : Ref sig .tc := ⟨.hbm, 472, rfl⟩
abbrev main_cst_70 : Ref sig .tc := ⟨.hbm, 473, rfl⟩
abbrev main_v370 : Ref sig .tc := ⟨.hbm, 474, rfl⟩
abbrev main_v371 : Ref sig .tc := ⟨.hbm, 475, rfl⟩
abbrev main_v372 : Ref sig .tc := ⟨.hbm, 476, rfl⟩
abbrev main_cst_71 : Ref sig .tc := ⟨.hbm, 477, rfl⟩
abbrev main_v373 : Ref sig .tc := ⟨.hbm, 478, rfl⟩
abbrev main_cst_72 : Ref sig .tc := ⟨.hbm, 479, rfl⟩
abbrev main_v374 : Ref sig .tc := ⟨.hbm, 480, rfl⟩
abbrev main_v375 : Ref sig .tc := ⟨.hbm, 481, rfl⟩
abbrev main_v376 : Ref sig .tc := ⟨.hbm, 482, rfl⟩
abbrev main_cst_73 : Ref sig .tc := ⟨.hbm, 483, rfl⟩
abbrev main_v377 : Ref sig .tc := ⟨.hbm, 484, rfl⟩
abbrev main_v378 : Ref sig .tc := ⟨.hbm, 485, rfl⟩
abbrev main_v379 : Ref sig .tc := ⟨.hbm, 486, rfl⟩
abbrev main_v380 : Ref sig .tc := ⟨.hbm, 487, rfl⟩
abbrev main_v381 : Ref sig .tc := ⟨.hbm, 488, rfl⟩
abbrev main_v382 : Ref sig .tc := ⟨.hbm, 489, rfl⟩
abbrev main_v383 : Ref sig .tc := ⟨.hbm, 490, rfl⟩
abbrev main_v384 : Ref sig .tc := ⟨.hbm, 491, rfl⟩
abbrev main_v385 : Ref sig .tc := ⟨.hbm, 492, rfl⟩
abbrev main_call10_cst : Ref sig .tc := ⟨.hbm, 493, rfl⟩
abbrev main_call10_v0 : Ref sig .tc := ⟨.hbm, 494, rfl⟩
abbrev main_v386 : Ref sig .tc := ⟨.hbm, 495, rfl⟩
abbrev main_cst_74 : Ref sig .tc := ⟨.hbm, 496, rfl⟩
abbrev main_v387 : Ref sig .tc := ⟨.hbm, 497, rfl⟩
abbrev main_v388 : Ref sig .tc := ⟨.hbm, 498, rfl⟩
abbrev main_v389 : Ref sig .tc := ⟨.hbm, 499, rfl⟩
abbrev main_cst_75 : Ref sig .tc := ⟨.hbm, 500, rfl⟩
abbrev main_v390 : Ref sig .tc := ⟨.hbm, 501, rfl⟩
abbrev main_cst_76 : Ref sig .tc := ⟨.hbm, 502, rfl⟩
abbrev main_v391 : Ref sig .tc := ⟨.hbm, 503, rfl⟩
abbrev main_v392 : Ref sig .tc := ⟨.hbm, 504, rfl⟩
abbrev main_v393 : Ref sig .tc := ⟨.hbm, 505, rfl⟩
abbrev main_v394 : Ref sig .tc := ⟨.hbm, 506, rfl⟩
abbrev main_v395 : Ref sig .tc := ⟨.hbm, 507, rfl⟩
abbrev main_v396 : Ref sig .tc := ⟨.hbm, 508, rfl⟩
abbrev main_v397 : Ref sig .tc := ⟨.hbm, 509, rfl⟩
abbrev main_v398 : Ref sig .tc := ⟨.hbm, 510, rfl⟩
abbrev main_v399 : Ref sig .tc := ⟨.hbm, 511, rfl⟩
abbrev main_v400 : Ref sig .tc := ⟨.hbm, 512, rfl⟩
abbrev main_v401 : Ref sig .tc := ⟨.hbm, 513, rfl⟩
abbrev main_v402 : Ref sig .tc := ⟨.hbm, 514, rfl⟩
abbrev main_v403 : Ref sig .tc := ⟨.hbm, 515, rfl⟩
abbrev main_c_77 : Ref sig .tc := ⟨.hbm, 516, rfl⟩
abbrev main_v404 : Ref sig .tc := ⟨.hbm, 517, rfl⟩
abbrev main_v405 : Ref sig .tc := ⟨.hbm, 518, rfl⟩
abbrev main_c_78 : Ref sig .tc := ⟨.hbm, 519, rfl⟩
abbrev main_v406 : Ref sig .tc := ⟨.hbm, 520, rfl⟩
abbrev main_v407 : Ref sig .tc := ⟨.hbm, 521, rfl⟩
abbrev main_v408 : Ref sig .tc := ⟨.hbm, 522, rfl⟩
abbrev main_v409 : Ref sig .tc := ⟨.hbm, 523, rfl⟩
abbrev main_v410 : Ref sig .tc := ⟨.hbm, 524, rfl⟩
abbrev main_c_79 : Ref sig .tc := ⟨.hbm, 525, rfl⟩
abbrev main_v411 : Ref sig .tc := ⟨.hbm, 526, rfl⟩
abbrev main_v412 : Ref sig .tc := ⟨.hbm, 527, rfl⟩
abbrev main_c_80 : Ref sig .tc := ⟨.hbm, 528, rfl⟩
abbrev main_v413 : Ref sig .tc := ⟨.hbm, 529, rfl⟩
abbrev main_v414 : Ref sig .tc := ⟨.hbm, 530, rfl⟩
abbrev main_v415 : Ref sig .tc := ⟨.hbm, 531, rfl⟩
abbrev main_v416 : Ref sig .tc := ⟨.hbm, 532, rfl⟩
abbrev main_v417 : Ref sig .tc := ⟨.hbm, 533, rfl⟩
abbrev main_c_81 : Ref sig .tc := ⟨.hbm, 534, rfl⟩
abbrev main_v418 : Ref sig .tc := ⟨.hbm, 535, rfl⟩
abbrev main_v419 : Ref sig .tc := ⟨.hbm, 536, rfl⟩
abbrev main_c_82 : Ref sig .tc := ⟨.hbm, 537, rfl⟩
abbrev main_v420 : Ref sig .tc := ⟨.hbm, 538, rfl⟩
abbrev main_v421 : Ref sig .tc := ⟨.hbm, 539, rfl⟩
abbrev main_v422 : Ref sig .tc := ⟨.hbm, 540, rfl⟩
abbrev main_v423 : Ref sig .tc := ⟨.hbm, 541, rfl⟩
abbrev main_v424 : Ref sig .tc := ⟨.hbm, 542, rfl⟩
abbrev main_v425 : Ref sig .tc := ⟨.hbm, 543, rfl⟩
abbrev main_v426 : Ref sig .tc := ⟨.hbm, 544, rfl⟩
abbrev main_v427 : Ref sig .tc := ⟨.hbm, 545, rfl⟩
abbrev main_v428 : Ref sig .tc := ⟨.hbm, 546, rfl⟩
abbrev main_v429 : Ref sig .tc := ⟨.hbm, 547, rfl⟩
abbrev main_v430 : Ref sig .tc := ⟨.hbm, 548, rfl⟩
abbrev main_call11_cst : Ref sig .tc := ⟨.hbm, 549, rfl⟩
abbrev main_call11_v0 : Ref sig .tc := ⟨.hbm, 550, rfl⟩
abbrev main_v431 : Ref sig .tc := ⟨.hbm, 551, rfl⟩
abbrev main_v432 : Ref sig .tc := ⟨.hbm, 552, rfl⟩
abbrev main_v433 : Ref sig .tc := ⟨.hbm, 553, rfl⟩
abbrev main_v434 : Ref sig .tc := ⟨.hbm, 554, rfl⟩
abbrev main_v435 : Ref sig .tc := ⟨.hbm, 555, rfl⟩
abbrev main_v436 : Ref sig .tc := ⟨.hbm, 556, rfl⟩
abbrev main_v437 : Ref sig .tc := ⟨.hbm, 557, rfl⟩
abbrev main_cst_83 : Ref sig .tc := ⟨.hbm, 558, rfl⟩
abbrev main_v438 : Ref sig .tc := ⟨.hbm, 559, rfl⟩
abbrev main_v439 : Ref sig .tc := ⟨.hbm, 560, rfl⟩
abbrev main_cst_84 : Ref sig .tc := ⟨.hbm, 561, rfl⟩
abbrev main_v440 : Ref sig .tc := ⟨.hbm, 562, rfl⟩
abbrev main_v441 : Ref sig .tc := ⟨.hbm, 563, rfl⟩
abbrev main_v442 : Ref sig .tc := ⟨.hbm, 564, rfl⟩
abbrev main_v443 : Ref sig .tc := ⟨.hbm, 565, rfl⟩
abbrev main_cst_85 : Ref sig .tc := ⟨.hbm, 566, rfl⟩
abbrev main_v444 : Ref sig .tc := ⟨.hbm, 567, rfl⟩
abbrev main_v445 : Ref sig .tc := ⟨.hbm, 568, rfl⟩
abbrev main_v446 : Ref sig .tc := ⟨.hbm, 569, rfl⟩
abbrev main_cst_86 : Ref sig .tc := ⟨.hbm, 570, rfl⟩
abbrev main_v447 : Ref sig .tc := ⟨.hbm, 571, rfl⟩
abbrev main_cst_87 : Ref sig .tc := ⟨.hbm, 572, rfl⟩
abbrev main_v448 : Ref sig .tc := ⟨.hbm, 573, rfl⟩
abbrev main_v449 : Ref sig .tc := ⟨.hbm, 574, rfl⟩
abbrev main_v450 : Ref sig .tc := ⟨.hbm, 575, rfl⟩
abbrev main_cst_88 : Ref sig .tc := ⟨.hbm, 576, rfl⟩
abbrev main_v451 : Ref sig .tc := ⟨.hbm, 577, rfl⟩
abbrev main_v452 : Ref sig .tc := ⟨.hbm, 578, rfl⟩
abbrev main_v453 : Ref sig .tc := ⟨.hbm, 579, rfl⟩
abbrev main_v454 : Ref sig .tc := ⟨.hbm, 580, rfl⟩
abbrev main_v455 : Ref sig .tc := ⟨.hbm, 581, rfl⟩
abbrev main_v456 : Ref sig .tc := ⟨.hbm, 582, rfl⟩
abbrev main_v457 : Ref sig .tc := ⟨.hbm, 583, rfl⟩
abbrev main_v458 : Ref sig .tc := ⟨.hbm, 584, rfl⟩
abbrev main_v459 : Ref sig .tc := ⟨.hbm, 585, rfl⟩
abbrev main_call12_cst : Ref sig .tc := ⟨.hbm, 586, rfl⟩
abbrev main_call12_v0 : Ref sig .tc := ⟨.hbm, 587, rfl⟩
abbrev main_v460 : Ref sig .tc := ⟨.hbm, 588, rfl⟩
abbrev main_cst_89 : Ref sig .tc := ⟨.hbm, 589, rfl⟩
abbrev main_v461 : Ref sig .tc := ⟨.hbm, 590, rfl⟩
abbrev main_v462 : Ref sig .tc := ⟨.hbm, 591, rfl⟩
abbrev main_v463 : Ref sig .tc := ⟨.hbm, 592, rfl⟩
abbrev main_cst_90 : Ref sig .tc := ⟨.hbm, 593, rfl⟩
abbrev main_v464 : Ref sig .tc := ⟨.hbm, 594, rfl⟩
abbrev main_cst_91 : Ref sig .tc := ⟨.hbm, 595, rfl⟩
abbrev main_v465 : Ref sig .tc := ⟨.hbm, 596, rfl⟩
abbrev main_v466 : Ref sig .tc := ⟨.hbm, 597, rfl⟩
abbrev main_v467 : Ref sig .tc := ⟨.hbm, 598, rfl⟩
abbrev main_v468 : Ref sig .tc := ⟨.hbm, 599, rfl⟩
abbrev main_v469 : Ref sig .tc := ⟨.hbm, 600, rfl⟩
abbrev main_v470 : Ref sig .tc := ⟨.hbm, 601, rfl⟩
abbrev main_v471 : Ref sig .tc := ⟨.hbm, 602, rfl⟩
abbrev main_v472 : Ref sig .tc := ⟨.hbm, 603, rfl⟩
abbrev main_v473 : Ref sig .tc := ⟨.hbm, 604, rfl⟩
abbrev main_v474 : Ref sig .tc := ⟨.hbm, 605, rfl⟩
abbrev main_v475 : Ref sig .tc := ⟨.hbm, 606, rfl⟩
abbrev main_v476 : Ref sig .tc := ⟨.hbm, 607, rfl⟩
abbrev main_v477 : Ref sig .tc := ⟨.hbm, 608, rfl⟩
abbrev main_c_92 : Ref sig .tc := ⟨.hbm, 609, rfl⟩
abbrev main_v478 : Ref sig .tc := ⟨.hbm, 610, rfl⟩
abbrev main_v479 : Ref sig .tc := ⟨.hbm, 611, rfl⟩
abbrev main_c_93 : Ref sig .tc := ⟨.hbm, 612, rfl⟩
abbrev main_v480 : Ref sig .tc := ⟨.hbm, 613, rfl⟩
abbrev main_v481 : Ref sig .tc := ⟨.hbm, 614, rfl⟩
abbrev main_v482 : Ref sig .tc := ⟨.hbm, 615, rfl⟩
abbrev main_v483 : Ref sig .tc := ⟨.hbm, 616, rfl⟩
abbrev main_v484 : Ref sig .tc := ⟨.hbm, 617, rfl⟩
abbrev main_c_94 : Ref sig .tc := ⟨.hbm, 618, rfl⟩
abbrev main_v485 : Ref sig .tc := ⟨.hbm, 619, rfl⟩
abbrev main_v486 : Ref sig .tc := ⟨.hbm, 620, rfl⟩
abbrev main_c_95 : Ref sig .tc := ⟨.hbm, 621, rfl⟩
abbrev main_v487 : Ref sig .tc := ⟨.hbm, 622, rfl⟩
abbrev main_v488 : Ref sig .tc := ⟨.hbm, 623, rfl⟩
abbrev main_v489 : Ref sig .tc := ⟨.hbm, 624, rfl⟩
abbrev main_v490 : Ref sig .tc := ⟨.hbm, 625, rfl⟩
abbrev main_v491 : Ref sig .tc := ⟨.hbm, 626, rfl⟩
abbrev main_c_96 : Ref sig .tc := ⟨.hbm, 627, rfl⟩
abbrev main_v492 : Ref sig .tc := ⟨.hbm, 628, rfl⟩
abbrev main_v493 : Ref sig .tc := ⟨.hbm, 629, rfl⟩
abbrev main_c_97 : Ref sig .tc := ⟨.hbm, 630, rfl⟩
abbrev main_v494 : Ref sig .tc := ⟨.hbm, 631, rfl⟩
abbrev main_v495 : Ref sig .tc := ⟨.hbm, 632, rfl⟩
abbrev main_v496 : Ref sig .tc := ⟨.hbm, 633, rfl⟩
abbrev main_v497 : Ref sig .tc := ⟨.hbm, 634, rfl⟩
abbrev main_v498 : Ref sig .tc := ⟨.hbm, 635, rfl⟩
abbrev main_v499 : Ref sig .tc := ⟨.hbm, 636, rfl⟩
abbrev main_v500 : Ref sig .tc := ⟨.hbm, 637, rfl⟩
abbrev main_v501 : Ref sig .tc := ⟨.hbm, 638, rfl⟩
abbrev main_v502 : Ref sig .tc := ⟨.hbm, 639, rfl⟩
abbrev main_v503 : Ref sig .tc := ⟨.hbm, 640, rfl⟩
abbrev main_v504 : Ref sig .tc := ⟨.hbm, 641, rfl⟩
abbrev main_call13_cst : Ref sig .tc := ⟨.hbm, 642, rfl⟩
abbrev main_call13_v0 : Ref sig .tc := ⟨.hbm, 643, rfl⟩
abbrev main_v505 : Ref sig .tc := ⟨.hbm, 644, rfl⟩
abbrev main_v506 : Ref sig .tc := ⟨.hbm, 645, rfl⟩
abbrev main_v507 : Ref sig .tc := ⟨.hbm, 646, rfl⟩
abbrev main_v508 : Ref sig .tc := ⟨.hbm, 647, rfl⟩
abbrev main_v509 : Ref sig .tc := ⟨.hbm, 648, rfl⟩
abbrev main_v510 : Ref sig .tc := ⟨.hbm, 649, rfl⟩
abbrev main_v511 : Ref sig .tc := ⟨.hbm, 650, rfl⟩
abbrev main_cst_98 : Ref sig .tc := ⟨.hbm, 651, rfl⟩
abbrev main_v512 : Ref sig .tc := ⟨.hbm, 652, rfl⟩
abbrev main_v513 : Ref sig .tc := ⟨.hbm, 653, rfl⟩
abbrev main_cst_99 : Ref sig .tc := ⟨.hbm, 654, rfl⟩
abbrev main_v514 : Ref sig .tc := ⟨.hbm, 655, rfl⟩
abbrev main_v515 : Ref sig .tc := ⟨.hbm, 656, rfl⟩
abbrev main_v516 : Ref sig .tc := ⟨.hbm, 657, rfl⟩
abbrev main_v517 : Ref sig .tc := ⟨.hbm, 658, rfl⟩
abbrev main_cst_100 : Ref sig .tc := ⟨.hbm, 659, rfl⟩
abbrev main_v518 : Ref sig .tc := ⟨.hbm, 660, rfl⟩
abbrev main_v519 : Ref sig .tc := ⟨.hbm, 661, rfl⟩
abbrev main_v520 : Ref sig .tc := ⟨.hbm, 662, rfl⟩
abbrev main_cst_101 : Ref sig .tc := ⟨.hbm, 663, rfl⟩
abbrev main_v521 : Ref sig .tc := ⟨.hbm, 664, rfl⟩
abbrev main_cst_102 : Ref sig .tc := ⟨.hbm, 665, rfl⟩
abbrev main_v522 : Ref sig .tc := ⟨.hbm, 666, rfl⟩
abbrev main_v523 : Ref sig .tc := ⟨.hbm, 667, rfl⟩
abbrev main_v524 : Ref sig .tc := ⟨.hbm, 668, rfl⟩
abbrev main_cst_103 : Ref sig .tc := ⟨.hbm, 669, rfl⟩
abbrev main_v525 : Ref sig .tc := ⟨.hbm, 670, rfl⟩
abbrev main_v526 : Ref sig .tc := ⟨.hbm, 671, rfl⟩
abbrev main_v527 : Ref sig .tc := ⟨.hbm, 672, rfl⟩
abbrev main_v528 : Ref sig .tc := ⟨.hbm, 673, rfl⟩
abbrev main_v529 : Ref sig .tc := ⟨.hbm, 674, rfl⟩
abbrev main_v530 : Ref sig .tc := ⟨.hbm, 675, rfl⟩
abbrev main_v531 : Ref sig .tc := ⟨.hbm, 676, rfl⟩
abbrev main_v532 : Ref sig .tc := ⟨.hbm, 677, rfl⟩
abbrev main_v533 : Ref sig .tc := ⟨.hbm, 678, rfl⟩
abbrev main_call14_cst : Ref sig .tc := ⟨.hbm, 679, rfl⟩
abbrev main_call14_v0 : Ref sig .tc := ⟨.hbm, 680, rfl⟩
abbrev main_v534 : Ref sig .tc := ⟨.hbm, 681, rfl⟩
abbrev main_cst_104 : Ref sig .tc := ⟨.hbm, 682, rfl⟩
abbrev main_v535 : Ref sig .tc := ⟨.hbm, 683, rfl⟩
abbrev main_v536 : Ref sig .tc := ⟨.hbm, 684, rfl⟩
abbrev main_v537 : Ref sig .tc := ⟨.hbm, 685, rfl⟩
abbrev main_cst_105 : Ref sig .tc := ⟨.hbm, 686, rfl⟩
abbrev main_v538 : Ref sig .tc := ⟨.hbm, 687, rfl⟩
abbrev main_cst_106 : Ref sig .tc := ⟨.hbm, 688, rfl⟩
abbrev main_v539 : Ref sig .tc := ⟨.hbm, 689, rfl⟩
abbrev main_v540 : Ref sig .tc := ⟨.hbm, 690, rfl⟩
abbrev main_v541 : Ref sig .tc := ⟨.hbm, 691, rfl⟩
abbrev main_v542 : Ref sig .tc := ⟨.hbm, 692, rfl⟩
abbrev main_v543 : Ref sig .tc := ⟨.hbm, 693, rfl⟩
abbrev main_v544 : Ref sig .tc := ⟨.hbm, 694, rfl⟩
abbrev main_v545 : Ref sig .tc := ⟨.hbm, 695, rfl⟩
abbrev main_v546 : Ref sig .tc := ⟨.hbm, 696, rfl⟩
abbrev main_v547 : Ref sig .tc := ⟨.hbm, 697, rfl⟩
abbrev main_v548 : Ref sig .tc := ⟨.hbm, 698, rfl⟩
abbrev main_v549 : Ref sig .tc := ⟨.hbm, 699, rfl⟩
abbrev main_v550 : Ref sig .tc := ⟨.hbm, 700, rfl⟩
abbrev main_v551 : Ref sig .tc := ⟨.hbm, 701, rfl⟩
abbrev main_c_107 : Ref sig .tc := ⟨.hbm, 702, rfl⟩
abbrev main_v552 : Ref sig .tc := ⟨.hbm, 703, rfl⟩
abbrev main_v553 : Ref sig .tc := ⟨.hbm, 704, rfl⟩
abbrev main_c_108 : Ref sig .tc := ⟨.hbm, 705, rfl⟩
abbrev main_v554 : Ref sig .tc := ⟨.hbm, 706, rfl⟩
abbrev main_v555 : Ref sig .tc := ⟨.hbm, 707, rfl⟩
abbrev main_v556 : Ref sig .tc := ⟨.hbm, 708, rfl⟩
abbrev main_v557 : Ref sig .tc := ⟨.hbm, 709, rfl⟩
abbrev main_v558 : Ref sig .tc := ⟨.hbm, 710, rfl⟩
abbrev main_c_109 : Ref sig .tc := ⟨.hbm, 711, rfl⟩
abbrev main_v559 : Ref sig .tc := ⟨.hbm, 712, rfl⟩
abbrev main_v560 : Ref sig .tc := ⟨.hbm, 713, rfl⟩
abbrev main_c_110 : Ref sig .tc := ⟨.hbm, 714, rfl⟩
abbrev main_v561 : Ref sig .tc := ⟨.hbm, 715, rfl⟩
abbrev main_v562 : Ref sig .tc := ⟨.hbm, 716, rfl⟩
abbrev main_v563 : Ref sig .tc := ⟨.hbm, 717, rfl⟩
abbrev main_v564 : Ref sig .tc := ⟨.hbm, 718, rfl⟩
abbrev main_v565 : Ref sig .tc := ⟨.hbm, 719, rfl⟩
abbrev main_c_111 : Ref sig .tc := ⟨.hbm, 720, rfl⟩
abbrev main_v566 : Ref sig .tc := ⟨.hbm, 721, rfl⟩
abbrev main_v567 : Ref sig .tc := ⟨.hbm, 722, rfl⟩
abbrev main_c_112 : Ref sig .tc := ⟨.hbm, 723, rfl⟩
abbrev main_v568 : Ref sig .tc := ⟨.hbm, 724, rfl⟩
abbrev main_v569 : Ref sig .tc := ⟨.hbm, 725, rfl⟩
abbrev main_v570 : Ref sig .tc := ⟨.hbm, 726, rfl⟩
abbrev main_v571 : Ref sig .tc := ⟨.hbm, 727, rfl⟩
abbrev main_v572 : Ref sig .tc := ⟨.hbm, 728, rfl⟩
abbrev main_v573 : Ref sig .tc := ⟨.hbm, 729, rfl⟩
abbrev main_v574 : Ref sig .tc := ⟨.hbm, 730, rfl⟩
abbrev main_v575 : Ref sig .tc := ⟨.hbm, 731, rfl⟩
abbrev main_v576 : Ref sig .tc := ⟨.hbm, 732, rfl⟩
abbrev main_v577 : Ref sig .tc := ⟨.hbm, 733, rfl⟩
abbrev main_v578 : Ref sig .tc := ⟨.hbm, 734, rfl⟩
abbrev main_call15_cst : Ref sig .tc := ⟨.hbm, 735, rfl⟩
abbrev main_call15_v0 : Ref sig .tc := ⟨.hbm, 736, rfl⟩
abbrev main_v579 : Ref sig .tc := ⟨.hbm, 737, rfl⟩
abbrev main_v580 : Ref sig .tc := ⟨.hbm, 738, rfl⟩
abbrev main_v581 : Ref sig .tc := ⟨.hbm, 739, rfl⟩
abbrev main_v582 : Ref sig .tc := ⟨.hbm, 740, rfl⟩
abbrev main_v583 : Ref sig .tc := ⟨.hbm, 741, rfl⟩
abbrev main_v584 : Ref sig .tc := ⟨.hbm, 742, rfl⟩
abbrev main_v585 : Ref sig .tc := ⟨.hbm, 743, rfl⟩
abbrev main_cst_113 : Ref sig .tc := ⟨.hbm, 744, rfl⟩
abbrev main_v586 : Ref sig .tc := ⟨.hbm, 745, rfl⟩
abbrev main_v587 : Ref sig .tc := ⟨.hbm, 746, rfl⟩
abbrev main_cst_114 : Ref sig .tc := ⟨.hbm, 747, rfl⟩
abbrev main_v588 : Ref sig .tc := ⟨.hbm, 748, rfl⟩
abbrev main_v589 : Ref sig .tc := ⟨.hbm, 749, rfl⟩
abbrev main_v590 : Ref sig .tc := ⟨.hbm, 750, rfl⟩
abbrev main_v591 : Ref sig .tc := ⟨.hbm, 751, rfl⟩
abbrev main_cst_115 : Ref sig .tc := ⟨.hbm, 752, rfl⟩
abbrev main_v592 : Ref sig .tc := ⟨.hbm, 753, rfl⟩
abbrev main_v593 : Ref sig .tc := ⟨.hbm, 754, rfl⟩
abbrev main_v594 : Ref sig .tc := ⟨.hbm, 755, rfl⟩
abbrev main_cst_116 : Ref sig .tc := ⟨.hbm, 756, rfl⟩
abbrev main_v595 : Ref sig .tc := ⟨.hbm, 757, rfl⟩
abbrev main_cst_117 : Ref sig .tc := ⟨.hbm, 758, rfl⟩
abbrev main_v596 : Ref sig .tc := ⟨.hbm, 759, rfl⟩
abbrev main_v597 : Ref sig .tc := ⟨.hbm, 760, rfl⟩
abbrev main_v598 : Ref sig .tc := ⟨.hbm, 761, rfl⟩
abbrev main_cst_118 : Ref sig .tc := ⟨.hbm, 762, rfl⟩
abbrev main_v599 : Ref sig .tc := ⟨.hbm, 763, rfl⟩
abbrev main_v600 : Ref sig .tc := ⟨.hbm, 764, rfl⟩
abbrev main_v601 : Ref sig .tc := ⟨.hbm, 765, rfl⟩
abbrev main_v602 : Ref sig .tc := ⟨.hbm, 766, rfl⟩
abbrev main_v603 : Ref sig .tc := ⟨.hbm, 767, rfl⟩
abbrev main_v604 : Ref sig .tc := ⟨.hbm, 768, rfl⟩
abbrev main_v605 : Ref sig .tc := ⟨.hbm, 769, rfl⟩
abbrev main_v606 : Ref sig .tc := ⟨.hbm, 770, rfl⟩
abbrev main_v607 : Ref sig .tc := ⟨.hbm, 771, rfl⟩
abbrev main_call16_cst : Ref sig .tc := ⟨.hbm, 772, rfl⟩
abbrev main_call16_v0 : Ref sig .tc := ⟨.hbm, 773, rfl⟩
abbrev main_v608 : Ref sig .tc := ⟨.hbm, 774, rfl⟩
abbrev main_cst_119 : Ref sig .tc := ⟨.hbm, 775, rfl⟩
abbrev main_v609 : Ref sig .tc := ⟨.hbm, 776, rfl⟩
abbrev main_v610 : Ref sig .tc := ⟨.hbm, 777, rfl⟩
abbrev main_v611 : Ref sig .tc := ⟨.hbm, 778, rfl⟩
abbrev main_cst_120 : Ref sig .tc := ⟨.hbm, 779, rfl⟩
abbrev main_v612 : Ref sig .tc := ⟨.hbm, 780, rfl⟩
abbrev main_cst_121 : Ref sig .tc := ⟨.hbm, 781, rfl⟩
abbrev main_v613 : Ref sig .tc := ⟨.hbm, 782, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  concatenates_S1600000_S1600000_S3200000_d0 : Shape.Concatenates [S1600000, S1600000] S3200000 0
  concatenates_S1600000x32_S1600000x32_S3200000x32_d0 : Shape.Concatenates [S1600000x32, S1600000x32] S3200000x32 0
  bcast_S_S50000x32 : S_.BroadcastsInDim S50000x32 (![] : Fin 0 → Fin S50000x32.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S_S50000x1 : S_.BroadcastsInDim S50000x1 (![] : Fin 0 → Fin S50000x1.rank)
  bcast_S50000x1_S50000x32_0_1 : S50000x1.BroadcastsInDim S50000x32 (![0, 1] : Fin 2 → Fin S50000x32.rank)
  slices_S8x65x32_S1x65x32_0_0_0 : S8x65x32.Slices ![0, 0, 0] S1x65x32
  shapeCasts_S1x65x32_S65x32 : S1x65x32.ShapeCasts S65x32
  slices_S8x32_S1x32_0_0 : S8x32.Slices ![0, 0] S1x32
  shapeCasts_S1x32_S32 : S1x32.ShapeCasts S32
  slices_S8x1x1_S1x1x1_0_0_0 : S8x1x1.Slices ![0, 0, 0] S1x1x1
  shapeCasts_S1x1x1_S1x1 : S1x1x1.ShapeCasts S1x1
  slices_S8x1_S1x1_0_0 : S8x1.Slices ![0, 0] S1x1
  shapeCasts_S1x1_S1 : S1x1.ShapeCasts S1
  slices_S8x32x32_S1x32x32_0_0_0 : S8x32x32.Slices ![0, 0, 0] S1x32x32
  shapeCasts_S1x32x32_S32x32 : S1x32x32.ShapeCasts S32x32
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x1_S1600000x65_d1 : Shape.Concatenates [S1600000x32, S1600000x32, S1600000x1] S1600000x65 1
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  bcast_S1600000x1_S1600000x32_0_1 : S1600000x1.BroadcastsInDim S1600000x32 (![0, 1] : Fin 2 → Fin S1600000x32.rank)
  bcast_S1x32_S50000x32_0_1 : S1x32.BroadcastsInDim S50000x32 (![0, 1] : Fin 2 → Fin S50000x32.rank)
  reducesTo_S1600000x1_S_d0_1 : S1600000x1.ReducesTo [0, 1] S_
  h_S_ : 0 < S_.numel
  slices_S8x65x32_S1x65x32_1_0_0 : S8x65x32.Slices ![1, 0, 0] S1x65x32
  slices_S8x32_S1x32_1_0 : S8x32.Slices ![1, 0] S1x32
  slices_S8x1x1_S1x1x1_1_0_0 : S8x1x1.Slices ![1, 0, 0] S1x1x1
  slices_S8x1_S1x1_1_0 : S8x1.Slices ![1, 0] S1x1
  slices_S8x32x32_S1x32x32_1_0_0 : S8x32x32.Slices ![1, 0, 0] S1x32x32
  slices_S8x65x32_S1x65x32_2_0_0 : S8x65x32.Slices ![2, 0, 0] S1x65x32
  slices_S8x32_S1x32_2_0 : S8x32.Slices ![2, 0] S1x32
  slices_S8x1x1_S1x1x1_2_0_0 : S8x1x1.Slices ![2, 0, 0] S1x1x1
  slices_S8x1_S1x1_2_0 : S8x1.Slices ![2, 0] S1x1
  slices_S8x32x32_S1x32x32_2_0_0 : S8x32x32.Slices ![2, 0, 0] S1x32x32
  slices_S8x65x32_S1x65x32_3_0_0 : S8x65x32.Slices ![3, 0, 0] S1x65x32
  slices_S8x32_S1x32_3_0 : S8x32.Slices ![3, 0] S1x32
  slices_S8x1x1_S1x1x1_3_0_0 : S8x1x1.Slices ![3, 0, 0] S1x1x1
  slices_S8x1_S1x1_3_0 : S8x1.Slices ![3, 0] S1x1
  slices_S8x32x32_S1x32x32_3_0_0 : S8x32x32.Slices ![3, 0, 0] S1x32x32
  slices_S8x65x32_S1x65x32_4_0_0 : S8x65x32.Slices ![4, 0, 0] S1x65x32
  slices_S8x32_S1x32_4_0 : S8x32.Slices ![4, 0] S1x32
  slices_S8x1x1_S1x1x1_4_0_0 : S8x1x1.Slices ![4, 0, 0] S1x1x1
  slices_S8x1_S1x1_4_0 : S8x1.Slices ![4, 0] S1x1
  slices_S8x32x32_S1x32x32_4_0_0 : S8x32x32.Slices ![4, 0, 0] S1x32x32
  slices_S8x65x32_S1x65x32_5_0_0 : S8x65x32.Slices ![5, 0, 0] S1x65x32
  slices_S8x32_S1x32_5_0 : S8x32.Slices ![5, 0] S1x32
  slices_S8x1x1_S1x1x1_5_0_0 : S8x1x1.Slices ![5, 0, 0] S1x1x1
  slices_S8x1_S1x1_5_0 : S8x1.Slices ![5, 0] S1x1
  slices_S8x32x32_S1x32x32_5_0_0 : S8x32x32.Slices ![5, 0, 0] S1x32x32
  slices_S8x65x32_S1x65x32_6_0_0 : S8x65x32.Slices ![6, 0, 0] S1x65x32
  slices_S8x32_S1x32_6_0 : S8x32.Slices ![6, 0] S1x32
  slices_S8x1x1_S1x1x1_6_0_0 : S8x1x1.Slices ![6, 0, 0] S1x1x1
  slices_S8x1_S1x1_6_0 : S8x1.Slices ![6, 0] S1x1
  slices_S8x32x32_S1x32x32_6_0_0 : S8x32x32.Slices ![6, 0, 0] S1x32x32
  slices_S8x65x32_S1x65x32_7_0_0 : S8x65x32.Slices ![7, 0, 0] S1x65x32
  slices_S8x32_S1x32_7_0 : S8x32.Slices ![7, 0] S1x32
  slices_S8x1x1_S1x1x1_7_0_0 : S8x1x1.Slices ![7, 0, 0] S1x1x1
  slices_S8x1_S1x1_7_0 : S8x1.Slices ![7, 0] S1x1
  slices_S8x32x32_S1x32x32_7_0_0 : S8x32x32.Slices ![7, 0, 0] S1x32x32
  dot_S1600000x32_S32x32_S1600000x32_1_0_0_1_n_n_wf : DotDims.WF S1600000x32 S32x32 S1600000x32 [1] [0] [0] [1] [] []
  scatter_S50000x32_S3200000x1_S3200000x32_1_0_0_1_wf : ScatterDims.WF S50000x32 S3200000x1 S3200000x32 [1] [0] [0] 1
  scatter_S50000x1_S3200000x1_S3200000x1_1_0_0_1_wf : ScatterDims.WF S50000x1 S3200000x1 S3200000x1 [1] [0] [0] 1
  gather_S50000x32_S1600000x1_S1600000x32_1_0_n_n_0_1_132_wf : GatherDims.WF S50000x32 S1600000x1 S1600000x32 [1] [0] [] [0] [] 1 ![1, 32]
  dot_S1600000x65_S65x32_S1600000x32_1_0_0_1_n_n_wf : DotDims.WF S1600000x65 S65x32 S1600000x32 [1] [0] [0] [1] [] []
  dot_S1600000x1_S1x1_S1600000x1_1_0_0_1_n_n_wf : DotDims.WF S1600000x1 S1x1 S1600000x1 [1] [0] [0] [1] [] []
  scatter_S50000x32_S1600000x1_S1600000x32_1_0_0_1_wf : ScatterDims.WF S50000x32 S1600000x1 S1600000x32 [1] [0] [0] 1
  scatter_S50000x1_S1600000x1_S1600000x1_1_0_0_1_wf : ScatterDims.WF S50000x1 S1600000x1 S1600000x1 [1] [0] [0] 1
  dot_S50000x32_S32x32_S50000x32_1_0_0_1_n_n_wf : DotDims.WF S50000x32 S32x32 S50000x32 [1] [0] [0] [1] [] []

variable [Facts₀]

def dot_S1600000x32_S32x32_S1600000x32_1_0_0_1_n_n : DotDims S1600000x32 S32x32 S1600000x32 where
  lhsContracting := [1]
  rhsContracting := [0]
  lhsNonContracting := [0]
  rhsNonContracting := [1]
  lhsBatch := []
  rhsBatch := []
  wf := dot_S1600000x32_S32x32_S1600000x32_1_0_0_1_n_n_wf
def scatter_S50000x32_S3200000x1_S3200000x32_1_0_0_1 : ScatterDims S50000x32 S3200000x1 S3200000x32 where
  updateWindowDims := [1]
  insertedWindowDims := [0]
  scatterDimsToOperandDims := [0]
  indexVectorDim := 1
  wf := scatter_S50000x32_S3200000x1_S3200000x32_1_0_0_1_wf
def scatter_S50000x1_S3200000x1_S3200000x1_1_0_0_1 : ScatterDims S50000x1 S3200000x1 S3200000x1 where
  updateWindowDims := [1]
  insertedWindowDims := [0]
  scatterDimsToOperandDims := [0]
  indexVectorDim := 1
  wf := scatter_S50000x1_S3200000x1_S3200000x1_1_0_0_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S1600000x65_S65x32_S1600000x32_1_0_0_1_n_n : DotDims S1600000x65 S65x32 S1600000x32 where
  lhsContracting := [1]
  rhsContracting := [0]
  lhsNonContracting := [0]
  rhsNonContracting := [1]
  lhsBatch := []
  rhsBatch := []
  wf := dot_S1600000x65_S65x32_S1600000x32_1_0_0_1_n_n_wf
def dot_S1600000x1_S1x1_S1600000x1_1_0_0_1_n_n : DotDims S1600000x1 S1x1 S1600000x1 where
  lhsContracting := [1]
  rhsContracting := [0]
  lhsNonContracting := [0]
  rhsNonContracting := [1]
  lhsBatch := []
  rhsBatch := []
  wf := dot_S1600000x1_S1x1_S1600000x1_1_0_0_1_n_n_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf

class Facts : Prop extends Facts₀ where

variable [Facts]
-- ==== Proof.GatePenalty.lean ====
/-
  The mathematics shared by both programs, with no program imported.

  For an edge with angle `a`, gate weight `w` and gate bias `b` the gate is `g = 1 / (1 + e^(-(a·w + b)))` and the
  edge's penalty is `g · (1 − g)`.  The side loss is the sum of the penalties over all 1,600,000 edges divided by
  1,600,000.  One program sums the edges in their given order as a column [1600000, 1]; the other first lays the same
  column out row-major as a [12500, 128] tile, sums each row of 128 lanes and then sums the 12,500 row sums.  A row-major
  re-layout is a bijection of index sets and addition of extended reals is commutative and associative, so the two
  sums are one number (`total_tiled`): no finiteness of the angles is needed.
-/
import Idealize.ShloMosaic.PureOps.Ideal.Laws
import Idealize.ShloMosaic.Lib.ValueIdx
import Idealize.ShloMosaic.Lib.IdealHost

noncomputable section

open scoped BigOperators

namespace Cert.GatePenalty

open Idealize.ShloMosaic Idealize.ShloMosaic.ValueIdx

/-- The angles as given: one column of 1,600,000 edges. -/
abbrev Edges : Shape := ⟨2, ![1600000, 1]⟩
/-- The same column laid out row-major in 12,500 rows of 128 lanes. -/
abbrev Tile : Shape := ⟨2, ![12500, 128]⟩

/-- One edge's penalty `g · (1 − g)` with `g` the logistic gate of `a · w + b`; the `1` is kept as the f32 word both
    programs spell. -/
def pen (w b a : EReal) : EReal :=
  Ideal.logistic (a * w + b) * (Ideal.ofBits .f32 0x3F800000#32 - Ideal.logistic (a * w + b))

/-- The sum of the penalties over all edges, in the column's own order. -/
def total (w b : EReal) (ang : Edges.Idx → EReal) : EReal := ∑ i, pen w b (ang i)

/-- The side loss: that sum divided by the edge count, the divisor kept as the f32 word both programs spell. -/
def sideLoss (w b : EReal) (ang : Edges.Idx → EReal) : EReal :=
  Ideal.div (total w b ang) (Ideal.ofBits .f32 0x49C35000#32)

/-- Summing the tile row by row, lane by lane, is summing the column: the row-major re-layout is a bijection between
    the two index sets, and the double sum over (row, lane) is the sum over the tile's indices. -/
theorem total_tiled (w b : EReal) (ang : Edges.Idx → EReal) (h : Edges.ShapeCasts Tile) :
    ∑ r : Fin 12500, ∑ l : Fin 128, pen w b (shapeCast Tile ang h (ix2 r l)) = total w b ang := by
  rw [← sum_idx2 (fun j => pen w b (shapeCast Tile ang h j))]
  unfold shapeCast total
  exact Equiv.sum_comp (Shape.reshapeEquiv h) (fun k => pen w b (ang k))

/-- The gate written out as a quotient, `1 / (1 + e^(−z))` with both ones the f32 word for one, is the logistic
    function. -/
theorem logistic_expanded (z : EReal) :
    Ideal.div (Ideal.ofBits .f32 0x3F800000#32) (Ideal.ofBits .f32 0x3F800000#32 + Ideal.exp (-z)) = Ideal.logistic z := by
  rw [Ideal.ofBits_one_f32]; rfl

end Cert.GatePenalty

end
-- ==== Proof.KernelPayload.lean ====
/-
  The kernel body's stored value, read at an element, at the ideal instance.

  The body loads the angle tile `x0` (12,500 rows of 128 lanes), the gate weight `x1` and the gate bias `x2` (one
  element each), forms the penalty `g · (1 − g)`, `g = logistic (a · w + b)`, at every lane, sums each row over its 128
  lanes, then sums the 12,500 row sums, and stores that one number.  Read at its one index the stored value is therefore
  the double sum, over rows and lanes, of the penalties of the tile's entries: each reduction over one axis is a finite
  sum over that axis's coordinates, each shape cast keeps the row-major position, and a broadcast of a one-element
  vector reads that element everywhere.
-/
import proofs.«415750_j38869454029182_1_alg».proof.Proof.Gen.KernelIdeal.Skeleton
import proofs.«415750_j38869454029182_1_alg».proof.Proof.GatePenalty
import Idealize.ShloMosaic.Lib.Pipeline.Value
import Idealize.ShloMosaic.Lib.ValueIdx
import Idealize.ShloMosaic.PureOps.Ideal.Laws

noncomputable section
open scoped BigOperators
namespace Cert.KernelIdeal.SideLoss
open Cert.KernelIdeal Cert.KernelIdeal.Gen Idealize.ShloMosaic Idealize.ShloMosaic.ValueIdx Cert.GatePenalty Idealize.ShloMosaic.Pipeline

/-- A one-element vector broadcast over the tile reads its one element at every (row, lane). -/
theorem bcast_scalar (x : FVec Ideal S1x1 .f32) (r : Fin 12500) (l : Fin 128) :
    broadcastTo S12500x128 x broadcasts_S1x1_S12500x128 (ix2 r l) = x (ix2 0 0) :=
  broadcastTo_apply x _ (ix2 r l) (ix2 0 0) (fun a => by match a with | ⟨0, _⟩ => rfl | ⟨1, _⟩ => rfl)

/-- The stored value at its one index: the sum over rows and lanes of the penalties of the tile's entries. -/
theorem payload (x0 : FVec Ideal S12500x128 .f32) (x1 x2 : FVec Ideal S1x1 .f32) (y : S1x1.Idx) :
    k0_pay1 (F := Ideal) x0 x1 x2 y
      = ∑ r : Fin 12500, ∑ l : Fin 128, pen (x1 (ix2 0 0)) (x2 (ix2 0 0)) (x0 (ix2 r l)) := by
  unfold k0_pay1
  dsimp only
  refine (shapeCast_apply _ _ y (ix1 (0 : Fin 1)) ?_).trans ?_
  · rw [Shape.rowMajor_val_one, Shape.rowMajor_val_two]
    have h0 := idx2_lt0 y
    have h1 := idx2_lt1 y
    simp
    omega
  refine (Ideal.multiReduction_add_single _ _ _ _ _ (ix1 (0 : Fin 1))).trans ?_
  show ∑ r : Fin 12500, _ = _
  refine Finset.sum_congr rfl fun r _ => ?_
  refine (shapeCast_apply _ _ _ (ix1 r) ?_).trans ?_
  · rw [Shape.rowMajor_val_one, Shape.rowMajor_val_two]
    show (r : ℕ) = (r : ℕ) * 1 + 0
    omega
  refine (Ideal.multiReduction_add_single _ _ _ _ _ (ix1 r)).trans ?_
  show ∑ l : Fin 128, _ = _
  refine Finset.sum_congr rfl fun l _ => ?_
  have e : reduces_S12500x128_S12500.lift (ix1 r) l = ix2 r l := by
    funext a
    match a with
    | ⟨0, _⟩ => rfl
    | ⟨1, _⟩ => rfl
  rw [e, shapeCast_self, shapeCast_self, shapeCast_self]
  show Ideal.logistic (x0 (ix2 r l) * broadcastTo S12500x128 x1 broadcasts_S1x1_S12500x128 (ix2 r l)
        + broadcastTo S12500x128 x2 broadcasts_S1x1_S12500x128 (ix2 r l))
      * (Ideal.ofBits .f32 0x3F800000#32
        - Ideal.logistic (x0 (ix2 r l) * broadcastTo S12500x128 x1 broadcasts_S1x1_S12500x128 (ix2 r l)
          + broadcastTo S12500x128 x2 broadcasts_S1x1_S12500x128 (ix2 r l))) = _
  rw [bcast_scalar, bcast_scalar]
  rfl

end Cert.KernelIdeal.SideLoss
end
-- ==== Proof.KernelValue.lean ====
/-
  The kernel program's second result, read off its frame run, at the ideal instance.

  Before the region the host lays the angles column out row-major as a [12500, 128] tile, takes the first layer's gate
  weight (the leading element of the [8, 1, 1] weights) and gate bias (the leading element of the [8, 1] biases) as 1×1
  arrays, and hands the three to the one-point grid; each window's block is its whole array, so the body loads exactly
  those arrays.  Its stored value is the double sum over rows and lanes of the edges' penalties (the payload lemma), and
  summing the tile row by row is summing the column (`total_tiled`): the 1×1 result array ends holding the total over
  all 1,600,000 edges.  After the region the host views that array as a scalar and divides it by the edge count: the
  second result is the side loss of the arguments as launched.  No host operation writes an argument.
-/
import proofs.«415750_j38869454029182_1_alg».proof.Proof.Gen.KernelIdeal.Frame
import proofs.«415750_j38869454029182_1_alg».proof.Proof.KernelPayload
import Idealize.ShloMosaic.Lib.Pipeline.Value
import Idealize.ShloMosaic.Lib.IdealHost
import Idealize.ShloMosaic.Lib.StableHlo.Run

-- reading a block through its window unfolds the window's rectangle once per coordinate
set_option maxRecDepth 16384
noncomputable section
open scoped BigOperators
namespace Cert.KernelIdeal.SideLoss
open Cert.KernelIdeal Cert.KernelIdeal.Gen Idealize.ShloMosaic Idealize.ShloMosaic.TcCoe Idealize.SL.Sem Idealize.ShloMosaic.ValueIdx Cert.GatePenalty
open Idealize.ShloMosaic.Pipeline (Dat)

variable (m : (ℓ : Loc nD τ sig) → Buf (Elt Ideal) ℓ) (ρ : Dev nD → PrngReg)

/-- The angles column as launched. -/
abbrev ang (c : Dev nD) : Edges.Idx → EReal := m ((c : Thread nD τ).loc main_arg1)
/-- The first layer's gate weight. -/
abbrev gw (c : Dev nD) : EReal := (m ((c : Thread nD τ).loc main_arg6) : S8x1x1.Idx → EReal) (ix3 0 0 0)
/-- The first layer's gate bias. -/
abbrev gb (c : Dev nD) : EReal := (m ((c : Thread nD τ).loc main_arg7) : S8x1.Idx → EReal) (ix2 0 0)

/-- The region finds the tile as the row-major re-layout of the angles column. -/
theorem V_v4 (c : Dev nD) : (V m c main_v4 : S12500x128.Idx → EReal) = shapeCast S12500x128 (ang m c) shapeCasts_S1600000x1_S12500x128 := by
  show StableHlo.after hostOps0 (fun b => m (c, b)) (Proc.devRef .tc main_v4) = _
  after_results
  rfl

/-- The region finds the gate weight as the leading 1×1×1 slice of the weights, viewed 1×1. -/
theorem V_v1 (c : Dev nD) : (V m c main_v1 : S1x1.Idx → EReal) = shapeCast S1x1 (extractStridedSlice S1x1x1 ![0, 0, 0] (m ((c : Thread nD τ).loc main_arg6)) slices_S8x1x1_S1x1x1_0_0_0) shapeCasts_S1x1x1_S1x1 := by
  show StableHlo.after hostOps0 (fun b => m (c, b)) (Proc.devRef .tc main_v1) = _
  after_results
  rfl

/-- The region finds the gate bias as the leading 1×1 slice of the biases, viewed as one element and then 1×1. -/
theorem V_v5 (c : Dev nD) : (V m c main_v5 : S1x1.Idx → EReal) = shapeCast S1x1 (shapeCast S1 (extractStridedSlice S1x1 ![0, 0] (m ((c : Thread nD τ).loc main_arg7)) slices_S8x1_S1x1_0_0) shapeCasts_S1x1_S1) shapeCasts_S1_S1x1 := by
  show StableHlo.after hostOps0 (fun b => m (c, b)) (Proc.devRef .tc main_v5) = _
  after_results
  rfl

/-- The grid has one point and the tile window's block is the whole tile: the body loads the tile as the region finds it. -/
theorem iblk0 (c : Dev nD) (t : Fin cfg0.N) : (iblk m c 0 t : Vec Ideal S12500x128 .f32) = V m c main_v4 := by
  obtain rfl := fin_N0 t
  have hz' : (fun a => win0_0.index t0_0 a * main_v4.ty.shape.size a) = fun _ => 0 := funext fun a => by fin_cases a <;> decide
  exact Memref.read_access_unit_zero (Elt Ideal) main_v4 hz' (fun a => by rw [congrFun hz' a]; simp) (V m c main_v4)

/-- Likewise the gate weight's block is its whole 1×1 array. -/
theorem iblk1 (c : Dev nD) (t : Fin cfg0.N) : (iblk m c 1 t : Vec Ideal S1x1 .f32) = V m c main_v1 := by
  obtain rfl := fin_N0 t
  have hz' : (fun a => win0_1.index t0_0 a * main_v1.ty.shape.size a) = fun _ => 0 := funext fun a => by fin_cases a <;> decide
  exact Memref.read_access_unit_zero (Elt Ideal) main_v1 hz' (fun a => by rw [congrFun hz' a]; simp) (V m c main_v1)

/-- Likewise the gate bias's block is its whole 1×1 array. -/
theorem iblk2 (c : Dev nD) (t : Fin cfg0.N) : (iblk m c 2 t : Vec Ideal S1x1 .f32) = V m c main_v5 := by
  obtain rfl := fin_N0 t
  have hz' : (fun a => win0_2.index t0_0 a * main_v5.ty.shape.size a) = fun _ => 0 := funext fun a => by fin_cases a <;> decide
  exact Memref.read_access_unit_zero (Elt Ideal) main_v5 hz' (fun a => by rw [congrFun hz' a]; simp) (V m c main_v5)

/-- The gate weight the body reads is the weights' leading element. -/
theorem V_v1_apply (c : Dev nD) : (V m c main_v1 : S1x1.Idx → EReal) (ix2 0 0) = gw m c := by
  rw [V_v1]
  refine (shapeCast_apply _ _ (ix2 (0 : Fin 1) (0 : Fin 1)) (ix3 (0 : Fin 1) (0 : Fin 1) (0 : Fin 1)) ?_).trans ?_
  · rw [Shape.rowMajor_val_three, Shape.rowMajor_val_two]; rfl
  · exact extractStridedSlice_apply _ _ _ _ (ix3 (0 : Fin 8) (0 : Fin 1) (0 : Fin 1))
      (fun a => by match a with | ⟨0, _⟩ => rfl | ⟨1, _⟩ => rfl | ⟨2, _⟩ => rfl)

/-- The gate bias the body reads is the biases' leading element. -/
theorem V_v5_apply (c : Dev nD) : (V m c main_v5 : S1x1.Idx → EReal) (ix2 0 0) = gb m c := by
  rw [V_v5]
  refine (shapeCast_apply _ _ (ix2 (0 : Fin 1) (0 : Fin 1)) (ix1 (0 : Fin 1)) ?_).trans ?_
  · rw [Shape.rowMajor_val_one, Shape.rowMajor_val_two]; rfl
  refine (shapeCast_apply _ _ (ix1 (0 : Fin 1)) (ix2 (0 : Fin 1) (0 : Fin 1)) ?_).trans ?_
  · rw [Shape.rowMajor_val_one, Shape.rowMajor_val_two]; rfl
  · exact extractStridedSlice_apply _ _ _ _ (ix2 (0 : Fin 8) (0 : Fin 1))
      (fun a => by match a with | ⟨0, _⟩ => rfl | ⟨1, _⟩ => rfl)

/-- The body's accesses start at the origin. -/
theorem hz : (![0, 0] : Fin 2 → Nat) = fun _ => 0 := funext fun a => by fin_cases a <;> rfl

/-- The sum of the penalties over all edges, from the arguments as launched. -/
abbrev tot (c : Dev nD) : EReal := total (gw m c) (gb m c) (ang m c)

/-- What the body leaves in the result window's buffer, at its one index: the total over all edges. The payload is the double sum over the tile; the tile is the column re-laid; re-laying does not change the sum. -/
theorem body_value (c : Dev nD) (t : Fin cfg0.N) (y : S1x1.Idx) :
    out0_3 (F := Ideal) (iblk m c 0 t) (iblk m c 1 t) (iblk m c 2 t) y = tot m c := by
  have e0 : (iblk m c 0 t : FVec Ideal S12500x128 .f32) = shapeCast S12500x128 (ang m c) shapeCasts_S1600000x1_S12500x128 :=
    (iblk0 m c t).trans (V_v4 m c)
  have e1 : (iblk m c 1 t : FVec Ideal S1x1 .f32) (ix2 0 0) = gw m c := (congrFun (iblk1 m c t) _).trans (V_v1_apply m c)
  have e2 : (iblk m c 2 t : FVec Ideal S1x1 .f32) (ix2 0 0) = gb m c := (congrFun (iblk2 m c t) _).trans (V_v5_apply m c)
  unfold out0_3
  rw [View.canon_unit_zero hz]
  simp only [View.ld_unit_zero (S := S12500x128) hz, View.ld_unit_zero (S := S1x1) hz]
  refine (payload _ _ _ y).trans ?_
  refine (Finset.sum_congr rfl fun r _ => Finset.sum_congr rfl fun l _ => ?_).trans
    (total_tiled (gw m c) (gb m c) (ang m c) shapeCasts_S1600000x1_S12500x128)
  exact congr (congr (congrArg pen e1) e2) (congrFun e0 (ix2 r l))

/-- The body leaves the constant block at the total. -/
theorem body_fun (c : Dev nD) (t : Fin cfg0.N) :
    out0_3 (F := Ideal) (iblk m c 0 t) (iblk m c 1 t) (iblk m c 2 t) = fun _ => tot m c :=
  funext fun y => body_value m c t y

/-- The one write-back writes that constant block: the result window's block is the whole 1×1 result array. -/
theorem flushed_eq (c : Dev nD) (t : Fin cfg0.N) :
    (dats m 0 c).flushed 3 t = ((cfg0.win 3).blk t).view.read (Elt Ideal) (fun _ => tot m c) := by
  obtain rfl := fin_N0 t
  show (cfg0.win 3).cut (grid0.coords t0_0) ((dats m 0 c).after 3 t0_0) = _
  rw [after0_3, body_fun]
  have hz' : (fun a => win0_3.index t0_0 a * main_v6.ty.shape.size a) = fun _ => 0 := funext fun a => by fin_cases a <;> decide
  exact (Memref.read_access_unit_zero (Elt Ideal) main_v6 hz' (fun a => by rw [congrFun hz' a]; simp) (fun _ => tot m c)).symm

/-- So the result array ends holding the total: the one point's block covers its one index. -/
theorem final (c : Dev nD) : (dats m 0 c).arrAt 3 cfg0.N = fun _ => tot m c :=
  (dats m 0 c).arrAt_eq_of_cover 3 (fun _ => tot m c) (fun t _ => flushed_eq m c t) fun i =>
    ⟨t0_0, flush0_3 t0_0, by
      show i ∈ ((View.whole main_v6).slice (win0_3.rect t0_0)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_0 0 * win0_3.size 0 ≤ (i 0 : Nat) ∧ (i 0 : Nat) < win0_3.index t0_0 0 * win0_3.size 0 + win0_3.xsize (grid0.coords t0_0) 0
                  rw [show win0_3.index t0_0 0 * win0_3.size 0 = 0 from by decide +kernel, show win0_3.xsize (grid0.coords t0_0) 0 = 1 from by decide +kernel]; omega
      | ⟨1, _⟩ => show win0_3.index t0_0 1 * win0_3.size 1 ≤ (i 1 : Nat) ∧ (i 1 : Nat) < win0_3.index t0_0 1 * win0_3.size 1 + win0_3.xsize (grid0.coords t0_0) 1
                  rw [show win0_3.index t0_0 1 * win0_3.size 1 = 0 from by decide +kernel, show win0_3.xsize (grid0.coords t0_0) 1 = 1 from by decide +kernel]; omega⟩

/-- After the region the host views the result array as a scalar and divides it by the edge count: the side loss. -/
theorem tail_v8 (c : Dev nD) :
    (Pipeline.afterTail₀ cfgs (dats m) 0 (V0 m) [hostOps1] c main_v8 : S_.Idx → EReal) = fun _ => sideLoss (gw m c) (gb m c) (ang m c) := by
  unfold Pipeline.afterTail₀
  show StableHlo.after hostOps1 _ (Proc.devRef .tc main_v8) = _
  after_results
  rw [(Pipeline.withArrays_arr spec0 launch0.win.arr_inj c _ _ 3).trans (final m c)]
  funext j
  rfl

/-- The kernel program's run, read: the second result ends at the side loss of the arguments as launched, and every
    argument ends unchanged. -/
theorem run : θ_run defs (onTc (τ := τ) (main (F := Ideal))) ⟨m, fun _ => 0, ρ⟩ fun r => ∀ c : Dev nD,
      r.2.mem ((c.tc : Thread nD τ).loc main_v8) = ((fun _ => sideLoss (gw m c) (gb m c) (ang m c)) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).2 main_v8 (Pipeline.mem_restRefs_of main_v8 (by decide) (by decide))).trans (tail_v8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.SideLoss
end
-- ==== Proof.RefWindows.Part0.lean ====
/- The reference program's @main is printed in windows `main_part0` … `main_part12`; this module lists window 0's host
   operations (a called function's three operations in its call's place), says that the window is the straight line of
   them, that each touches TensorCore buffers only, which buffers the window writes (one per operation, all distinct)
   and that every operation writes inside that list, and that none allocates a buffer. -/
import proofs.«415750_j38869454029182_1_alg».proof.Proof.Gen.ReferenceIdeal
import Idealize.ShloMosaic.Lib.StableHlo.Run

noncomputable section

namespace Cert.ReferenceIdeal.Windows

open Cert.ReferenceIdeal Cert.ReferenceIdeal.Gen Idealize.ShloMosaic Idealize.ShloMosaic.TcCoe Idealize.SL.Sem Idealize.ShloMosaic.StableHlo

variable {F : FTy → Type} [FloatOps F]

/-- Window 0's 62 operations, in order. -/
abbrev ops_part0 : List (HloOp τ sig (Elt F)) :=
  [ unary main_arg10 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg10 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S1600000x32_S32x32_S1600000x32_1_0_0_1_n_n none l r) : (⟨S1600000x32, .f32⟩ : BufTy).Contents (Elt F) → (⟨S32x32, .f32⟩ : BufTy).Contents (Elt F) → (⟨S1600000x32, .f32⟩ : BufTy).Contents (Elt F)),
    unary main_arg3 main_v5 (broadcastInDim S1x32 ![1] bcast_S32_S1x32_1 : (⟨S32, .f32⟩ : BufTy).Contents (Elt F) → (⟨S1x32, .f32⟩ : BufTy).Contents (Elt F)),
    unary main_v5 main_v6 (broadcastInDim S1600000x32 ![0, 1] bcast_S1x32_S1600000x32_0_1 : (⟨S1x32, .f32⟩ : BufTy).Contents (Elt F) → (⟨S1600000x32, .f32⟩ : BufTy).Contents (Elt F)),
    binary main_v4 main_v6 main_v7 (addf : (⟨S1600000x32, .f32⟩ : BufTy).Contents (Elt F) → (⟨S1600000x32, .f32⟩ : BufTy).Contents (Elt F) → (⟨S1600000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1600000x32, .f32⟩) main_call0_v0) (broadcastInDim S1600000x32 ![] bcast_S_S1600000x32),
    TRef.binary (TRef.of (T := ⟨S1600000x32, .f32⟩) main_v7) (TRef.of (T := ⟨S1600000x32, .f32⟩) main_call0_v0) (TRef.of (T := ⟨S1600000x32, .f32⟩) main_v8) maximumf,
    binary main_v1 main_v3 main_v9 ((fun a b => concatenate S3200000 0 [⟨S1600000, a⟩, ⟨S1600000, b⟩] concatenates_S1600000_S1600000_S3200000_d0) : (⟨S1600000, .i32⟩ : BufTy).Contents (Elt F) → (⟨S1600000, .i32⟩ : BufTy).Contents (Elt F) → (⟨S3200000, .i32⟩ : BufTy).Contents (Elt F)),
    binary main_v8 main_v8 main_v10 ((fun a b => concatenate S3200000x32 0 [⟨S1600000x32, a⟩, ⟨S1600000x32, b⟩] concatenates_S1600000x32_S1600000x32_S3200000x32_d0) : (⟨S1600000x32, .f32⟩ : BufTy).Contents (Elt F) → (⟨S1600000x32, .f32⟩ : BufTy).Contents (Elt F) → (⟨S3200000x32, .f32⟩ : BufTy).Contents (Elt F)),
    nullary main_cst (constant S_ .f32 0x00000000#32),
    unary main_cst main_v11 (broadcastInDim S50000x32 ![] bcast_S_S50000x32 : (⟨S_, .f32⟩ : BufTy).Contents (Elt F) → (⟨S50000x32, .f32⟩ : BufTy).Contents (Elt F)),
    unary main_v9 main_v12 (broadcastInDim S3200000x1 ![0] bcast_S3200000_S3200000x1_0 : (⟨S3200000, .i32⟩ : BufTy).Contents (Elt F) → (⟨S3200000x1, .i32⟩ : BufTy).Contents (Elt F)),
    ternary main_v11 main_v12 main_v10 main_v13 ((fun x i u => Host.scatterAdd scatter_S50000x32_S3200000x1_S3200000x32_1_0_0_1 x i u) : (⟨S50000x32, .f32⟩ : BufTy).Contents (Elt F) → (⟨S3200000x1, .i32⟩ : BufTy).Contents (Elt F) → (⟨S3200000x32, .f32⟩ : BufTy).Contents (Elt F) → (⟨S50000x32, .f32⟩ : BufTy).Contents (Elt F)),
    nullary main_cst_0 (constant S_ .f32 0x3F800000#32),
    unary main_cst_0 main_v14 (broadcastInDim S3200000x1 ![] bcast_S_S3200000x1 : (⟨S_, .f32⟩ : BufTy).Contents (Elt F) → (⟨S3200000x1, .f32⟩ : BufTy).Contents (Elt F)),
    nullary main_cst_1 (constant S_ .f32 0x00000000#32),
    unary main_cst_1 main_v15 (broadcastInDim S50000x1 ![] bcast_S_S50000x1 : (⟨S_, .f32⟩ : BufTy).Contents (Elt F) → (⟨S50000x1, .f32⟩ : BufTy).Contents (Elt F)),
    unary main_v9 main_v16 (broadcastInDim S3200000x1 ![0] bcast_S3200000_S3200000x1_0 : (⟨S3200000, .i32⟩ : BufTy).Contents (Elt F) → (⟨S3200000x1, .i32⟩ : BufTy).Contents (Elt F)),
    ternary main_v15 main_v16 main_v14 main_v17 ((fun x i u => Host.scatterAdd scatter_S50000x1_S3200000x1_S3200000x1_1_0_0_1 x i u) : (⟨S50000x1, .f32⟩ : BufTy).Contents (Elt F) → (⟨S3200000x1, .i32⟩ : BufTy).Contents (Elt F) → (⟨S3200000x1, .f32⟩ : BufTy).Contents (Elt F) → (⟨S50000x1, .f32⟩ : BufTy).Contents (Elt F)),
    nullary main_cst_2 (constant S_ .f32 0x3F800000#32),
    unary main_cst_2 main_v18 (broadcastInDim S50000x1 ![] bcast_S_S50000x1 : (⟨S_, .f32⟩ : BufTy).Contents (Elt F) → (⟨S50000x1, .f32⟩ : BufTy).Contents (Elt F)),
    binary main_v17 main_v18 main_v19 (maximumf : (⟨S50000x1, .f32⟩ : BufTy).Contents (Elt F) → (⟨S50000x1, .f32⟩ : BufTy).Contents (Elt F) → (⟨S50000x1, .f32⟩ : BufTy).Contents (Elt F)),
    unary main_v19 main_v20 (broadcastInDim S50000x32 ![0, 1] bcast_S50000x1_S50000x32_0_1 : (⟨S50000x1, .f32⟩ : BufTy).Contents (Elt F) → (⟨S50000x32, .f32⟩ : BufTy).Contents (Elt F)),
    binary main_v13 main_v20 main_v21 (Host.divf : (⟨S50000x32, .f32⟩ : BufTy).Contents (Elt F) → (⟨S50000x32, .f32⟩ : BufTy).Contents (Elt F) → (⟨S50000x32, .f32⟩ : BufTy).Contents (Elt F)),
    unary main_arg4 main_v22 ((extractStridedSlice S1x65x32 ![0, 0, 0] · slices_S8x65x32_S1x65x32_0_0_0) : (⟨S8x65x32, .f32⟩ : BufTy).Contents (Elt F) → (⟨S1x65x32, .f32⟩ : BufTy).Contents (Elt F)),
    reshape main_v22 main_v23 rfl shapeCasts_S1x65x32_S65x32,
    unary main_arg5 main_v24 ((extractStridedSlice S1x32 ![0, 0] · slices_S8x32_S1x32_0_0) : (⟨S8x32, .f32⟩ : BufTy).Contents (Elt F) → (⟨S1x32, .f32⟩ : BufTy).Contents (Elt F)),
    reshape main_v24 main_v25 rfl shapeCasts_S1x32_S32,
    unary main_arg6 main_v26 ((extractStridedSlice S1x1x1 ![0, 0, 0] · slices_S8x1x1_S1x1x1_0_0_0) : (⟨S8x1x1, .f32⟩ : BufTy).Contents (Elt F) → (⟨S1x1x1, .f32⟩ : BufTy).Contents (Elt F)),
    reshape main_v26 main_v27 rfl shapeCasts_S1x1x1_S1x1,
    unary main_arg7 main_v28 ((extractStridedSlice S1x1 ![0, 0] · slices_S8x1_S1x1_0_0) : (⟨S8x1, .f32⟩ : BufTy).Contents (Elt F) → (⟨S1x1, .f32⟩ : BufTy).Contents (Elt F)),
    reshape main_v28 main_v29 rfl shapeCasts_S1x1_S1,
    unary main_arg8 main_v30 ((extractStridedSlice S1x32x32 ![0, 0, 0] · slices_S8x32x32_S1x32x32_0_0_0) : (⟨S8x32x32, .f32⟩ : BufTy).Contents (Elt F) → (⟨S1x32x32, .f32⟩ : BufTy).Contents (Elt F)),
    reshape main_v30 main_v31 rfl shapeCasts_S1x32x32_S32x32,
    unary main_arg9 main_v32 ((extractStridedSlice S1x32 ![0, 0] · slices_S8x32_S1x32_0_0) : (⟨S8x32, .f32⟩ : BufTy).Contents (Elt F) → (⟨S1x32, .f32⟩ : BufTy).Contents (Elt F)),
    reshape main_v32 main_v33 rfl shapeCasts_S1x32_S32,
    nullary main_c (constantI S_ 32 0#32),
    unary main_c main_v34 (broadcastInDim S1600000 ![] bcast_S_S1600000 : (⟨S_, .i32⟩ : BufTy).Contents (Elt F) → (⟨S1600000, .i32⟩ : BufTy).Contents (Elt F)),
    binary main_v1 main_v34 main_v35 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 50000#32),
    unary main_c_3 main_v36 (broadcastInDim S1600000 ![] bcast_S_S1600000 : (⟨S_, .i32⟩ : BufTy).Contents (Elt F) → (⟨S1600000, .i32⟩ : BufTy).Contents (Elt F)),
    binary main_v1 main_v36 main_v37 (addi : (⟨S1600000, .i32⟩ : BufTy).Contents (Elt F) → (⟨S1600000, .i32⟩ : BufTy).Contents (Elt F) → (⟨S1600000, .i32⟩ : BufTy).Contents (Elt F)),
    ternary main_v35 main_v37 main_v1 main_v38 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v38 main_v39 (broadcastInDim S1600000x1 ![0] bcast_S1600000_S1600000x1_0 : (⟨S1600000, .i32⟩ : BufTy).Contents (Elt F) → (⟨S1600000x1, .i32⟩ : BufTy).Contents (Elt F)),
    binary main_v21 main_v39 main_v40 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    nullary main_c_4 (constantI S_ 32 0#32),
    unary main_c_4 main_v41 (broadcastInDim S1600000 ![] bcast_S_S1600000 : (⟨S_, .i32⟩ : BufTy).Contents (Elt F) → (⟨S1600000, .i32⟩ : BufTy).Contents (Elt F)),
    binary main_v3 main_v41 main_v42 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 50000#32),
    unary main_c_5 main_v43 (broadcastInDim S1600000 ![] bcast_S_S1600000 : (⟨S_, .i32⟩ : BufTy).Contents (Elt F) → (⟨S1600000, .i32⟩ : BufTy).Contents (Elt F)),
    binary main_v3 main_v43 main_v44 (addi : (⟨S1600000, .i32⟩ : BufTy).Contents (Elt F) → (⟨S1600000, .i32⟩ : BufTy).Contents (Elt F) → (⟨S1600000, .i32⟩ : BufTy).Contents (Elt F)),
    ternary main_v42 main_v44 main_v3 main_v45 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v45 main_v46 (broadcastInDim S1600000x1 ![0] bcast_S1600000_S1600000x1_0 : (⟨S1600000, .i32⟩ : BufTy).Contents (Elt F) → (⟨S1600000x1, .i32⟩ : BufTy).Contents (Elt F)),
    binary main_v21 main_v46 main_v47 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    nullary main_c_6 (constantI S_ 32 0#32),
    unary main_c_6 main_v48 (broadcastInDim S1600000 ![] bcast_S_S1600000 : (⟨S_, .i32⟩ : BufTy).Contents (Elt F) → (⟨S1600000, .i32⟩ : BufTy).Contents (Elt F)),
    binary main_v1 main_v48 main_v49 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 50000#32) ]

set_option maxRecDepth 8192 in
/-- The window is the straight line of its operations. -/
theorem main_part0_eq (c : Dev nD) : main_part0 (F := F) c = seq ops_part0 := rfl

set_option maxRecDepth 8192 in
/-- Each operation touches TensorCore buffers only. -/
theorem ops_part0_sub : (ops_part0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub ..⟩

/-- The buffers the window writes: one per operation. -/
abbrev ops_part0_W : List (Ref sig .tc) := [main_v0, main_v1, main_v2, main_v3, main_v4, main_v5, main_v6, main_v7, main_call0_cst, main_call0_v0, main_v8, main_v9, main_v10, main_cst, main_v11, main_v12, main_v13, main_cst_0, main_v14, main_cst_1, main_v15, main_v16, main_v17, main_cst_2, main_v18, main_v19, main_v20, main_v21, main_v22, main_v23, main_v24, main_v25, main_v26, main_v27, main_v28, main_v29, main_v30, main_v31, main_v32, main_v33, main_c, main_v34, main_v35, main_c_3, main_v36, main_v37, main_v38, main_v39, main_v40, main_c_4, main_v41, main_v42, main_c_5, main_v43, main_v44, main_v45, main_v46, main_v47, main_c_6, main_v48, main_v49, main_c_7]

set_option maxRecDepth 8192 in
/-- Every operation writes its own result buffer only, and that buffer is in the list. -/
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- No operation allocates a buffer. -/
theorem ops_part0_fresh : ∀ op ∈ (ops_part0 : List (HloOp τ sig (Elt F))), op.fresh = ∅ := by
  intro _ h; (repeat (cases h with | head => rfl | tail _ h => ?_)); exact nomatch h

end Cert.ReferenceIdeal.Windows

end
-- ==== Proof.RefWindows.Part1.lean ====
/- The reference program's @main is printed in windows `main_part0` … `main_part12`; this module lists window 1's host
   operations (a called function's three operations in its call's place), says that the window is the straight line of
   them, that each touches TensorCore buffers only, which buffers the window writes (one per operation, all distinct)
   and that every operation writes inside that list, and that none allocates a buffer. -/
import proofs.«415750_j38869454029182_1_alg».proof.Proof.Gen.ReferenceIdeal
import Idealize.ShloMosaic.Lib.StableHlo.Run

noncomputable section

namespace Cert.ReferenceIdeal.Windows

open Cert.ReferenceIdeal Cert.ReferenceIdeal.Gen Idealize.ShloMosaic Idealize.ShloMosaic.TcCoe Idealize.SL.Sem Idealize.ShloMosaic.StableHlo

variable {F : FTy → Type} [FloatOps F]

/-- Window 1's 64 operations, in order. -/
abbrev ops_part1 : List (HloOp τ sig (Elt F)) :=
  [ unary main_c_7 main_v50 (broadcastInDim S1600000 ![] bcast_S_S1600000 : (⟨S_, .i32⟩ : BufTy).Contents (Elt F) → (⟨S1600000, .i32⟩ : BufTy).Contents (Elt F)),
    binary main_v1 main_v50 main_v51 (addi : (⟨S1600000, .i32⟩ : BufTy).Contents (Elt F) → (⟨S1600000, .i32⟩ : BufTy).Contents (Elt F) → (⟨S1600000, .i32⟩ : BufTy).Contents (Elt F)),
    ternary main_v49 main_v51 main_v1 main_v52 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v52 main_v53 (broadcastInDim S1600000x1 ![0] bcast_S1600000_S1600000x1_0 : (⟨S1600000, .i32⟩ : BufTy).Contents (Elt F) → (⟨S1600000x1, .i32⟩ : BufTy).Contents (Elt F)),
    binary main_v21 main_v53 main_v54 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    binary main_v47 main_v54 main_v55 (subf : (⟨S1600000x32, .f32⟩ : BufTy).Contents (Elt F) → (⟨S1600000x32, .f32⟩ : BufTy).Contents (Elt F) → (⟨S1600000x32, .f32⟩ : BufTy).Contents (Elt F)),
    nary ![main_v40, main_v55, main_arg1] main_v56 (fun u => concatenate S1600000x65 1 [⟨S1600000x32, u 0⟩, ⟨S1600000x32, u 1⟩, ⟨S1600000x1, u 2⟩] concatenates_S1600000x32_S1600000x32_S1600000x1_S1600000x65_d1),
    binary main_v56 main_v23 main_v57 ((fun l r => Host.dotGeneral dot_S1600000x65_S65x32_S1600000x32_1_0_0_1_n_n none l r) : (⟨S1600000x65, .f32⟩ : BufTy).Contents (Elt F) → (⟨S65x32, .f32⟩ : BufTy).Contents (Elt F) → (⟨S1600000x32, .f32⟩ : BufTy).Contents (Elt F)),
    unary main_v25 main_v58 (broadcastInDim S1x32 ![1] bcast_S32_S1x32_1 : (⟨S32, .f32⟩ : BufTy).Contents (Elt F) → (⟨S1x32, .f32⟩ : BufTy).Contents (Elt F)),
    unary main_v58 main_v59 (broadcastInDim S1600000x32 ![0, 1] bcast_S1x32_S1600000x32_0_1 : (⟨S1x32, .f32⟩ : BufTy).Contents (Elt F) → (⟨S1600000x32, .f32⟩ : BufTy).Contents (Elt F)),
    binary main_v57 main_v59 main_v60 (addf : (⟨S1600000x32, .f32⟩ : BufTy).Contents (Elt F) → (⟨S1600000x32, .f32⟩ : BufTy).Contents (Elt F) → (⟨S1600000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1600000x32, .f32⟩) main_call1_v0) (broadcastInDim S1600000x32 ![] bcast_S_S1600000x32),
    TRef.binary (TRef.of (T := ⟨S1600000x32, .f32⟩) main_v60) (TRef.of (T := ⟨S1600000x32, .f32⟩) main_call1_v0) (TRef.of (T := ⟨S1600000x32, .f32⟩) main_v61) maximumf,
    binary main_arg1 main_v27 main_v62 ((fun l r => Host.dotGeneral dot_S1600000x1_S1x1_S1600000x1_1_0_0_1_n_n none l r) : (⟨S1600000x1, .f32⟩ : BufTy).Contents (Elt F) → (⟨S1x1, .f32⟩ : BufTy).Contents (Elt F) → (⟨S1600000x1, .f32⟩ : BufTy).Contents (Elt F)),
    unary main_v29 main_v63 (broadcastInDim S1x1 ![1] bcast_S1_S1x1_1 : (⟨S1, .f32⟩ : BufTy).Contents (Elt F) → (⟨S1x1, .f32⟩ : BufTy).Contents (Elt F)),
    unary main_v63 main_v64 (broadcastInDim S1600000x1 ![0, 1] bcast_S1x1_S1600000x1_0_1 : (⟨S1x1, .f32⟩ : BufTy).Contents (Elt F) → (⟨S1600000x1, .f32⟩ : BufTy).Contents (Elt F)),
    binary main_v62 main_v64 main_v65 (addf : (⟨S1600000x1, .f32⟩ : BufTy).Contents (Elt F) → (⟨S1600000x1, .f32⟩ : BufTy).Contents (Elt F) → (⟨S1600000x1, .f32⟩ : BufTy).Contents (Elt F)),
    unary main_v65 main_v66 (Host.negf : (⟨S1600000x1, .f32⟩ : BufTy).Contents (Elt F) → (⟨S1600000x1, .f32⟩ : BufTy).Contents (Elt F)),
    unary main_v66 main_v67 (Host.exp : (⟨S1600000x1, .f32⟩ : BufTy).Contents (Elt F) → (⟨S1600000x1, .f32⟩ : BufTy).Contents (Elt F)),
    nullary main_cst_8 (constant S_ .f32 0x3F800000#32),
    unary main_cst_8 main_v68 (broadcastInDim S1600000x1 ![] bcast_S_S1600000x1 : (⟨S_, .f32⟩ : BufTy).Contents (Elt F) → (⟨S1600000x1, .f32⟩ : BufTy).Contents (Elt F)),
    binary main_v68 main_v67 main_v69 (addf : (⟨S1600000x1, .f32⟩ : BufTy).Contents (Elt F) → (⟨S1600000x1, .f32⟩ : BufTy).Contents (Elt F) → (⟨S1600000x1, .f32⟩ : BufTy).Contents (Elt F)),
    nullary main_cst_9 (constant S_ .f32 0x3F800000#32),
    unary main_cst_9 main_v70 (broadcastInDim S1600000x1 ![] bcast_S_S1600000x1 : (⟨S_, .f32⟩ : BufTy).Contents (Elt F) → (⟨S1600000x1, .f32⟩ : BufTy).Contents (Elt F)),
    binary main_v70 main_v69 main_v71 (Host.divf : (⟨S1600000x1, .f32⟩ : BufTy).Contents (Elt F) → (⟨S1600000x1, .f32⟩ : BufTy).Contents (Elt F) → (⟨S1600000x1, .f32⟩ : BufTy).Contents (Elt F)),
    unary main_v71 main_v72 (broadcastInDim S1600000x32 ![0, 1] bcast_S1600000x1_S1600000x32_0_1 : (⟨S1600000x1, .f32⟩ : BufTy).Contents (Elt F) → (⟨S1600000x32, .f32⟩ : BufTy).Contents (Elt F)),
    binary main_v61 main_v72 main_v73 (mulf : (⟨S1600000x32, .f32⟩ : BufTy).Contents (Elt F) → (⟨S1600000x32, .f32⟩ : BufTy).Contents (Elt F) → (⟨S1600000x32, .f32⟩ : BufTy).Contents (Elt F)),
    nullary main_cst_10 (constant S_ .f32 0x00000000#32),
    unary main_cst_10 main_v74 (broadcastInDim S50000x32 ![] bcast_S_S50000x32 : (⟨S_, .f32⟩ : BufTy).Contents (Elt F) → (⟨S50000x32, .f32⟩ : BufTy).Contents (Elt F)),
    unary main_v3 main_v75 (broadcastInDim S1600000x1 ![0] bcast_S1600000_S1600000x1_0 : (⟨S1600000, .i32⟩ : BufTy).Contents (Elt F) → (⟨S1600000x1, .i32⟩ : BufTy).Contents (Elt F)),
    ternary main_v74 main_v75 main_v73 main_v76 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)),
    nullary main_cst_11 (constant S_ .f32 0x3F800000#32),
    unary main_cst_11 main_v77 (broadcastInDim S1600000x1 ![] bcast_S_S1600000x1 : (⟨S_, .f32⟩ : BufTy).Contents (Elt F) → (⟨S1600000x1, .f32⟩ : BufTy).Contents (Elt F)),
    nullary main_cst_12 (constant S_ .f32 0x00000000#32),
    unary main_cst_12 main_v78 (broadcastInDim S50000x1 ![] bcast_S_S50000x1 : (⟨S_, .f32⟩ : BufTy).Contents (Elt F) → (⟨S50000x1, .f32⟩ : BufTy).Contents (Elt F)),
    unary main_v3 main_v79 (broadcastInDim S1600000x1 ![0] bcast_S1600000_S1600000x1_0 : (⟨S1600000, .i32⟩ : BufTy).Contents (Elt F) → (⟨S1600000x1, .i32⟩ : BufTy).Contents (Elt F)),
    ternary main_v78 main_v79 main_v77 main_v80 ((fun x i u => Host.scatterAdd scatter_S50000x1_S1600000x1_S1600000x1_1_0_0_1 x i u) : (⟨S50000x1, .f32⟩ : BufTy).Contents (Elt F) → (⟨S1600000x1, .i32⟩ : BufTy).Contents (Elt F) → (⟨S1600000x1, .f32⟩ : BufTy).Contents (Elt F) → (⟨S50000x1, .f32⟩ : BufTy).Contents (Elt F)),
    nullary main_cst_13 (constant S_ .f32 0x3F800000#32),
    unary main_cst_13 main_v81 (broadcastInDim S50000x1 ![] bcast_S_S50000x1 : (⟨S_, .f32⟩ : BufTy).Contents (Elt F) → (⟨S50000x1, .f32⟩ : BufTy).Contents (Elt F)),
    binary main_v80 main_v81 main_v82 (maximumf : (⟨S50000x1, .f32⟩ : BufTy).Contents (Elt F) → (⟨S50000x1, .f32⟩ : BufTy).Contents (Elt F) → (⟨S50000x1, .f32⟩ : BufTy).Contents (Elt F)),
    unary main_v82 main_v83 (broadcastInDim S50000x32 ![0, 1] bcast_S50000x1_S50000x32_0_1 : (⟨S50000x1, .f32⟩ : BufTy).Contents (Elt F) → (⟨S50000x32, .f32⟩ : BufTy).Contents (Elt F)),
    binary main_v76 main_v83 main_v84 (Host.divf : (⟨S50000x32, .f32⟩ : BufTy).Contents (Elt F) → (⟨S50000x32, .f32⟩ : BufTy).Contents (Elt F) → (⟨S50000x32, .f32⟩ : BufTy).Contents (Elt F)),
    binary main_v21 main_v31 main_v85 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    unary main_v33 main_v86 (broadcastInDim S1x32 ![1] bcast_S32_S1x32_1 : (⟨S32, .f32⟩ : BufTy).Contents (Elt F) → (⟨S1x32, .f32⟩ : BufTy).Contents (Elt F)),
    unary main_v86 main_v87 (broadcastInDim S50000x32 ![0, 1] bcast_S1x32_S50000x32_0_1 : (⟨S1x32, .f32⟩ : BufTy).Contents (Elt F) → (⟨S50000x32, .f32⟩ : BufTy).Contents (Elt F)),
    binary main_v85 main_v87 main_v88 (addf : (⟨S50000x32, .f32⟩ : BufTy).Contents (Elt F) → (⟨S50000x32, .f32⟩ : BufTy).Contents (Elt F) → (⟨S50000x32, .f32⟩ : BufTy).Contents (Elt F)),
    binary main_v88 main_v84 main_v89 (addf : (⟨S50000x32, .f32⟩ : BufTy).Contents (Elt F) → (⟨S50000x32, .f32⟩ : BufTy).Contents (Elt F) → (⟨S50000x32, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x32, .f32⟩) main_call2_v0) (broadcastInDim S50000x32 ![] bcast_S_S50000x32),
    TRef.binary (TRef.of (T := ⟨S50000x32, .f32⟩) main_v89) (TRef.of (T := ⟨S50000x32, .f32⟩) main_call2_v0) (TRef.of (T := ⟨S50000x32, .f32⟩) main_v90) maximumf,
    nullary main_cst_14 (constant S_ .f32 0x3F800000#32),
    unary main_cst_14 main_v91 (broadcastInDim S1600000x1 ![] bcast_S_S1600000x1 : (⟨S_, .f32⟩ : BufTy).Contents (Elt F) → (⟨S1600000x1, .f32⟩ : BufTy).Contents (Elt F)),
    binary main_v91 main_v71 main_v92 (subf : (⟨S1600000x1, .f32⟩ : BufTy).Contents (Elt F) → (⟨S1600000x1, .f32⟩ : BufTy).Contents (Elt F) → (⟨S1600000x1, .f32⟩ : BufTy).Contents (Elt F)),
    binary main_v71 main_v92 main_v93 (mulf : (⟨S1600000x1, .f32⟩ : BufTy).Contents (Elt F) → (⟨S1600000x1, .f32⟩ : BufTy).Contents (Elt F) → (⟨S1600000x1, .f32⟩ : BufTy).Contents (Elt F)),
    nullary main_cst_15 (constant S_ .f32 0x00000000#32),
    binary main_v93 main_cst_15 main_v94 ((fun x v => Host.reduceAdd x v reducesTo_S1600000x1_S_d0_1 h_S_) : (⟨S1600000x1, .f32⟩ : BufTy).Contents (Elt F) → (⟨S_, .f32⟩ : BufTy).Contents (Elt F) → (⟨S_, .f32⟩ : BufTy).Contents (Elt F)),
    nullary main_cst_16 (constant S_ .f32 0x49C35000#32),
    binary main_v94 main_cst_16 main_v95 (Host.divf : (⟨S_, .f32⟩ : BufTy).Contents (Elt F) → (⟨S_, .f32⟩ : BufTy).Contents (Elt F) → (⟨S_, .f32⟩ : BufTy).Contents (Elt F)),
    unary main_arg4 main_v96 ((extractStridedSlice S1x65x32 ![1, 0, 0] · slices_S8x65x32_S1x65x32_1_0_0) : (⟨S8x65x32, .f32⟩ : BufTy).Contents (Elt F) → (⟨S1x65x32, .f32⟩ : BufTy).Contents (Elt F)),
    reshape main_v96 main_v97 rfl shapeCasts_S1x65x32_S65x32,
    unary main_arg5 main_v98 ((extractStridedSlice S1x32 ![1, 0] · slices_S8x32_S1x32_1_0) : (⟨S8x32, .f32⟩ : BufTy).Contents (Elt F) → (⟨S1x32, .f32⟩ : BufTy).Contents (Elt F)),
    reshape main_v98 main_v99 rfl shapeCasts_S1x32_S32,
    unary main_arg6 main_v100 ((extractStridedSlice S1x1x1 ![1, 0, 0] · slices_S8x1x1_S1x1x1_1_0_0) : (⟨S8x1x1, .f32⟩ : BufTy).Contents (Elt F) → (⟨S1x1x1, .f32⟩ : BufTy).Contents (Elt F)) ]

set_option maxRecDepth 8192 in
/-- The window is the straight line of its operations. -/
theorem main_part1_eq (c : Dev nD) : main_part1 (F := F) c = seq ops_part1 := rfl

set_option maxRecDepth 8192 in
/-- Each operation touches TensorCore buffers only. -/
theorem ops_part1_sub : (ops_part1 : List (HloOp τ sig (Elt F))).Forall fun op => op.bufs ⊆ tcRefs τ sig :=
  ⟨unary_bufs_sub .., binary_bufs_sub .., ternary_bufs_sub .., unary_bufs_sub .., binary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., binary_bufs_sub .., nullary_bufs_sub .., binary_bufs_sub .., unary_bufs_sub .., reshape_bufs_sub .., unary_bufs_sub .., reshape_bufs_sub .., unary_bufs_sub ..⟩

/-- The buffers the window writes: one per operation. -/
abbrev ops_part1_W : List (Ref sig .tc) := [main_v50, main_v51, main_v52, main_v53, main_v54, main_v55, main_v56, main_v57, main_v58, main_v59, main_v60, main_call1_cst, main_call1_v0, main_v61, main_v62, main_v63, main_v64, main_v65, main_v66, main_v67, main_cst_8, main_v68, main_v69, main_cst_9, main_v70, main_v71, main_v72, main_v73, main_cst_10, main_v74, main_v75, main_v76, main_cst_11, main_v77, main_cst_12, main_v78, main_v79, main_v80, main_cst_13, main_v81, main_v82, main_v83, main_v84, main_v85, main_v86, main_v87, main_v88, main_v89, main_call2_cst, main_call2_v0, main_v90, main_cst_14, main_v91, main_v92, main_v93, main_cst_15, main_v94, main_cst_16, main_v95, main_v96, main_v97, main_v98, main_v99, main_v100]

set_option maxRecDepth 8192 in
/-- Every operation writes its own result buffer only, and that buffer is in the list. -/
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- No operation allocates a buffer. -/
theorem ops_part1_fresh : ∀ op ∈ (ops_part1 : List (HloOp τ sig (Elt F))), op.fresh = ∅ := by
  intro _ h; (repeat (cases h with | head => rfl | tail _ h => ?_)); exact nomatch h

end Cert.ReferenceIdeal.Windows

end
-- ==== Proof.RefWindows.Part2.lean ====
/- The reference program's @main is printed in windows `main_part0` … `main_part12`; this module lists window 2's host
   operations (a called function's three operations in its call's place), says that the window is the straight line of
   them, that each touches TensorCore buffers only, which buffers the window writes (one per operation, all distinct)
   and that every operation writes inside that list, and that none allocates a buffer. -/
import proofs.«415750_j38869454029182_1_alg».proof.Proof.Gen.ReferenceIdeal
import Idealize.ShloMosaic.Lib.StableHlo.Run

noncomputable section

namespace Cert.ReferenceIdeal.Windows

open Cert.ReferenceIdeal Cert.ReferenceIdeal.Gen Idealize.ShloMosaic Idealize.ShloMosaic.TcCoe Idealize.SL.Sem Idealize.ShloMosaic.StableHlo

variable {F : FTy → Type} [FloatOps F]

/-- Window 2's 62 operations, in order. -/
abbrev ops_part2 : List (HloOp τ sig (Elt F)) :=
  [ reshape main_v100 main_v101 rfl shapeCasts_S1x1x1_S1x1,
    unary main_arg7 main_v102 ((extractStridedSlice S1x1 ![1, 0] · slices_S8x1_S1x1_1_0) : (⟨S8x1, .f32⟩ : BufTy).Contents (Elt F) → (⟨S1x1, .f32⟩ : BufTy).Contents (Elt F)),
    reshape main_v102 main_v103 rfl shapeCasts_S1x1_S1,
    unary main_arg8 main_v104 ((extractStridedSlice S1x32x32 ![1, 0, 0] · slices_S8x32x32_S1x32x32_1_0_0) : (⟨S8x32x32, .f32⟩ : BufTy).Contents (Elt F) → (⟨S1x32x32, .f32⟩ : BufTy).Contents (Elt F)),
    reshape main_v104 main_v105 rfl shapeCasts_S1x32x32_S32x32,
    unary main_arg9 main_v106 ((extractStridedSlice S1x32 ![1, 0] · slices_S8x32_S1x32_1_0) : (⟨S8x32, .f32⟩ : BufTy).Contents (Elt F) → (⟨S1x32, .f32⟩ : BufTy).Contents (Elt F)),
    reshape main_v106 main_v107 rfl shapeCasts_S1x32_S32,
    nullary main_c_17 (constantI S_ 32 0#32),
    unary main_c_17 main_v108 (broadcastInDim S1600000 ![] bcast_S_S1600000 : (⟨S_, .i32⟩ : BufTy).Contents (Elt F) → (⟨S1600000, .i32⟩ : BufTy).Contents (Elt F)),
    binary main_v1 main_v108 main_v109 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 50000#32),
    unary main_c_18 main_v110 (broadcastInDim S1600000 ![] bcast_S_S1600000 : (⟨S_, .i32⟩ : BufTy).Contents (Elt F) → (⟨S1600000, .i32⟩ : BufTy).Contents (Elt F)),
    binary main_v1 main_v110 main_v111 (addi : (⟨S1600000, .i32⟩ : BufTy).Contents (Elt F) → (⟨S1600000, .i32⟩ : BufTy).Contents (Elt F) → (⟨S1600000, .i32⟩ : BufTy).Contents (Elt F)),
    ternary main_v109 main_v111 main_v1 main_v112 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v112 main_v113 (broadcastInDim S1600000x1 ![0] bcast_S1600000_S1600000x1_0 : (⟨S1600000, .i32⟩ : BufTy).Contents (Elt F) → (⟨S1600000x1, .i32⟩ : BufTy).Contents (Elt F)),
    binary main_v90 main_v113 main_v114 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    nullary main_c_19 (constantI S_ 32 0#32),
    unary main_c_19 main_v115 (broadcastInDim S1600000 ![] bcast_S_S1600000 : (⟨S_, .i32⟩ : BufTy).Contents (Elt F) → (⟨S1600000, .i32⟩ : BufTy).Contents (Elt F)),
    binary main_v3 main_v115 main_v116 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 50000#32),
    unary main_c_20 main_v117 (broadcastInDim S1600000 ![] bcast_S_S1600000 : (⟨S_, .i32⟩ : BufTy).Contents (Elt F) → (⟨S1600000, .i32⟩ : BufTy).Contents (Elt F)),
    binary main_v3 main_v117 main_v118 (addi : (⟨S1600000, .i32⟩ : BufTy).Contents (Elt F) → (⟨S1600000, .i32⟩ : BufTy).Contents (Elt F) → (⟨S1600000, .i32⟩ : BufTy).Contents (Elt F)),
    ternary main_v116 main_v118 main_v3 main_v119 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v119 main_v120 (broadcastInDim S1600000x1 ![0] bcast_S1600000_S1600000x1_0 : (⟨S1600000, .i32⟩ : BufTy).Contents (Elt F) → (⟨S1600000x1, .i32⟩ : BufTy).Contents (Elt F)),
    binary main_v90 main_v120 main_v121 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    nullary main_c_21 (constantI S_ 32 0#32),
    unary main_c_21 main_v122 (broadcastInDim S1600000 ![] bcast_S_S1600000 : (⟨S_, .i32⟩ : BufTy).Contents (Elt F) → (⟨S1600000, .i32⟩ : BufTy).Contents (Elt F)),
    binary main_v1 main_v122 main_v123 (cmpi .slt : (⟨S1600000, .i32⟩ : BufTy).Contents (Elt F) → (⟨S1600000, .i32⟩ : BufTy).Contents (Elt F) → (⟨S1600000, .i1⟩ : BufTy).Contents (Elt F)),
    nullary main_c_22 (constantI S_ 32 50000#32),
    unary main_c_22 main_v124 (broadcastInDim S1600000 ![] bcast_S_S1600000 : (⟨S_, .i32⟩ : BufTy).Contents (Elt F) → (⟨S1600000, .i32⟩ : BufTy).Contents (Elt F)),
    binary main_v1 main_v124 main_v125 (addi : (⟨S1600000, .i32⟩ : BufTy).Contents (Elt F) → (⟨S1600000, .i32⟩ : BufTy).Contents (Elt F) → (⟨S1600000, .i32⟩ : BufTy).Contents (Elt F)),
    ternary main_v123 main_v125 main_v1 main_v126 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v126 main_v127 (broadcastInDim S1600000x1 ![0] bcast_S1600000_S1600000x1_0 : (⟨S1600000, .i32⟩ : BufTy).Contents (Elt F) → (⟨S1600000x1, .i32⟩ : BufTy).Contents (Elt F)),
    binary main_v90 main_v127 main_v128 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    binary main_v121 main_v128 main_v129 (subf : (⟨S1600000x32, .f32⟩ : BufTy).Contents (Elt F) → (⟨S1600000x32, .f32⟩ : BufTy).Contents (Elt F) → (⟨S1600000x32, .f32⟩ : BufTy).Contents (Elt F)),
    nary ![main_v114, main_v129, main_arg1] main_v130 (fun u => concatenate S1600000x65 1 [⟨S1600000x32, u 0⟩, ⟨S1600000x32, u 1⟩, ⟨S1600000x1, u 2⟩] concatenates_S1600000x32_S1600000x32_S1600000x1_S1600000x65_d1),
    binary main_v130 main_v97 main_v131 ((fun l r => Host.dotGeneral dot_S1600000x65_S65x32_S1600000x32_1_0_0_1_n_n none l r) : (⟨S1600000x65, .f32⟩ : BufTy).Contents (Elt F) → (⟨S65x32, .f32⟩ : BufTy).Contents (Elt F) → (⟨S1600000x32, .f32⟩ : BufTy).Contents (Elt F)),
    unary main_v99 main_v132 (broadcastInDim S1x32 ![1] bcast_S32_S1x32_1 : (⟨S32, .f32⟩ : BufTy).Contents (Elt F) → (⟨S1x32, .f32⟩ : BufTy).Contents (Elt F)),
    unary main_v132 main_v133 (broadcastInDim S1600000x32 ![0, 1] bcast_S1x32_S1600000x32_0_1 : (⟨S1x32, .f32⟩ : BufTy).Contents (Elt F) → (⟨S1600000x32, .f32⟩ : BufTy).Contents (Elt F)),
    binary main_v131 main_v133 main_v134 (addf : (⟨S1600000x32, .f32⟩ : BufTy).Contents (Elt F) → (⟨S1600000x32, .f32⟩ : BufTy).Contents (Elt F) → (⟨S1600000x32, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1600000x32, .f32⟩) main_call3_v0) (broadcastInDim S1600000x32 ![] bcast_S_S1600000x32),
    TRef.binary (TRef.of (T := ⟨S1600000x32, .f32⟩) main_v134) (TRef.of (T := ⟨S1600000x32, .f32⟩) main_call3_v0) (TRef.of (T := ⟨S1600000x32, .f32⟩) main_v135) maximumf,
    binary main_arg1 main_v101 main_v136 ((fun l r => Host.dotGeneral dot_S1600000x1_S1x1_S1600000x1_1_0_0_1_n_n none l r) : (⟨S1600000x1, .f32⟩ : BufTy).Contents (Elt F) → (⟨S1x1, .f32⟩ : BufTy).Contents (Elt F) → (⟨S1600000x1, .f32⟩ : BufTy).Contents (Elt F)),
    unary main_v103 main_v137 (broadcastInDim S1x1 ![1] bcast_S1_S1x1_1 : (⟨S1, .f32⟩ : BufTy).Contents (Elt F) → (⟨S1x1, .f32⟩ : BufTy).Contents (Elt F)),
    unary main_v137 main_v138 (broadcastInDim S1600000x1 ![0, 1] bcast_S1x1_S1600000x1_0_1 : (⟨S1x1, .f32⟩ : BufTy).Contents (Elt F) → (⟨S1600000x1, .f32⟩ : BufTy).Contents (Elt F)),
    binary main_v136 main_v138 main_v139 (addf : (⟨S1600000x1, .f32⟩ : BufTy).Contents (Elt F) → (⟨S1600000x1, .f32⟩ : BufTy).Contents (Elt F) → (⟨S1600000x1, .f32⟩ : BufTy).Contents (Elt F)),
    unary main_v139 main_v140 (Host.negf : (⟨S1600000x1, .f32⟩ : BufTy).Contents (Elt F) → (⟨S1600000x1, .f32⟩ : BufTy).Contents (Elt F)),
    unary main_v140 main_v141 (Host.exp : (⟨S1600000x1, .f32⟩ : BufTy).Contents (Elt F) → (⟨S1600000x1, .f32⟩ : BufTy).Contents (Elt F)),
    nullary main_cst_23 (constant S_ .f32 0x3F800000#32),
    unary main_cst_23 main_v142 (broadcastInDim S1600000x1 ![] bcast_S_S1600000x1 : (⟨S_, .f32⟩ : BufTy).Contents (Elt F) → (⟨S1600000x1, .f32⟩ : BufTy).Contents (Elt F)),
    binary main_v142 main_v141 main_v143 (addf : (⟨S1600000x1, .f32⟩ : BufTy).Contents (Elt F) → (⟨S1600000x1, .f32⟩ : BufTy).Contents (Elt F) → (⟨S1600000x1, .f32⟩ : BufTy).Contents (Elt F)),
    nullary main_cst_24 (constant S_ .f32 0x3F800000#32),
    unary main_cst_24 main_v144 (broadcastInDim S1600000x1 ![] bcast_S_S1600000x1 : (⟨S_, .f32⟩ : BufTy).Contents (Elt F) → (⟨S1600000x1, .f32⟩ : BufTy).Contents (Elt F)),
    binary main_v144 main_v143 main_v145 (Host.divf : (⟨S1600000x1, .f32⟩ : BufTy).Contents (Elt F) → (⟨S1600000x1, .f32⟩ : BufTy).Contents (Elt F) → (⟨S1600000x1, .f32⟩ : BufTy).Contents (Elt F)),
    unary main_v145 main_v146 (broadcastInDim S1600000x32 ![0, 1] bcast_S1600000x1_S1600000x32_0_1 : (⟨S1600000x1, .f32⟩ : BufTy).Contents (Elt F) → (⟨S1600000x32, .f32⟩ : BufTy).Contents (Elt F)),
    binary main_v135 main_v146 main_v147 (mulf : (⟨S1600000x32, .f32⟩ : BufTy).Contents (Elt F) → (⟨S1600000x32, .f32⟩ : BufTy).Contents (Elt F) → (⟨S1600000x32, .f32⟩ : BufTy).Contents (Elt F)),
    nullary main_cst_25 (constant S_ .f32 0x00000000#32),
    unary main_cst_25 main_v148 (broadcastInDim S50000x32 ![] bcast_S_S50000x32 : (⟨S_, .f32⟩ : BufTy).Contents (Elt F) → (⟨S50000x32, .f32⟩ : BufTy).Contents (Elt F)),
    unary main_v3 main_v149 (broadcastInDim S1600000x1 ![0] bcast_S1600000_S1600000x1_0 : (⟨S1600000, .i32⟩ : BufTy).Contents (Elt F) → (⟨S1600000x1, .i32⟩ : BufTy).Contents (Elt F)),
    ternary main_v148 main_v149 main_v147 main_v150 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)),
    nullary main_cst_26 (constant S_ .f32 0x3F800000#32) ]

set_option maxRecDepth 8192 in
/-- The window is the straight line of its operations. -/
theorem main_part2_eq (c : Dev nD) : main_part2 (F := F) c = seq ops_part2 := rfl

set_option maxRecDepth 8192 in
/-- Each operation touches TensorCore buffers only. -/
theorem ops_part2_sub : (ops_part2 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub .., nullary_bufs_sub ..⟩

/-- The buffers the window writes: one per operation. -/
abbrev ops_part2_W : List (Ref sig .tc) := [main_v101, main_v102, main_v103, main_v104, main_v105, main_v106, main_v107, main_c_17, main_v108, main_v109, main_c_18, main_v110, main_v111, main_v112, main_v113, main_v114, main_c_19, main_v115, main_v116, main_c_20, main_v117, main_v118, main_v119, main_v120, main_v121, main_c_21, main_v122, main_v123, main_c_22, main_v124, main_v125, main_v126, main_v127, main_v128, main_v129, main_v130, main_v131, main_v132, main_v133, main_v134, main_call3_cst, main_call3_v0, main_v135, main_v136, main_v137, main_v138, main_v139, main_v140, main_v141, main_cst_23, main_v142, main_v143, main_cst_24, main_v144, main_v145, main_v146, main_v147, main_cst_25, main_v148, main_v149, main_v150, main_cst_26]

set_option maxRecDepth 8192 in
/-- Every operation writes its own result buffer only, and that buffer is in the list. -/
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- No operation allocates a buffer. -/
theorem ops_part2_fresh : ∀ op ∈ (ops_part2 : List (HloOp τ sig (Elt F))), op.fresh = ∅ := by
  intro _ h; (repeat (cases h with | head => rfl | tail _ h => ?_)); exact nomatch h

end Cert.ReferenceIdeal.Windows

end
-- ==== Proof.RefWindows.Part3.lean ====
/- The reference program's @main is printed in windows `main_part0` … `main_part12`; this module lists window 3's host
   operations (a called function's three operations in its call's place), says that the window is the straight line of
   them, that each touches TensorCore buffers only, which buffers the window writes (one per operation, all distinct)
   and that every operation writes inside that list, and that none allocates a buffer. -/
import proofs.«415750_j38869454029182_1_alg».proof.Proof.Gen.ReferenceIdeal
import Idealize.ShloMosaic.Lib.StableHlo.Run

noncomputable section

namespace Cert.ReferenceIdeal.Windows

open Cert.ReferenceIdeal Cert.ReferenceIdeal.Gen Idealize.ShloMosaic Idealize.ShloMosaic.TcCoe Idealize.SL.Sem Idealize.ShloMosaic.StableHlo

variable {F : FTy → Type} [FloatOps F]

/-- Window 3's 62 operations, in order. -/
abbrev ops_part3 : List (HloOp τ sig (Elt F)) :=
  [ unary main_cst_26 main_v151 (broadcastInDim S1600000x1 ![] bcast_S_S1600000x1 : (⟨S_, .f32⟩ : BufTy).Contents (Elt F) → (⟨S1600000x1, .f32⟩ : BufTy).Contents (Elt F)),
    nullary main_cst_27 (constant S_ .f32 0x00000000#32),
    unary main_cst_27 main_v152 (broadcastInDim S50000x1 ![] bcast_S_S50000x1 : (⟨S_, .f32⟩ : BufTy).Contents (Elt F) → (⟨S50000x1, .f32⟩ : BufTy).Contents (Elt F)),
    unary main_v3 main_v153 (broadcastInDim S1600000x1 ![0] bcast_S1600000_S1600000x1_0 : (⟨S1600000, .i32⟩ : BufTy).Contents (Elt F) → (⟨S1600000x1, .i32⟩ : BufTy).Contents (Elt F)),
    ternary main_v152 main_v153 main_v151 main_v154 ((fun x i u => Host.scatterAdd scatter_S50000x1_S1600000x1_S1600000x1_1_0_0_1 x i u) : (⟨S50000x1, .f32⟩ : BufTy).Contents (Elt F) → (⟨S1600000x1, .i32⟩ : BufTy).Contents (Elt F) → (⟨S1600000x1, .f32⟩ : BufTy).Contents (Elt F) → (⟨S50000x1, .f32⟩ : BufTy).Contents (Elt F)),
    nullary main_cst_28 (constant S_ .f32 0x3F800000#32),
    unary main_cst_28 main_v155 (broadcastInDim S50000x1 ![] bcast_S_S50000x1 : (⟨S_, .f32⟩ : BufTy).Contents (Elt F) → (⟨S50000x1, .f32⟩ : BufTy).Contents (Elt F)),
    binary main_v154 main_v155 main_v156 (maximumf : (⟨S50000x1, .f32⟩ : BufTy).Contents (Elt F) → (⟨S50000x1, .f32⟩ : BufTy).Contents (Elt F) → (⟨S50000x1, .f32⟩ : BufTy).Contents (Elt F)),
    unary main_v156 main_v157 (broadcastInDim S50000x32 ![0, 1] bcast_S50000x1_S50000x32_0_1 : (⟨S50000x1, .f32⟩ : BufTy).Contents (Elt F) → (⟨S50000x32, .f32⟩ : BufTy).Contents (Elt F)),
    binary main_v150 main_v157 main_v158 (Host.divf : (⟨S50000x32, .f32⟩ : BufTy).Contents (Elt F) → (⟨S50000x32, .f32⟩ : BufTy).Contents (Elt F) → (⟨S50000x32, .f32⟩ : BufTy).Contents (Elt F)),
    binary main_v90 main_v105 main_v159 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    unary main_v107 main_v160 (broadcastInDim S1x32 ![1] bcast_S32_S1x32_1 : (⟨S32, .f32⟩ : BufTy).Contents (Elt F) → (⟨S1x32, .f32⟩ : BufTy).Contents (Elt F)),
    unary main_v160 main_v161 (broadcastInDim S50000x32 ![0, 1] bcast_S1x32_S50000x32_0_1 : (⟨S1x32, .f32⟩ : BufTy).Contents (Elt F) → (⟨S50000x32, .f32⟩ : BufTy).Contents (Elt F)),
    binary main_v159 main_v161 main_v162 (addf : (⟨S50000x32, .f32⟩ : BufTy).Contents (Elt F) → (⟨S50000x32, .f32⟩ : BufTy).Contents (Elt F) → (⟨S50000x32, .f32⟩ : BufTy).Contents (Elt F)),
    binary main_v162 main_v158 main_v163 (addf : (⟨S50000x32, .f32⟩ : BufTy).Contents (Elt F) → (⟨S50000x32, .f32⟩ : BufTy).Contents (Elt F) → (⟨S50000x32, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x32, .f32⟩) main_call4_v0) (broadcastInDim S50000x32 ![] bcast_S_S50000x32),
    TRef.binary (TRef.of (T := ⟨S50000x32, .f32⟩) main_v163) (TRef.of (T := ⟨S50000x32, .f32⟩) main_call4_v0) (TRef.of (T := ⟨S50000x32, .f32⟩) main_v164) maximumf,
    nullary main_cst_29 (constant S_ .f32 0x3F800000#32),
    unary main_cst_29 main_v165 (broadcastInDim S1600000x1 ![] bcast_S_S1600000x1 : (⟨S_, .f32⟩ : BufTy).Contents (Elt F) → (⟨S1600000x1, .f32⟩ : BufTy).Contents (Elt F)),
    binary main_v165 main_v145 main_v166 (subf : (⟨S1600000x1, .f32⟩ : BufTy).Contents (Elt F) → (⟨S1600000x1, .f32⟩ : BufTy).Contents (Elt F) → (⟨S1600000x1, .f32⟩ : BufTy).Contents (Elt F)),
    binary main_v145 main_v166 main_v167 (mulf : (⟨S1600000x1, .f32⟩ : BufTy).Contents (Elt F) → (⟨S1600000x1, .f32⟩ : BufTy).Contents (Elt F) → (⟨S1600000x1, .f32⟩ : BufTy).Contents (Elt F)),
    nullary main_cst_30 (constant S_ .f32 0x00000000#32),
    binary main_v167 main_cst_30 main_v168 ((fun x v => Host.reduceAdd x v reducesTo_S1600000x1_S_d0_1 h_S_) : (⟨S1600000x1, .f32⟩ : BufTy).Contents (Elt F) → (⟨S_, .f32⟩ : BufTy).Contents (Elt F) → (⟨S_, .f32⟩ : BufTy).Contents (Elt F)),
    nullary main_cst_31 (constant S_ .f32 0x49C35000#32),
    binary main_v168 main_cst_31 main_v169 (Host.divf : (⟨S_, .f32⟩ : BufTy).Contents (Elt F) → (⟨S_, .f32⟩ : BufTy).Contents (Elt F) → (⟨S_, .f32⟩ : BufTy).Contents (Elt F)),
    unary main_arg4 main_v170 ((extractStridedSlice S1x65x32 ![2, 0, 0] · slices_S8x65x32_S1x65x32_2_0_0) : (⟨S8x65x32, .f32⟩ : BufTy).Contents (Elt F) → (⟨S1x65x32, .f32⟩ : BufTy).Contents (Elt F)),
    reshape main_v170 main_v171 rfl shapeCasts_S1x65x32_S65x32,
    unary main_arg5 main_v172 ((extractStridedSlice S1x32 ![2, 0] · slices_S8x32_S1x32_2_0) : (⟨S8x32, .f32⟩ : BufTy).Contents (Elt F) → (⟨S1x32, .f32⟩ : BufTy).Contents (Elt F)),
    reshape main_v172 main_v173 rfl shapeCasts_S1x32_S32,
    unary main_arg6 main_v174 ((extractStridedSlice S1x1x1 ![2, 0, 0] · slices_S8x1x1_S1x1x1_2_0_0) : (⟨S8x1x1, .f32⟩ : BufTy).Contents (Elt F) → (⟨S1x1x1, .f32⟩ : BufTy).Contents (Elt F)),
    reshape main_v174 main_v175 rfl shapeCasts_S1x1x1_S1x1,
    unary main_arg7 main_v176 ((extractStridedSlice S1x1 ![2, 0] · slices_S8x1_S1x1_2_0) : (⟨S8x1, .f32⟩ : BufTy).Contents (Elt F) → (⟨S1x1, .f32⟩ : BufTy).Contents (Elt F)),
    reshape main_v176 main_v177 rfl shapeCasts_S1x1_S1,
    unary main_arg8 main_v178 ((extractStridedSlice S1x32x32 ![2, 0, 0] · slices_S8x32x32_S1x32x32_2_0_0) : (⟨S8x32x32, .f32⟩ : BufTy).Contents (Elt F) → (⟨S1x32x32, .f32⟩ : BufTy).Contents (Elt F)),
    reshape main_v178 main_v179 rfl shapeCasts_S1x32x32_S32x32,
    unary main_arg9 main_v180 ((extractStridedSlice S1x32 ![2, 0] · slices_S8x32_S1x32_2_0) : (⟨S8x32, .f32⟩ : BufTy).Contents (Elt F) → (⟨S1x32, .f32⟩ : BufTy).Contents (Elt F)),
    reshape main_v180 main_v181 rfl shapeCasts_S1x32_S32,
    nullary main_c_32 (constantI S_ 32 0#32),
    unary main_c_32 main_v182 (broadcastInDim S1600000 ![] bcast_S_S1600000 : (⟨S_, .i32⟩ : BufTy).Contents (Elt F) → (⟨S1600000, .i32⟩ : BufTy).Contents (Elt F)),
    binary main_v1 main_v182 main_v183 (cmpi .slt : (⟨S1600000, .i32⟩ : BufTy).Contents (Elt F) → (⟨S1600000, .i32⟩ : BufTy).Contents (Elt F) → (⟨S1600000, .i1⟩ : BufTy).Contents (Elt F)),
    nullary main_c_33 (constantI S_ 32 50000#32),
    unary main_c_33 main_v184 (broadcastInDim S1600000 ![] bcast_S_S1600000 : (⟨S_, .i32⟩ : BufTy).Contents (Elt F) → (⟨S1600000, .i32⟩ : BufTy).Contents (Elt F)),
    binary main_v1 main_v184 main_v185 (addi : (⟨S1600000, .i32⟩ : BufTy).Contents (Elt F) → (⟨S1600000, .i32⟩ : BufTy).Contents (Elt F) → (⟨S1600000, .i32⟩ : BufTy).Contents (Elt F)),
    ternary main_v183 main_v185 main_v1 main_v186 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v186 main_v187 (broadcastInDim S1600000x1 ![0] bcast_S1600000_S1600000x1_0 : (⟨S1600000, .i32⟩ : BufTy).Contents (Elt F) → (⟨S1600000x1, .i32⟩ : BufTy).Contents (Elt F)),
    binary main_v164 main_v187 main_v188 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    nullary main_c_34 (constantI S_ 32 0#32),
    unary main_c_34 main_v189 (broadcastInDim S1600000 ![] bcast_S_S1600000 : (⟨S_, .i32⟩ : BufTy).Contents (Elt F) → (⟨S1600000, .i32⟩ : BufTy).Contents (Elt F)),
    binary main_v3 main_v189 main_v190 (cmpi .slt : (⟨S1600000, .i32⟩ : BufTy).Contents (Elt F) → (⟨S1600000, .i32⟩ : BufTy).Contents (Elt F) → (⟨S1600000, .i1⟩ : BufTy).Contents (Elt F)),
    nullary main_c_35 (constantI S_ 32 50000#32),
    unary main_c_35 main_v191 (broadcastInDim S1600000 ![] bcast_S_S1600000 : (⟨S_, .i32⟩ : BufTy).Contents (Elt F) → (⟨S1600000, .i32⟩ : BufTy).Contents (Elt F)),
    binary main_v3 main_v191 main_v192 (addi : (⟨S1600000, .i32⟩ : BufTy).Contents (Elt F) → (⟨S1600000, .i32⟩ : BufTy).Contents (Elt F) → (⟨S1600000, .i32⟩ : BufTy).Contents (Elt F)),
    ternary main_v190 main_v192 main_v3 main_v193 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v193 main_v194 (broadcastInDim S1600000x1 ![0] bcast_S1600000_S1600000x1_0 : (⟨S1600000, .i32⟩ : BufTy).Contents (Elt F) → (⟨S1600000x1, .i32⟩ : BufTy).Contents (Elt F)),
    binary main_v164 main_v194 main_v195 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    nullary main_c_36 (constantI S_ 32 0#32),
    unary main_c_36 main_v196 (broadcastInDim S1600000 ![] bcast_S_S1600000 : (⟨S_, .i32⟩ : BufTy).Contents (Elt F) → (⟨S1600000, .i32⟩ : BufTy).Contents (Elt F)),
    binary main_v1 main_v196 main_v197 (cmpi .slt : (⟨S1600000, .i32⟩ : BufTy).Contents (Elt F) → (⟨S1600000, .i32⟩ : BufTy).Contents (Elt F) → (⟨S1600000, .i1⟩ : BufTy).Contents (Elt F)),
    nullary main_c_37 (constantI S_ 32 50000#32),
    unary main_c_37 main_v198 (broadcastInDim S1600000 ![] bcast_S_S1600000 : (⟨S_, .i32⟩ : BufTy).Contents (Elt F) → (⟨S1600000, .i32⟩ : BufTy).Contents (Elt F)),
    binary main_v1 main_v198 main_v199 (addi : (⟨S1600000, .i32⟩ : BufTy).Contents (Elt F) → (⟨S1600000, .i32⟩ : BufTy).Contents (Elt F) → (⟨S1600000, .i32⟩ : BufTy).Contents (Elt F)) ]

set_option maxRecDepth 8192 in
/-- The window is the straight line of its operations. -/
theorem main_part3_eq (c : Dev nD) : main_part3 (F := F) c = seq ops_part3 := rfl

set_option maxRecDepth 8192 in
/-- Each operation touches TensorCore buffers only. -/
theorem ops_part3_sub : (ops_part3 : List (HloOp τ sig (Elt F))).Forall fun op => op.bufs ⊆ tcRefs τ sig :=
  ⟨unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., binary_bufs_sub .., nullary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub ..⟩

/-- The buffers the window writes: one per operation. -/
abbrev ops_part3_W : List (Ref sig .tc) := [main_v151, main_cst_27, main_v152, main_v153, main_v154, main_cst_28, main_v155, main_v156, main_v157, main_v158, main_v159, main_v160, main_v161, main_v162, main_v163, main_call4_cst, main_call4_v0, main_v164, main_cst_29, main_v165, main_v166, main_v167, main_cst_30, main_v168, main_cst_31, main_v169, main_v170, main_v171, main_v172, main_v173, main_v174, main_v175, main_v176, main_v177, main_v178, main_v179, main_v180, main_v181, main_c_32, main_v182, main_v183, main_c_33, main_v184, main_v185, main_v186, main_v187, main_v188, main_c_34, main_v189, main_v190, main_c_35, main_v191, main_v192, main_v193, main_v194, main_v195, main_c_36, main_v196, main_v197, main_c_37, main_v198, main_v199]

set_option maxRecDepth 8192 in
/-- Every operation writes its own result buffer only, and that buffer is in the list. -/
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- No operation allocates a buffer. -/
theorem ops_part3_fresh : ∀ op ∈ (ops_part3 : List (HloOp τ sig (Elt F))), op.fresh = ∅ := by
  intro _ h; (repeat (cases h with | head => rfl | tail _ h => ?_)); exact nomatch h

end Cert.ReferenceIdeal.Windows

end
-- ==== Proof.RefWindows.Part4.lean ====
/- The reference program's @main is printed in windows `main_part0` … `main_part12`; this module lists window 4's host
   operations (a called function's three operations in its call's place), says that the window is the straight line of
   them, that each touches TensorCore buffers only, which buffers the window writes (one per operation, all distinct)
   and that every operation writes inside that list, and that none allocates a buffer. -/
import proofs.«415750_j38869454029182_1_alg».proof.Proof.Gen.ReferenceIdeal
import Idealize.ShloMosaic.Lib.StableHlo.Run

noncomputable section

namespace Cert.ReferenceIdeal.Windows

open Cert.ReferenceIdeal Cert.ReferenceIdeal.Gen Idealize.ShloMosaic Idealize.ShloMosaic.TcCoe Idealize.SL.Sem Idealize.ShloMosaic.StableHlo

variable {F : FTy → Type} [FloatOps F]

/-- Window 4's 64 operations, in order. -/
abbrev ops_part4 : List (HloOp τ sig (Elt F)) :=
  [ ternary main_v197 main_v199 main_v1 main_v200 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v200 main_v201 (broadcastInDim S1600000x1 ![0] bcast_S1600000_S1600000x1_0 : (⟨S1600000, .i32⟩ : BufTy).Contents (Elt F) → (⟨S1600000x1, .i32⟩ : BufTy).Contents (Elt F)),
    binary main_v164 main_v201 main_v202 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    binary main_v195 main_v202 main_v203 (subf : (⟨S1600000x32, .f32⟩ : BufTy).Contents (Elt F) → (⟨S1600000x32, .f32⟩ : BufTy).Contents (Elt F) → (⟨S1600000x32, .f32⟩ : BufTy).Contents (Elt F)),
    nary ![main_v188, main_v203, main_arg1] main_v204 (fun u => concatenate S1600000x65 1 [⟨S1600000x32, u 0⟩, ⟨S1600000x32, u 1⟩, ⟨S1600000x1, u 2⟩] concatenates_S1600000x32_S1600000x32_S1600000x1_S1600000x65_d1),
    binary main_v204 main_v171 main_v205 ((fun l r => Host.dotGeneral dot_S1600000x65_S65x32_S1600000x32_1_0_0_1_n_n none l r) : (⟨S1600000x65, .f32⟩ : BufTy).Contents (Elt F) → (⟨S65x32, .f32⟩ : BufTy).Contents (Elt F) → (⟨S1600000x32, .f32⟩ : BufTy).Contents (Elt F)),
    unary main_v173 main_v206 (broadcastInDim S1x32 ![1] bcast_S32_S1x32_1 : (⟨S32, .f32⟩ : BufTy).Contents (Elt F) → (⟨S1x32, .f32⟩ : BufTy).Contents (Elt F)),
    unary main_v206 main_v207 (broadcastInDim S1600000x32 ![0, 1] bcast_S1x32_S1600000x32_0_1 : (⟨S1x32, .f32⟩ : BufTy).Contents (Elt F) → (⟨S1600000x32, .f32⟩ : BufTy).Contents (Elt F)),
    binary main_v205 main_v207 main_v208 (addf : (⟨S1600000x32, .f32⟩ : BufTy).Contents (Elt F) → (⟨S1600000x32, .f32⟩ : BufTy).Contents (Elt F) → (⟨S1600000x32, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1600000x32, .f32⟩) main_call5_v0) (broadcastInDim S1600000x32 ![] bcast_S_S1600000x32),
    TRef.binary (TRef.of (T := ⟨S1600000x32, .f32⟩) main_v208) (TRef.of (T := ⟨S1600000x32, .f32⟩) main_call5_v0) (TRef.of (T := ⟨S1600000x32, .f32⟩) main_v209) maximumf,
    binary main_arg1 main_v175 main_v210 ((fun l r => Host.dotGeneral dot_S1600000x1_S1x1_S1600000x1_1_0_0_1_n_n none l r) : (⟨S1600000x1, .f32⟩ : BufTy).Contents (Elt F) → (⟨S1x1, .f32⟩ : BufTy).Contents (Elt F) → (⟨S1600000x1, .f32⟩ : BufTy).Contents (Elt F)),
    unary main_v177 main_v211 (broadcastInDim S1x1 ![1] bcast_S1_S1x1_1 : (⟨S1, .f32⟩ : BufTy).Contents (Elt F) → (⟨S1x1, .f32⟩ : BufTy).Contents (Elt F)),
    unary main_v211 main_v212 (broadcastInDim S1600000x1 ![0, 1] bcast_S1x1_S1600000x1_0_1 : (⟨S1x1, .f32⟩ : BufTy).Contents (Elt F) → (⟨S1600000x1, .f32⟩ : BufTy).Contents (Elt F)),
    binary main_v210 main_v212 main_v213 (addf : (⟨S1600000x1, .f32⟩ : BufTy).Contents (Elt F) → (⟨S1600000x1, .f32⟩ : BufTy).Contents (Elt F) → (⟨S1600000x1, .f32⟩ : BufTy).Contents (Elt F)),
    unary main_v213 main_v214 (Host.negf : (⟨S1600000x1, .f32⟩ : BufTy).Contents (Elt F) → (⟨S1600000x1, .f32⟩ : BufTy).Contents (Elt F)),
    unary main_v214 main_v215 (Host.exp : (⟨S1600000x1, .f32⟩ : BufTy).Contents (Elt F) → (⟨S1600000x1, .f32⟩ : BufTy).Contents (Elt F)),
    nullary main_cst_38 (constant S_ .f32 0x3F800000#32),
    unary main_cst_38 main_v216 (broadcastInDim S1600000x1 ![] bcast_S_S1600000x1 : (⟨S_, .f32⟩ : BufTy).Contents (Elt F) → (⟨S1600000x1, .f32⟩ : BufTy).Contents (Elt F)),
    binary main_v216 main_v215 main_v217 (addf : (⟨S1600000x1, .f32⟩ : BufTy).Contents (Elt F) → (⟨S1600000x1, .f32⟩ : BufTy).Contents (Elt F) → (⟨S1600000x1, .f32⟩ : BufTy).Contents (Elt F)),
    nullary main_cst_39 (constant S_ .f32 0x3F800000#32),
    unary main_cst_39 main_v218 (broadcastInDim S1600000x1 ![] bcast_S_S1600000x1 : (⟨S_, .f32⟩ : BufTy).Contents (Elt F) → (⟨S1600000x1, .f32⟩ : BufTy).Contents (Elt F)),
    binary main_v218 main_v217 main_v219 (Host.divf : (⟨S1600000x1, .f32⟩ : BufTy).Contents (Elt F) → (⟨S1600000x1, .f32⟩ : BufTy).Contents (Elt F) → (⟨S1600000x1, .f32⟩ : BufTy).Contents (Elt F)),
    unary main_v219 main_v220 (broadcastInDim S1600000x32 ![0, 1] bcast_S1600000x1_S1600000x32_0_1 : (⟨S1600000x1, .f32⟩ : BufTy).Contents (Elt F) → (⟨S1600000x32, .f32⟩ : BufTy).Contents (Elt F)),
    binary main_v209 main_v220 main_v221 (mulf : (⟨S1600000x32, .f32⟩ : BufTy).Contents (Elt F) → (⟨S1600000x32, .f32⟩ : BufTy).Contents (Elt F) → (⟨S1600000x32, .f32⟩ : BufTy).Contents (Elt F)),
    nullary main_cst_40 (constant S_ .f32 0x00000000#32),
    unary main_cst_40 main_v222 (broadcastInDim S50000x32 ![] bcast_S_S50000x32 : (⟨S_, .f32⟩ : BufTy).Contents (Elt F) → (⟨S50000x32, .f32⟩ : BufTy).Contents (Elt F)),
    unary main_v3 main_v223 (broadcastInDim S1600000x1 ![0] bcast_S1600000_S1600000x1_0 : (⟨S1600000, .i32⟩ : BufTy).Contents (Elt F) → (⟨S1600000x1, .i32⟩ : BufTy).Contents (Elt F)),
    ternary main_v222 main_v223 main_v221 main_v224 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)),
    nullary main_cst_41 (constant S_ .f32 0x3F800000#32),
    unary main_cst_41 main_v225 (broadcastInDim S1600000x1 ![] bcast_S_S1600000x1 : (⟨S_, .f32⟩ : BufTy).Contents (Elt F) → (⟨S1600000x1, .f32⟩ : BufTy).Contents (Elt F)),
    nullary main_cst_42 (constant S_ .f32 0x00000000#32),
    unary main_cst_42 main_v226 (broadcastInDim S50000x1 ![] bcast_S_S50000x1 : (⟨S_, .f32⟩ : BufTy).Contents (Elt F) → (⟨S50000x1, .f32⟩ : BufTy).Contents (Elt F)),
    unary main_v3 main_v227 (broadcastInDim S1600000x1 ![0] bcast_S1600000_S1600000x1_0 : (⟨S1600000, .i32⟩ : BufTy).Contents (Elt F) → (⟨S1600000x1, .i32⟩ : BufTy).Contents (Elt F)),
    ternary main_v226 main_v227 main_v225 main_v228 ((fun x i u => Host.scatterAdd scatter_S50000x1_S1600000x1_S1600000x1_1_0_0_1 x i u) : (⟨S50000x1, .f32⟩ : BufTy).Contents (Elt F) → (⟨S1600000x1, .i32⟩ : BufTy).Contents (Elt F) → (⟨S1600000x1, .f32⟩ : BufTy).Contents (Elt F) → (⟨S50000x1, .f32⟩ : BufTy).Contents (Elt F)),
    nullary main_cst_43 (constant S_ .f32 0x3F800000#32),
    unary main_cst_43 main_v229 (broadcastInDim S50000x1 ![] bcast_S_S50000x1 : (⟨S_, .f32⟩ : BufTy).Contents (Elt F) → (⟨S50000x1, .f32⟩ : BufTy).Contents (Elt F)),
    binary main_v228 main_v229 main_v230 (maximumf : (⟨S50000x1, .f32⟩ : BufTy).Contents (Elt F) → (⟨S50000x1, .f32⟩ : BufTy).Contents (Elt F) → (⟨S50000x1, .f32⟩ : BufTy).Contents (Elt F)),
    unary main_v230 main_v231 (broadcastInDim S50000x32 ![0, 1] bcast_S50000x1_S50000x32_0_1 : (⟨S50000x1, .f32⟩ : BufTy).Contents (Elt F) → (⟨S50000x32, .f32⟩ : BufTy).Contents (Elt F)),
    binary main_v224 main_v231 main_v232 (Host.divf : (⟨S50000x32, .f32⟩ : BufTy).Contents (Elt F) → (⟨S50000x32, .f32⟩ : BufTy).Contents (Elt F) → (⟨S50000x32, .f32⟩ : BufTy).Contents (Elt F)),
    binary main_v164 main_v179 main_v233 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    unary main_v181 main_v234 (broadcastInDim S1x32 ![1] bcast_S32_S1x32_1 : (⟨S32, .f32⟩ : BufTy).Contents (Elt F) → (⟨S1x32, .f32⟩ : BufTy).Contents (Elt F)),
    unary main_v234 main_v235 (broadcastInDim S50000x32 ![0, 1] bcast_S1x32_S50000x32_0_1 : (⟨S1x32, .f32⟩ : BufTy).Contents (Elt F) → (⟨S50000x32, .f32⟩ : BufTy).Contents (Elt F)),
    binary main_v233 main_v235 main_v236 (addf : (⟨S50000x32, .f32⟩ : BufTy).Contents (Elt F) → (⟨S50000x32, .f32⟩ : BufTy).Contents (Elt F) → (⟨S50000x32, .f32⟩ : BufTy).Contents (Elt F)),
    binary main_v236 main_v232 main_v237 (addf : (⟨S50000x32, .f32⟩ : BufTy).Contents (Elt F) → (⟨S50000x32, .f32⟩ : BufTy).Contents (Elt F) → (⟨S50000x32, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x32, .f32⟩) main_call6_v0) (broadcastInDim S50000x32 ![] bcast_S_S50000x32),
    TRef.binary (TRef.of (T := ⟨S50000x32, .f32⟩) main_v237) (TRef.of (T := ⟨S50000x32, .f32⟩) main_call6_v0) (TRef.of (T := ⟨S50000x32, .f32⟩) main_v238) maximumf,
    nullary main_cst_44 (constant S_ .f32 0x3F800000#32),
    unary main_cst_44 main_v239 (broadcastInDim S1600000x1 ![] bcast_S_S1600000x1 : (⟨S_, .f32⟩ : BufTy).Contents (Elt F) → (⟨S1600000x1, .f32⟩ : BufTy).Contents (Elt F)),
    binary main_v239 main_v219 main_v240 (subf : (⟨S1600000x1, .f32⟩ : BufTy).Contents (Elt F) → (⟨S1600000x1, .f32⟩ : BufTy).Contents (Elt F) → (⟨S1600000x1, .f32⟩ : BufTy).Contents (Elt F)),
    binary main_v219 main_v240 main_v241 (mulf : (⟨S1600000x1, .f32⟩ : BufTy).Contents (Elt F) → (⟨S1600000x1, .f32⟩ : BufTy).Contents (Elt F) → (⟨S1600000x1, .f32⟩ : BufTy).Contents (Elt F)),
    nullary main_cst_45 (constant S_ .f32 0x00000000#32),
    binary main_v241 main_cst_45 main_v242 ((fun x v => Host.reduceAdd x v reducesTo_S1600000x1_S_d0_1 h_S_) : (⟨S1600000x1, .f32⟩ : BufTy).Contents (Elt F) → (⟨S_, .f32⟩ : BufTy).Contents (Elt F) → (⟨S_, .f32⟩ : BufTy).Contents (Elt F)),
    nullary main_cst_46 (constant S_ .f32 0x49C35000#32),
    binary main_v242 main_cst_46 main_v243 (Host.divf : (⟨S_, .f32⟩ : BufTy).Contents (Elt F) → (⟨S_, .f32⟩ : BufTy).Contents (Elt F) → (⟨S_, .f32⟩ : BufTy).Contents (Elt F)),
    unary main_arg4 main_v244 ((extractStridedSlice S1x65x32 ![3, 0, 0] · slices_S8x65x32_S1x65x32_3_0_0) : (⟨S8x65x32, .f32⟩ : BufTy).Contents (Elt F) → (⟨S1x65x32, .f32⟩ : BufTy).Contents (Elt F)),
    reshape main_v244 main_v245 rfl shapeCasts_S1x65x32_S65x32,
    unary main_arg5 main_v246 ((extractStridedSlice S1x32 ![3, 0] · slices_S8x32_S1x32_3_0) : (⟨S8x32, .f32⟩ : BufTy).Contents (Elt F) → (⟨S1x32, .f32⟩ : BufTy).Contents (Elt F)),
    reshape main_v246 main_v247 rfl shapeCasts_S1x32_S32,
    unary main_arg6 main_v248 ((extractStridedSlice S1x1x1 ![3, 0, 0] · slices_S8x1x1_S1x1x1_3_0_0) : (⟨S8x1x1, .f32⟩ : BufTy).Contents (Elt F) → (⟨S1x1x1, .f32⟩ : BufTy).Contents (Elt F)),
    reshape main_v248 main_v249 rfl shapeCasts_S1x1x1_S1x1,
    unary main_arg7 main_v250 ((extractStridedSlice S1x1 ![3, 0] · slices_S8x1_S1x1_3_0) : (⟨S8x1, .f32⟩ : BufTy).Contents (Elt F) → (⟨S1x1, .f32⟩ : BufTy).Contents (Elt F)) ]

set_option maxRecDepth 8192 in
/-- The window is the straight line of its operations. -/
theorem main_part4_eq (c : Dev nD) : main_part4 (F := F) c = seq ops_part4 := rfl

set_option maxRecDepth 8192 in
/-- Each operation touches TensorCore buffers only. -/
theorem ops_part4_sub : (ops_part4 : List (HloOp τ sig (Elt F))).Forall fun op => op.bufs ⊆ tcRefs τ sig :=
  ⟨ternary_bufs_sub .., unary_bufs_sub .., binary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., binary_bufs_sub .., nullary_bufs_sub .., binary_bufs_sub .., unary_bufs_sub .., reshape_bufs_sub .., unary_bufs_sub .., reshape_bufs_sub .., unary_bufs_sub .., reshape_bufs_sub .., unary_bufs_sub ..⟩

/-- The buffers the window writes: one per operation. -/
abbrev ops_part4_W : List (Ref sig .tc) := [main_v200, main_v201, main_v202, main_v203, main_v204, main_v205, main_v206, main_v207, main_v208, main_call5_cst, main_call5_v0, main_v209, main_v210, main_v211, main_v212, main_v213, main_v214, main_v215, main_cst_38, main_v216, main_v217, main_cst_39, main_v218, main_v219, main_v220, main_v221, main_cst_40, main_v222, main_v223, main_v224, main_cst_41, main_v225, main_cst_42, main_v226, main_v227, main_v228, main_cst_43, main_v229, main_v230, main_v231, main_v232, main_v233, main_v234, main_v235, main_v236, main_v237, main_call6_cst, main_call6_v0, main_v238, main_cst_44, main_v239, main_v240, main_v241, main_cst_45, main_v242, main_cst_46, main_v243, main_v244, main_v245, main_v246, main_v247, main_v248, main_v249, main_v250]

set_option maxRecDepth 8192 in
/-- Every operation writes its own result buffer only, and that buffer is in the list. -/
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- No operation allocates a buffer. -/
theorem ops_part4_fresh : ∀ op ∈ (ops_part4 : List (HloOp τ sig (Elt F))), op.fresh = ∅ := by
  intro _ h; (repeat (cases h with | head => rfl | tail _ h => ?_)); exact nomatch h

end Cert.ReferenceIdeal.Windows

end
-- ==== Proof.RefWindows.Part5.lean ====
/- The reference program's @main is printed in windows `main_part0` … `main_part12`; this module lists window 5's host
   operations (a called function's three operations in its call's place), says that the window is the straight line of
   them, that each touches TensorCore buffers only, which buffers the window writes (one per operation, all distinct)
   and that every operation writes inside that list, and that none allocates a buffer. -/
import proofs.«415750_j38869454029182_1_alg».proof.Proof.Gen.ReferenceIdeal
import Idealize.ShloMosaic.Lib.StableHlo.Run

noncomputable section

namespace Cert.ReferenceIdeal.Windows

open Cert.ReferenceIdeal Cert.ReferenceIdeal.Gen Idealize.ShloMosaic Idealize.ShloMosaic.TcCoe Idealize.SL.Sem Idealize.ShloMosaic.StableHlo

variable {F : FTy → Type} [FloatOps F]

/-- Window 5's 62 operations, in order. -/
abbrev ops_part5 : List (HloOp τ sig (Elt F)) :=
  [ reshape main_v250 main_v251 rfl shapeCasts_S1x1_S1,
    unary main_arg8 main_v252 ((extractStridedSlice S1x32x32 ![3, 0, 0] · slices_S8x32x32_S1x32x32_3_0_0) : (⟨S8x32x32, .f32⟩ : BufTy).Contents (Elt F) → (⟨S1x32x32, .f32⟩ : BufTy).Contents (Elt F)),
    reshape main_v252 main_v253 rfl shapeCasts_S1x32x32_S32x32,
    unary main_arg9 main_v254 ((extractStridedSlice S1x32 ![3, 0] · slices_S8x32_S1x32_3_0) : (⟨S8x32, .f32⟩ : BufTy).Contents (Elt F) → (⟨S1x32, .f32⟩ : BufTy).Contents (Elt F)),
    reshape main_v254 main_v255 rfl shapeCasts_S1x32_S32,
    nullary main_c_47 (constantI S_ 32 0#32),
    unary main_c_47 main_v256 (broadcastInDim S1600000 ![] bcast_S_S1600000 : (⟨S_, .i32⟩ : BufTy).Contents (Elt F) → (⟨S1600000, .i32⟩ : BufTy).Contents (Elt F)),
    binary main_v1 main_v256 main_v257 (cmpi .slt : (⟨S1600000, .i32⟩ : BufTy).Contents (Elt F) → (⟨S1600000, .i32⟩ : BufTy).Contents (Elt F) → (⟨S1600000, .i1⟩ : BufTy).Contents (Elt F)),
    nullary main_c_48 (constantI S_ 32 50000#32),
    unary main_c_48 main_v258 (broadcastInDim S1600000 ![] bcast_S_S1600000 : (⟨S_, .i32⟩ : BufTy).Contents (Elt F) → (⟨S1600000, .i32⟩ : BufTy).Contents (Elt F)),
    binary main_v1 main_v258 main_v259 (addi : (⟨S1600000, .i32⟩ : BufTy).Contents (Elt F) → (⟨S1600000, .i32⟩ : BufTy).Contents (Elt F) → (⟨S1600000, .i32⟩ : BufTy).Contents (Elt F)),
    ternary main_v257 main_v259 main_v1 main_v260 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v260 main_v261 (broadcastInDim S1600000x1 ![0] bcast_S1600000_S1600000x1_0 : (⟨S1600000, .i32⟩ : BufTy).Contents (Elt F) → (⟨S1600000x1, .i32⟩ : BufTy).Contents (Elt F)),
    binary main_v238 main_v261 main_v262 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    nullary main_c_49 (constantI S_ 32 0#32),
    unary main_c_49 main_v263 (broadcastInDim S1600000 ![] bcast_S_S1600000 : (⟨S_, .i32⟩ : BufTy).Contents (Elt F) → (⟨S1600000, .i32⟩ : BufTy).Contents (Elt F)),
    binary main_v3 main_v263 main_v264 (cmpi .slt : (⟨S1600000, .i32⟩ : BufTy).Contents (Elt F) → (⟨S1600000, .i32⟩ : BufTy).Contents (Elt F) → (⟨S1600000, .i1⟩ : BufTy).Contents (Elt F)),
    nullary main_c_50 (constantI S_ 32 50000#32),
    unary main_c_50 main_v265 (broadcastInDim S1600000 ![] bcast_S_S1600000 : (⟨S_, .i32⟩ : BufTy).Contents (Elt F) → (⟨S1600000, .i32⟩ : BufTy).Contents (Elt F)),
    binary main_v3 main_v265 main_v266 (addi : (⟨S1600000, .i32⟩ : BufTy).Contents (Elt F) → (⟨S1600000, .i32⟩ : BufTy).Contents (Elt F) → (⟨S1600000, .i32⟩ : BufTy).Contents (Elt F)),
    ternary main_v264 main_v266 main_v3 main_v267 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v267 main_v268 (broadcastInDim S1600000x1 ![0] bcast_S1600000_S1600000x1_0 : (⟨S1600000, .i32⟩ : BufTy).Contents (Elt F) → (⟨S1600000x1, .i32⟩ : BufTy).Contents (Elt F)),
    binary main_v238 main_v268 main_v269 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    nullary main_c_51 (constantI S_ 32 0#32),
    unary main_c_51 main_v270 (broadcastInDim S1600000 ![] bcast_S_S1600000 : (⟨S_, .i32⟩ : BufTy).Contents (Elt F) → (⟨S1600000, .i32⟩ : BufTy).Contents (Elt F)),
    binary main_v1 main_v270 main_v271 (cmpi .slt : (⟨S1600000, .i32⟩ : BufTy).Contents (Elt F) → (⟨S1600000, .i32⟩ : BufTy).Contents (Elt F) → (⟨S1600000, .i1⟩ : BufTy).Contents (Elt F)),
    nullary main_c_52 (constantI S_ 32 50000#32),
    unary main_c_52 main_v272 (broadcastInDim S1600000 ![] bcast_S_S1600000 : (⟨S_, .i32⟩ : BufTy).Contents (Elt F) → (⟨S1600000, .i32⟩ : BufTy).Contents (Elt F)),
    binary main_v1 main_v272 main_v273 (addi : (⟨S1600000, .i32⟩ : BufTy).Contents (Elt F) → (⟨S1600000, .i32⟩ : BufTy).Contents (Elt F) → (⟨S1600000, .i32⟩ : BufTy).Contents (Elt F)),
    ternary main_v271 main_v273 main_v1 main_v274 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v274 main_v275 (broadcastInDim S1600000x1 ![0] bcast_S1600000_S1600000x1_0 : (⟨S1600000, .i32⟩ : BufTy).Contents (Elt F) → (⟨S1600000x1, .i32⟩ : BufTy).Contents (Elt F)),
    binary main_v238 main_v275 main_v276 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    binary main_v269 main_v276 main_v277 (subf : (⟨S1600000x32, .f32⟩ : BufTy).Contents (Elt F) → (⟨S1600000x32, .f32⟩ : BufTy).Contents (Elt F) → (⟨S1600000x32, .f32⟩ : BufTy).Contents (Elt F)),
    nary ![main_v262, main_v277, main_arg1] main_v278 (fun u => concatenate S1600000x65 1 [⟨S1600000x32, u 0⟩, ⟨S1600000x32, u 1⟩, ⟨S1600000x1, u 2⟩] concatenates_S1600000x32_S1600000x32_S1600000x1_S1600000x65_d1),
    binary main_v278 main_v245 main_v279 ((fun l r => Host.dotGeneral dot_S1600000x65_S65x32_S1600000x32_1_0_0_1_n_n none l r) : (⟨S1600000x65, .f32⟩ : BufTy).Contents (Elt F) → (⟨S65x32, .f32⟩ : BufTy).Contents (Elt F) → (⟨S1600000x32, .f32⟩ : BufTy).Contents (Elt F)),
    unary main_v247 main_v280 (broadcastInDim S1x32 ![1] bcast_S32_S1x32_1 : (⟨S32, .f32⟩ : BufTy).Contents (Elt F) → (⟨S1x32, .f32⟩ : BufTy).Contents (Elt F)),
    unary main_v280 main_v281 (broadcastInDim S1600000x32 ![0, 1] bcast_S1x32_S1600000x32_0_1 : (⟨S1x32, .f32⟩ : BufTy).Contents (Elt F) → (⟨S1600000x32, .f32⟩ : BufTy).Contents (Elt F)),
    binary main_v279 main_v281 main_v282 (addf : (⟨S1600000x32, .f32⟩ : BufTy).Contents (Elt F) → (⟨S1600000x32, .f32⟩ : BufTy).Contents (Elt F) → (⟨S1600000x32, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S1600000x32, .f32⟩) main_call7_v0) (broadcastInDim S1600000x32 ![] bcast_S_S1600000x32),
    TRef.binary (TRef.of (T := ⟨S1600000x32, .f32⟩) main_v282) (TRef.of (T := ⟨S1600000x32, .f32⟩) main_call7_v0) (TRef.of (T := ⟨S1600000x32, .f32⟩) main_v283) maximumf,
    binary main_arg1 main_v249 main_v284 ((fun l r => Host.dotGeneral dot_S1600000x1_S1x1_S1600000x1_1_0_0_1_n_n none l r) : (⟨S1600000x1, .f32⟩ : BufTy).Contents (Elt F) → (⟨S1x1, .f32⟩ : BufTy).Contents (Elt F) → (⟨S1600000x1, .f32⟩ : BufTy).Contents (Elt F)),
    unary main_v251 main_v285 (broadcastInDim S1x1 ![1] bcast_S1_S1x1_1 : (⟨S1, .f32⟩ : BufTy).Contents (Elt F) → (⟨S1x1, .f32⟩ : BufTy).Contents (Elt F)),
    unary main_v285 main_v286 (broadcastInDim S1600000x1 ![0, 1] bcast_S1x1_S1600000x1_0_1 : (⟨S1x1, .f32⟩ : BufTy).Contents (Elt F) → (⟨S1600000x1, .f32⟩ : BufTy).Contents (Elt F)),
    binary main_v284 main_v286 main_v287 (addf : (⟨S1600000x1, .f32⟩ : BufTy).Contents (Elt F) → (⟨S1600000x1, .f32⟩ : BufTy).Contents (Elt F) → (⟨S1600000x1, .f32⟩ : BufTy).Contents (Elt F)),
    unary main_v287 main_v288 (Host.negf : (⟨S1600000x1, .f32⟩ : BufTy).Contents (Elt F) → (⟨S1600000x1, .f32⟩ : BufTy).Contents (Elt F)),
    unary main_v288 main_v289 (Host.exp : (⟨S1600000x1, .f32⟩ : BufTy).Contents (Elt F) → (⟨S1600000x1, .f32⟩ : BufTy).Contents (Elt F)),
    nullary main_cst_53 (constant S_ .f32 0x3F800000#32),
    unary main_cst_53 main_v290 (broadcastInDim S1600000x1 ![] bcast_S_S1600000x1 : (⟨S_, .f32⟩ : BufTy).Contents (Elt F) → (⟨S1600000x1, .f32⟩ : BufTy).Contents (Elt F)),
    binary main_v290 main_v289 main_v291 (addf : (⟨S1600000x1, .f32⟩ : BufTy).Contents (Elt F) → (⟨S1600000x1, .f32⟩ : BufTy).Contents (Elt F) → (⟨S1600000x1, .f32⟩ : BufTy).Contents (Elt F)),
    nullary main_cst_54 (constant S_ .f32 0x3F800000#32),
    unary main_cst_54 main_v292 (broadcastInDim S1600000x1 ![] bcast_S_S1600000x1 : (⟨S_, .f32⟩ : BufTy).Contents (Elt F) → (⟨S1600000x1, .f32⟩ : BufTy).Contents (Elt F)),
    binary main_v292 main_v291 main_v293 (Host.divf : (⟨S1600000x1, .f32⟩ : BufTy).Contents (Elt F) → (⟨S1600000x1, .f32⟩ : BufTy).Contents (Elt F) → (⟨S1600000x1, .f32⟩ : BufTy).Contents (Elt F)),
    unary main_v293 main_v294 (broadcastInDim S1600000x32 ![0, 1] bcast_S1600000x1_S1600000x32_0_1 : (⟨S1600000x1, .f32⟩ : BufTy).Contents (Elt F) → (⟨S1600000x32, .f32⟩ : BufTy).Contents (Elt F)),
    binary main_v283 main_v294 main_v295 (mulf : (⟨S1600000x32, .f32⟩ : BufTy).Contents (Elt F) → (⟨S1600000x32, .f32⟩ : BufTy).Contents (Elt F) → (⟨S1600000x32, .f32⟩ : BufTy).Contents (Elt F)),
    nullary main_cst_55 (constant S_ .f32 0x00000000#32),
    unary main_cst_55 main_v296 (broadcastInDim S50000x32 ![] bcast_S_S50000x32 : (⟨S_, .f32⟩ : BufTy).Contents (Elt F) → (⟨S50000x32, .f32⟩ : BufTy).Contents (Elt F)),
    unary main_v3 main_v297 (broadcastInDim S1600000x1 ![0] bcast_S1600000_S1600000x1_0 : (⟨S1600000, .i32⟩ : BufTy).Contents (Elt F) → (⟨S1600000x1, .i32⟩ : BufTy).Contents (Elt F)),
    ternary main_v296 main_v297 main_v295 main_v298 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)),
    nullary main_cst_56 (constant S_ .f32 0x3F800000#32),
    unary main_cst_56 main_v299 (broadcastInDim S1600000x1 ![] bcast_S_S1600000x1 : (⟨S_, .f32⟩ : BufTy).Contents (Elt F) → (⟨S1600000x1, .f32⟩ : BufTy).Contents (Elt F)),
    nullary main_cst_57 (constant S_ .f32 0x00000000#32) ]

set_option maxRecDepth 8192 in
/-- The window is the straight line of its operations. -/
theorem main_part5_eq (c : Dev nD) : main_part5 (F := F) c = seq ops_part5 := rfl

set_option maxRecDepth 8192 in
/-- Each operation touches TensorCore buffers only. -/
theorem ops_part5_sub : (ops_part5 : List (HloOp τ sig (Elt F))).Forall fun op => op.bufs ⊆ tcRefs τ sig :=
  ⟨reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub .., nullary_bufs_sub .., unary_bufs_sub .., nullary_bufs_sub ..⟩

/-- The buffers the window writes: one per operation. -/
abbrev ops_part5_W : List (Ref sig .tc) := [main_v251, main_v252, main_v253, main_v254, main_v255, main_c_47, main_v256, main_v257, main_c_48, main_v258, main_v259, main_v260, main_v261, main_v262, main_c_49, main_v263, main_v264, main_c_50, main_v265, main_v266, main_v267, main_v268, main_v269, main_c_51, main_v270, main_v271, main_c_52, main_v272, main_v273, main_v274, main_v275, main_v276, main_v277, main_v278, main_v279, main_v280, main_v281, main_v282, main_call7_cst, main_call7_v0, main_v283, main_v284, main_v285, main_v286, main_v287, main_v288, main_v289, main_cst_53, main_v290, main_v291, main_cst_54, main_v292, main_v293, main_v294, main_v295, main_cst_55, main_v296, main_v297, main_v298, main_cst_56, main_v299, main_cst_57]

set_option maxRecDepth 8192 in
/-- Every operation writes its own result buffer only, and that buffer is in the list. -/
theorem ops_part5_writes : (ops_part5 : List (HloOp τ sig (Elt F))).Forall fun op => op.writes ⊆ (ops_part5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- No operation allocates a buffer. -/
theorem ops_part5_fresh : ∀ op ∈ (ops_part5 : List (HloOp τ sig (Elt F))), op.fresh = ∅ := by
  intro _ h; (repeat (cases h with | head => rfl | tail _ h => ?_)); exact nomatch h

end Cert.ReferenceIdeal.Windows

end
-- ==== Proof.RefWindows.Part6.lean ====
/- The reference program's @main is printed in windows `main_part0` … `main_part12`; this module lists window 6's host
   operations (a called function's three operations in its call's place), says that the window is the straight line of
   them, that each touches TensorCore buffers only, which buffers the window writes (one per operation, all distinct)
   and that every operation writes inside that list, and that none allocates a buffer. -/
import proofs.«415750_j38869454029182_1_alg».proof.Proof.Gen.ReferenceIdeal
import Idealize.ShloMosaic.Lib.StableHlo.Run

noncomputable section

namespace Cert.ReferenceIdeal.Windows

open Cert.ReferenceIdeal Cert.ReferenceIdeal.Gen Idealize.ShloMosaic Idealize.ShloMosaic.TcCoe Idealize.SL.Sem Idealize.ShloMosaic.StableHlo

variable {F : FTy → Type} [FloatOps F]

/-- Window 6's 62 operations, in order. -/
abbrev ops_part6 : List (HloOp τ sig (Elt F)) :=
  [ unary main_cst_57 main_v300 (broadcastInDim S50000x1 ![] bcast_S_S50000x1 : (⟨S_, .f32⟩ : BufTy).Contents (Elt F) → (⟨S50000x1, .f32⟩ : BufTy).Contents (Elt F)),
    unary main_v3 main_v301 (broadcastInDim S1600000x1 ![0] bcast_S1600000_S1600000x1_0 : (⟨S1600000, .i32⟩ : BufTy).Contents (Elt F) → (⟨S1600000x1, .i32⟩ : BufTy).Contents (Elt F)),
    ternary main_v300 main_v301 main_v299 main_v302 ((fun x i u => Host.scatterAdd scatter_S50000x1_S1600000x1_S1600000x1_1_0_0_1 x i u) : (⟨S50000x1, .f32⟩ : BufTy).Contents (Elt F) → (⟨S1600000x1, .i32⟩ : BufTy).Contents (Elt F) → (⟨S1600000x1, .f32⟩ : BufTy).Contents (Elt F) → (⟨S50000x1, .f32⟩ : BufTy).Contents (Elt F)),
    nullary main_cst_58 (constant S_ .f32 0x3F800000#32),
    unary main_cst_58 main_v303 (broadcastInDim S50000x1 ![] bcast_S_S50000x1 : (⟨S_, .f32⟩ : BufTy).Contents (Elt F) → (⟨S50000x1, .f32⟩ : BufTy).Contents (Elt F)),
    binary main_v302 main_v303 main_v304 (maximumf : (⟨S50000x1, .f32⟩ : BufTy).Contents (Elt F) → (⟨S50000x1, .f32⟩ : BufTy).Contents (Elt F) → (⟨S50000x1, .f32⟩ : BufTy).Contents (Elt F)),
    unary main_v304 main_v305 (broadcastInDim S50000x32 ![0, 1] bcast_S50000x1_S50000x32_0_1 : (⟨S50000x1, .f32⟩ : BufTy).Contents (Elt F) → (⟨S50000x32, .f32⟩ : BufTy).Contents (Elt F)),
    binary main_v298 main_v305 main_v306 (Host.divf : (⟨S50000x32, .f32⟩ : BufTy).Contents (Elt F) → (⟨S50000x32, .f32⟩ : BufTy).Contents (Elt F) → (⟨S50000x32, .f32⟩ : BufTy).Contents (Elt F)),
    binary main_v238 main_v253 main_v307 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    unary main_v255 main_v308 (broadcastInDim S1x32 ![1] bcast_S32_S1x32_1 : (⟨S32, .f32⟩ : BufTy).Contents (Elt F) → (⟨S1x32, .f32⟩ : BufTy).Contents (Elt F)),
    unary main_v308 main_v309 (broadcastInDim S50000x32 ![0, 1] bcast_S1x32_S50000x32_0_1 : (⟨S1x32, .f32⟩ : BufTy).Contents (Elt F) → (⟨S50000x32, .f32⟩ : BufTy).Contents (Elt F)),
    binary main_v307 main_v309 main_v310 (addf : (⟨S50000x32, .f32⟩ : BufTy).Contents (Elt F) → (⟨S50000x32, .f32⟩ : BufTy).Contents (Elt F) → (⟨S50000x32, .f32⟩ : BufTy).Contents (Elt F)),
    binary main_v310 main_v306 main_v311 (addf : (⟨S50000x32, .f32⟩ : BufTy).Contents (Elt F) → (⟨S50000x32, .f32⟩ : BufTy).Contents (Elt F) → (⟨S50000x32, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x32, .f32⟩) main_call8_v0) (broadcastInDim S50000x32 ![] bcast_S_S50000x32),
    TRef.binary (TRef.of (T := ⟨S50000x32, .f32⟩) main_v311) (TRef.of (T := ⟨S50000x32, .f32⟩) main_call8_v0) (TRef.of (T := ⟨S50000x32, .f32⟩) main_v312) maximumf,
    nullary main_cst_59 (constant S_ .f32 0x3F800000#32),
    unary main_cst_59 main_v313 (broadcastInDim S1600000x1 ![] bcast_S_S1600000x1 : (⟨S_, .f32⟩ : BufTy).Contents (Elt F) → (⟨S1600000x1, .f32⟩ : BufTy).Contents (Elt F)),
    binary main_v313 main_v293 main_v314 (subf : (⟨S1600000x1, .f32⟩ : BufTy).Contents (Elt F) → (⟨S1600000x1, .f32⟩ : BufTy).Contents (Elt F) → (⟨S1600000x1, .f32⟩ : BufTy).Contents (Elt F)),
    binary main_v293 main_v314 main_v315 (mulf : (⟨S1600000x1, .f32⟩ : BufTy).Contents (Elt F) → (⟨S1600000x1, .f32⟩ : BufTy).Contents (Elt F) → (⟨S1600000x1, .f32⟩ : BufTy).Contents (Elt F)),
    nullary main_cst_60 (constant S_ .f32 0x00000000#32),
    binary main_v315 main_cst_60 main_v316 ((fun x v => Host.reduceAdd x v reducesTo_S1600000x1_S_d0_1 h_S_) : (⟨S1600000x1, .f32⟩ : BufTy).Contents (Elt F) → (⟨S_, .f32⟩ : BufTy).Contents (Elt F) → (⟨S_, .f32⟩ : BufTy).Contents (Elt F)),
    nullary main_cst_61 (constant S_ .f32 0x49C35000#32),
    binary main_v316 main_cst_61 main_v317 (Host.divf : (⟨S_, .f32⟩ : BufTy).Contents (Elt F) → (⟨S_, .f32⟩ : BufTy).Contents (Elt F) → (⟨S_, .f32⟩ : BufTy).Contents (Elt F)),
    unary main_arg4 main_v318 ((extractStridedSlice S1x65x32 ![4, 0, 0] · slices_S8x65x32_S1x65x32_4_0_0) : (⟨S8x65x32, .f32⟩ : BufTy).Contents (Elt F) → (⟨S1x65x32, .f32⟩ : BufTy).Contents (Elt F)),
    reshape main_v318 main_v319 rfl shapeCasts_S1x65x32_S65x32,
    unary main_arg5 main_v320 ((extractStridedSlice S1x32 ![4, 0] · slices_S8x32_S1x32_4_0) : (⟨S8x32, .f32⟩ : BufTy).Contents (Elt F) → (⟨S1x32, .f32⟩ : BufTy).Contents (Elt F)),
    reshape main_v320 main_v321 rfl shapeCasts_S1x32_S32,
    unary main_arg6 main_v322 ((extractStridedSlice S1x1x1 ![4, 0, 0] · slices_S8x1x1_S1x1x1_4_0_0) : (⟨S8x1x1, .f32⟩ : BufTy).Contents (Elt F) → (⟨S1x1x1, .f32⟩ : BufTy).Contents (Elt F)),
    reshape main_v322 main_v323 rfl shapeCasts_S1x1x1_S1x1,
    unary main_arg7 main_v324 ((extractStridedSlice S1x1 ![4, 0] · slices_S8x1_S1x1_4_0) : (⟨S8x1, .f32⟩ : BufTy).Contents (Elt F) → (⟨S1x1, .f32⟩ : BufTy).Contents (Elt F)),
    reshape main_v324 main_v325 rfl shapeCasts_S1x1_S1,
    unary main_arg8 main_v326 ((extractStridedSlice S1x32x32 ![4, 0, 0] · slices_S8x32x32_S1x32x32_4_0_0) : (⟨S8x32x32, .f32⟩ : BufTy).Contents (Elt F) → (⟨S1x32x32, .f32⟩ : BufTy).Contents (Elt F)),
    reshape main_v326 main_v327 rfl shapeCasts_S1x32x32_S32x32,
    unary main_arg9 main_v328 ((extractStridedSlice S1x32 ![4, 0] · slices_S8x32_S1x32_4_0) : (⟨S8x32, .f32⟩ : BufTy).Contents (Elt F) → (⟨S1x32, .f32⟩ : BufTy).Contents (Elt F)),
    reshape main_v328 main_v329 rfl shapeCasts_S1x32_S32,
    nullary main_c_62 (constantI S_ 32 0#32),
    unary main_c_62 main_v330 (broadcastInDim S1600000 ![] bcast_S_S1600000 : (⟨S_, .i32⟩ : BufTy).Contents (Elt F) → (⟨S1600000, .i32⟩ : BufTy).Contents (Elt F)),
    binary main_v1 main_v330 main_v331 (cmpi .slt : (⟨S1600000, .i32⟩ : BufTy).Contents (Elt F) → (⟨S1600000, .i32⟩ : BufTy).Contents (Elt F) → (⟨S1600000, .i1⟩ : BufTy).Contents (Elt F)),
    nullary main_c_63 (constantI S_ 32 50000#32),
    unary main_c_63 main_v332 (broadcastInDim S1600000 ![] bcast_S_S1600000 : (⟨S_, .i32⟩ : BufTy).Contents (Elt F) → (⟨S1600000, .i32⟩ : BufTy).Contents (Elt F)),
    binary main_v1 main_v332 main_v333 (addi : (⟨S1600000, .i32⟩ : BufTy).Contents (Elt F) → (⟨S1600000, .i32⟩ : BufTy).Contents (Elt F) → (⟨S1600000, .i32⟩ : BufTy).Contents (Elt F)),
    ternary main_v331 main_v333 main_v1 main_v334 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v334 main_v335 (broadcastInDim S1600000x1 ![0] bcast_S1600000_S1600000x1_0 : (⟨S1600000, .i32⟩ : BufTy).Contents (Elt F) → (⟨S1600000x1, .i32⟩ : BufTy).Contents (Elt F)),
    binary main_v312 main_v335 main_v336 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    nullary main_c_64 (constantI S_ 32 0#32),
    unary main_c_64 main_v337 (broadcastInDim S1600000 ![] bcast_S_S1600000 : (⟨S_, .i32⟩ : BufTy).Contents (Elt F) → (⟨S1600000, .i32⟩ : BufTy).Contents (Elt F)),
    binary main_v3 main_v337 main_v338 (cmpi .slt : (⟨S1600000, .i32⟩ : BufTy).Contents (Elt F) → (⟨S1600000, .i32⟩ : BufTy).Contents (Elt F) → (⟨S1600000, .i1⟩ : BufTy).Contents (Elt F)),
    nullary main_c_65 (constantI S_ 32 50000#32),
    unary main_c_65 main_v339 (broadcastInDim S1600000 ![] bcast_S_S1600000 : (⟨S_, .i32⟩ : BufTy).Contents (Elt F) → (⟨S1600000, .i32⟩ : BufTy).Contents (Elt F)),
    binary main_v3 main_v339 main_v340 (addi : (⟨S1600000, .i32⟩ : BufTy).Contents (Elt F) → (⟨S1600000, .i32⟩ : BufTy).Contents (Elt F) → (⟨S1600000, .i32⟩ : BufTy).Contents (Elt F)),
    ternary main_v338 main_v340 main_v3 main_v341 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v341 main_v342 (broadcastInDim S1600000x1 ![0] bcast_S1600000_S1600000x1_0 : (⟨S1600000, .i32⟩ : BufTy).Contents (Elt F) → (⟨S1600000x1, .i32⟩ : BufTy).Contents (Elt F)),
    binary main_v312 main_v342 main_v343 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    nullary main_c_66 (constantI S_ 32 0#32),
    unary main_c_66 main_v344 (broadcastInDim S1600000 ![] bcast_S_S1600000 : (⟨S_, .i32⟩ : BufTy).Contents (Elt F) → (⟨S1600000, .i32⟩ : BufTy).Contents (Elt F)),
    binary main_v1 main_v344 main_v345 (cmpi .slt : (⟨S1600000, .i32⟩ : BufTy).Contents (Elt F) → (⟨S1600000, .i32⟩ : BufTy).Contents (Elt F) → (⟨S1600000, .i1⟩ : BufTy).Contents (Elt F)),
    nullary main_c_67 (constantI S_ 32 50000#32),
    unary main_c_67 main_v346 (broadcastInDim S1600000 ![] bcast_S_S1600000 : (⟨S_, .i32⟩ : BufTy).Contents (Elt F) → (⟨S1600000, .i32⟩ : BufTy).Contents (Elt F)),
    binary main_v1 main_v346 main_v347 (addi : (⟨S1600000, .i32⟩ : BufTy).Contents (Elt F) → (⟨S1600000, .i32⟩ : BufTy).Contents (Elt F) → (⟨S1600000, .i32⟩ : BufTy).Contents (Elt F)),
    ternary main_v345 main_v347 main_v1 main_v348 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v348 main_v349 (broadcastInDim S1600000x1 ![0] bcast_S1600000_S1600000x1_0 : (⟨S1600000, .i32⟩ : BufTy).Contents (Elt F) → (⟨S1600000x1, .i32⟩ : BufTy).Contents (Elt F)) ]

set_option maxRecDepth 8192 in
/-- The window is the straight line of its operations. -/
theorem main_part6_eq (c : Dev nD) : main_part6 (F := F) c = seq ops_part6 := rfl

set_option maxRecDepth 8192 in
/-- Each operation touches TensorCore buffers only. -/
theorem ops_part6_sub : (ops_part6 : List (HloOp τ sig (Elt F))).Forall fun op => op.bufs ⊆ tcRefs τ sig :=
  ⟨unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., binary_bufs_sub .., nullary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

/-- The buffers the window writes: one per operation. -/
abbrev ops_part6_W : List (Ref sig .tc) := [main_v300, main_v301, main_v302, main_cst_58, main_v303, main_v304, main_v305, main_v306, main_v307, main_v308, main_v309, main_v310, main_v311, main_call8_cst, main_call8_v0, main_v312, main_cst_59, main_v313, main_v314, main_v315, main_cst_60, main_v316, main_cst_61, main_v317, main_v318, main_v319, main_v320, main_v321, main_v322, main_v323, main_v324, main_v325, main_v326, main_v327, main_v328, main_v329, main_c_62, main_v330, main_v331, main_c_63, main_v332, main_v333, main_v334, main_v335, main_v336, main_c_64, main_v337, main_v338, main_c_65, main_v339, main_v340, main_v341, main_v342, main_v343, main_c_66, main_v344, main_v345, main_c_67, main_v346, main_v347, main_v348, main_v349]

set_option maxRecDepth 8192 in
/-- Every operation writes its own result buffer only, and that buffer is in the list. -/
theorem ops_part6_writes : (ops_part6 : List (HloOp τ sig (Elt F))).Forall fun op => op.writes ⊆ (ops_part6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- No operation allocates a buffer. -/
theorem ops_part6_fresh : ∀ op ∈ (ops_part6 : List (HloOp τ sig (Elt F))), op.fresh = ∅ := by
  intro _ h; (repeat (cases h with | head => rfl | tail _ h => ?_)); exact nomatch h

end Cert.ReferenceIdeal.Windows

end
-- ==== Proof.RefWindows.Part7.lean ====
/- The reference program's @main is printed in windows `main_part0` … `main_part12`; this module lists window 7's host
   operations (a called function's three operations in its call's place), says that the window is the straight line of
   them, that each touches TensorCore buffers only, which buffers the window writes (one per operation, all distinct)
   and that every operation writes inside that list, and that none allocates a buffer. -/
import proofs.«415750_j38869454029182_1_alg».proof.Proof.Gen.ReferenceIdeal
import Idealize.ShloMosaic.Lib.StableHlo.Run

noncomputable section

namespace Cert.ReferenceIdeal.Windows

open Cert.ReferenceIdeal Cert.ReferenceIdeal.Gen Idealize.ShloMosaic Idealize.ShloMosaic.TcCoe Idealize.SL.Sem Idealize.ShloMosaic.StableHlo

variable {F : FTy → Type} [FloatOps F]

/-- Window 7's 64 operations, in order. -/
abbrev ops_part7 : List (HloOp τ sig (Elt F)) :=
  [ binary main_v312 main_v349 main_v350 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    binary main_v343 main_v350 main_v351 (subf : (⟨S1600000x32, .f32⟩ : BufTy).Contents (Elt F) → (⟨S1600000x32, .f32⟩ : BufTy).Contents (Elt F) → (⟨S1600000x32, .f32⟩ : BufTy).Contents (Elt F)),
    nary ![main_v336, main_v351, main_arg1] main_v352 (fun u => concatenate S1600000x65 1 [⟨S1600000x32, u 0⟩, ⟨S1600000x32, u 1⟩, ⟨S1600000x1, u 2⟩] concatenates_S1600000x32_S1600000x32_S1600000x1_S1600000x65_d1),
    binary main_v352 main_v319 main_v353 ((fun l r => Host.dotGeneral dot_S1600000x65_S65x32_S1600000x32_1_0_0_1_n_n none l r) : (⟨S1600000x65, .f32⟩ : BufTy).Contents (Elt F) → (⟨S65x32, .f32⟩ : BufTy).Contents (Elt F) → (⟨S1600000x32, .f32⟩ : BufTy).Contents (Elt F)),
    unary main_v321 main_v354 (broadcastInDim S1x32 ![1] bcast_S32_S1x32_1 : (⟨S32, .f32⟩ : BufTy).Contents (Elt F) → (⟨S1x32, .f32⟩ : BufTy).Contents (Elt F)),
    unary main_v354 main_v355 (broadcastInDim S1600000x32 ![0, 1] bcast_S1x32_S1600000x32_0_1 : (⟨S1x32, .f32⟩ : BufTy).Contents (Elt F) → (⟨S1600000x32, .f32⟩ : BufTy).Contents (Elt F)),
    binary main_v353 main_v355 main_v356 (addf : (⟨S1600000x32, .f32⟩ : BufTy).Contents (Elt F) → (⟨S1600000x32, .f32⟩ : BufTy).Contents (Elt F) → (⟨S1600000x32, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S1600000x32, .f32⟩) main_call9_v0) (broadcastInDim S1600000x32 ![] bcast_S_S1600000x32),
    TRef.binary (TRef.of (T := ⟨S1600000x32, .f32⟩) main_v356) (TRef.of (T := ⟨S1600000x32, .f32⟩) main_call9_v0) (TRef.of (T := ⟨S1600000x32, .f32⟩) main_v357) maximumf,
    binary main_arg1 main_v323 main_v358 ((fun l r => Host.dotGeneral dot_S1600000x1_S1x1_S1600000x1_1_0_0_1_n_n none l r) : (⟨S1600000x1, .f32⟩ : BufTy).Contents (Elt F) → (⟨S1x1, .f32⟩ : BufTy).Contents (Elt F) → (⟨S1600000x1, .f32⟩ : BufTy).Contents (Elt F)),
    unary main_v325 main_v359 (broadcastInDim S1x1 ![1] bcast_S1_S1x1_1 : (⟨S1, .f32⟩ : BufTy).Contents (Elt F) → (⟨S1x1, .f32⟩ : BufTy).Contents (Elt F)),
    unary main_v359 main_v360 (broadcastInDim S1600000x1 ![0, 1] bcast_S1x1_S1600000x1_0_1 : (⟨S1x1, .f32⟩ : BufTy).Contents (Elt F) → (⟨S1600000x1, .f32⟩ : BufTy).Contents (Elt F)),
    binary main_v358 main_v360 main_v361 (addf : (⟨S1600000x1, .f32⟩ : BufTy).Contents (Elt F) → (⟨S1600000x1, .f32⟩ : BufTy).Contents (Elt F) → (⟨S1600000x1, .f32⟩ : BufTy).Contents (Elt F)),
    unary main_v361 main_v362 (Host.negf : (⟨S1600000x1, .f32⟩ : BufTy).Contents (Elt F) → (⟨S1600000x1, .f32⟩ : BufTy).Contents (Elt F)),
    unary main_v362 main_v363 (Host.exp : (⟨S1600000x1, .f32⟩ : BufTy).Contents (Elt F) → (⟨S1600000x1, .f32⟩ : BufTy).Contents (Elt F)),
    nullary main_cst_68 (constant S_ .f32 0x3F800000#32),
    unary main_cst_68 main_v364 (broadcastInDim S1600000x1 ![] bcast_S_S1600000x1 : (⟨S_, .f32⟩ : BufTy).Contents (Elt F) → (⟨S1600000x1, .f32⟩ : BufTy).Contents (Elt F)),
    binary main_v364 main_v363 main_v365 (addf : (⟨S1600000x1, .f32⟩ : BufTy).Contents (Elt F) → (⟨S1600000x1, .f32⟩ : BufTy).Contents (Elt F) → (⟨S1600000x1, .f32⟩ : BufTy).Contents (Elt F)),
    nullary main_cst_69 (constant S_ .f32 0x3F800000#32),
    unary main_cst_69 main_v366 (broadcastInDim S1600000x1 ![] bcast_S_S1600000x1 : (⟨S_, .f32⟩ : BufTy).Contents (Elt F) → (⟨S1600000x1, .f32⟩ : BufTy).Contents (Elt F)),
    binary main_v366 main_v365 main_v367 (Host.divf : (⟨S1600000x1, .f32⟩ : BufTy).Contents (Elt F) → (⟨S1600000x1, .f32⟩ : BufTy).Contents (Elt F) → (⟨S1600000x1, .f32⟩ : BufTy).Contents (Elt F)),
    unary main_v367 main_v368 (broadcastInDim S1600000x32 ![0, 1] bcast_S1600000x1_S1600000x32_0_1 : (⟨S1600000x1, .f32⟩ : BufTy).Contents (Elt F) → (⟨S1600000x32, .f32⟩ : BufTy).Contents (Elt F)),
    binary main_v357 main_v368 main_v369 (mulf : (⟨S1600000x32, .f32⟩ : BufTy).Contents (Elt F) → (⟨S1600000x32, .f32⟩ : BufTy).Contents (Elt F) → (⟨S1600000x32, .f32⟩ : BufTy).Contents (Elt F)),
    nullary main_cst_70 (constant S_ .f32 0x00000000#32),
    unary main_cst_70 main_v370 (broadcastInDim S50000x32 ![] bcast_S_S50000x32 : (⟨S_, .f32⟩ : BufTy).Contents (Elt F) → (⟨S50000x32, .f32⟩ : BufTy).Contents (Elt F)),
    unary main_v3 main_v371 (broadcastInDim S1600000x1 ![0] bcast_S1600000_S1600000x1_0 : (⟨S1600000, .i32⟩ : BufTy).Contents (Elt F) → (⟨S1600000x1, .i32⟩ : BufTy).Contents (Elt F)),
    ternary main_v370 main_v371 main_v369 main_v372 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)),
    nullary main_cst_71 (constant S_ .f32 0x3F800000#32),
    unary main_cst_71 main_v373 (broadcastInDim S1600000x1 ![] bcast_S_S1600000x1 : (⟨S_, .f32⟩ : BufTy).Contents (Elt F) → (⟨S1600000x1, .f32⟩ : BufTy).Contents (Elt F)),
    nullary main_cst_72 (constant S_ .f32 0x00000000#32),
    unary main_cst_72 main_v374 (broadcastInDim S50000x1 ![] bcast_S_S50000x1 : (⟨S_, .f32⟩ : BufTy).Contents (Elt F) → (⟨S50000x1, .f32⟩ : BufTy).Contents (Elt F)),
    unary main_v3 main_v375 (broadcastInDim S1600000x1 ![0] bcast_S1600000_S1600000x1_0 : (⟨S1600000, .i32⟩ : BufTy).Contents (Elt F) → (⟨S1600000x1, .i32⟩ : BufTy).Contents (Elt F)),
    ternary main_v374 main_v375 main_v373 main_v376 ((fun x i u => Host.scatterAdd scatter_S50000x1_S1600000x1_S1600000x1_1_0_0_1 x i u) : (⟨S50000x1, .f32⟩ : BufTy).Contents (Elt F) → (⟨S1600000x1, .i32⟩ : BufTy).Contents (Elt F) → (⟨S1600000x1, .f32⟩ : BufTy).Contents (Elt F) → (⟨S50000x1, .f32⟩ : BufTy).Contents (Elt F)),
    nullary main_cst_73 (constant S_ .f32 0x3F800000#32),
    unary main_cst_73 main_v377 (broadcastInDim S50000x1 ![] bcast_S_S50000x1 : (⟨S_, .f32⟩ : BufTy).Contents (Elt F) → (⟨S50000x1, .f32⟩ : BufTy).Contents (Elt F)),
    binary main_v376 main_v377 main_v378 (maximumf : (⟨S50000x1, .f32⟩ : BufTy).Contents (Elt F) → (⟨S50000x1, .f32⟩ : BufTy).Contents (Elt F) → (⟨S50000x1, .f32⟩ : BufTy).Contents (Elt F)),
    unary main_v378 main_v379 (broadcastInDim S50000x32 ![0, 1] bcast_S50000x1_S50000x32_0_1 : (⟨S50000x1, .f32⟩ : BufTy).Contents (Elt F) → (⟨S50000x32, .f32⟩ : BufTy).Contents (Elt F)),
    binary main_v372 main_v379 main_v380 (Host.divf : (⟨S50000x32, .f32⟩ : BufTy).Contents (Elt F) → (⟨S50000x32, .f32⟩ : BufTy).Contents (Elt F) → (⟨S50000x32, .f32⟩ : BufTy).Contents (Elt F)),
    binary main_v312 main_v327 main_v381 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    unary main_v329 main_v382 (broadcastInDim S1x32 ![1] bcast_S32_S1x32_1 : (⟨S32, .f32⟩ : BufTy).Contents (Elt F) → (⟨S1x32, .f32⟩ : BufTy).Contents (Elt F)),
    unary main_v382 main_v383 (broadcastInDim S50000x32 ![0, 1] bcast_S1x32_S50000x32_0_1 : (⟨S1x32, .f32⟩ : BufTy).Contents (Elt F) → (⟨S50000x32, .f32⟩ : BufTy).Contents (Elt F)),
    binary main_v381 main_v383 main_v384 (addf : (⟨S50000x32, .f32⟩ : BufTy).Contents (Elt F) → (⟨S50000x32, .f32⟩ : BufTy).Contents (Elt F) → (⟨S50000x32, .f32⟩ : BufTy).Contents (Elt F)),
    binary main_v384 main_v380 main_v385 (addf : (⟨S50000x32, .f32⟩ : BufTy).Contents (Elt F) → (⟨S50000x32, .f32⟩ : BufTy).Contents (Elt F) → (⟨S50000x32, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S50000x32, .f32⟩) main_call10_v0) (broadcastInDim S50000x32 ![] bcast_S_S50000x32),
    TRef.binary (TRef.of (T := ⟨S50000x32, .f32⟩) main_v385) (TRef.of (T := ⟨S50000x32, .f32⟩) main_call10_v0) (TRef.of (T := ⟨S50000x32, .f32⟩) main_v386) maximumf,
    nullary main_cst_74 (constant S_ .f32 0x3F800000#32),
    unary main_cst_74 main_v387 (broadcastInDim S1600000x1 ![] bcast_S_S1600000x1 : (⟨S_, .f32⟩ : BufTy).Contents (Elt F) → (⟨S1600000x1, .f32⟩ : BufTy).Contents (Elt F)),
    binary main_v387 main_v367 main_v388 (subf : (⟨S1600000x1, .f32⟩ : BufTy).Contents (Elt F) → (⟨S1600000x1, .f32⟩ : BufTy).Contents (Elt F) → (⟨S1600000x1, .f32⟩ : BufTy).Contents (Elt F)),
    binary main_v367 main_v388 main_v389 (mulf : (⟨S1600000x1, .f32⟩ : BufTy).Contents (Elt F) → (⟨S1600000x1, .f32⟩ : BufTy).Contents (Elt F) → (⟨S1600000x1, .f32⟩ : BufTy).Contents (Elt F)),
    nullary main_cst_75 (constant S_ .f32 0x00000000#32),
    binary main_v389 main_cst_75 main_v390 ((fun x v => Host.reduceAdd x v reducesTo_S1600000x1_S_d0_1 h_S_) : (⟨S1600000x1, .f32⟩ : BufTy).Contents (Elt F) → (⟨S_, .f32⟩ : BufTy).Contents (Elt F) → (⟨S_, .f32⟩ : BufTy).Contents (Elt F)),
    nullary main_cst_76 (constant S_ .f32 0x49C35000#32),
    binary main_v390 main_cst_76 main_v391 (Host.divf : (⟨S_, .f32⟩ : BufTy).Contents (Elt F) → (⟨S_, .f32⟩ : BufTy).Contents (Elt F) → (⟨S_, .f32⟩ : BufTy).Contents (Elt F)),
    unary main_arg4 main_v392 ((extractStridedSlice S1x65x32 ![5, 0, 0] · slices_S8x65x32_S1x65x32_5_0_0) : (⟨S8x65x32, .f32⟩ : BufTy).Contents (Elt F) → (⟨S1x65x32, .f32⟩ : BufTy).Contents (Elt F)),
    reshape main_v392 main_v393 rfl shapeCasts_S1x65x32_S65x32,
    unary main_arg5 main_v394 ((extractStridedSlice S1x32 ![5, 0] · slices_S8x32_S1x32_5_0) : (⟨S8x32, .f32⟩ : BufTy).Contents (Elt F) → (⟨S1x32, .f32⟩ : BufTy).Contents (Elt F)),
    reshape main_v394 main_v395 rfl shapeCasts_S1x32_S32,
    unary main_arg6 main_v396 ((extractStridedSlice S1x1x1 ![5, 0, 0] · slices_S8x1x1_S1x1x1_5_0_0) : (⟨S8x1x1, .f32⟩ : BufTy).Contents (Elt F) → (⟨S1x1x1, .f32⟩ : BufTy).Contents (Elt F)),
    reshape main_v396 main_v397 rfl shapeCasts_S1x1x1_S1x1,
    unary main_arg7 main_v398 ((extractStridedSlice S1x1 ![5, 0] · slices_S8x1_S1x1_5_0) : (⟨S8x1, .f32⟩ : BufTy).Contents (Elt F) → (⟨S1x1, .f32⟩ : BufTy).Contents (Elt F)),
    reshape main_v398 main_v399 rfl shapeCasts_S1x1_S1,
    unary main_arg8 main_v400 ((extractStridedSlice S1x32x32 ![5, 0, 0] · slices_S8x32x32_S1x32x32_5_0_0) : (⟨S8x32x32, .f32⟩ : BufTy).Contents (Elt F) → (⟨S1x32x32, .f32⟩ : BufTy).Contents (Elt F)) ]

set_option maxRecDepth 8192 in
/-- The window is the straight line of its operations. -/
theorem main_part7_eq (c : Dev nD) : main_part7 (F := F) c = seq ops_part7 := rfl

set_option maxRecDepth 8192 in
/-- Each operation touches TensorCore buffers only. -/
theorem ops_part7_sub : (ops_part7 : List (HloOp τ sig (Elt F))).Forall fun op => op.bufs ⊆ tcRefs τ sig :=
  ⟨binary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., binary_bufs_sub .., nullary_bufs_sub .., binary_bufs_sub .., unary_bufs_sub .., reshape_bufs_sub .., unary_bufs_sub .., reshape_bufs_sub .., unary_bufs_sub .., reshape_bufs_sub .., unary_bufs_sub .., reshape_bufs_sub .., unary_bufs_sub ..⟩

/-- The buffers the window writes: one per operation. -/
abbrev ops_part7_W : List (Ref sig .tc) := [main_v350, main_v351, main_v352, main_v353, main_v354, main_v355, main_v356, main_call9_cst, main_call9_v0, main_v357, main_v358, main_v359, main_v360, main_v361, main_v362, main_v363, main_cst_68, main_v364, main_v365, main_cst_69, main_v366, main_v367, main_v368, main_v369, main_cst_70, main_v370, main_v371, main_v372, main_cst_71, main_v373, main_cst_72, main_v374, main_v375, main_v376, main_cst_73, main_v377, main_v378, main_v379, main_v380, main_v381, main_v382, main_v383, main_v384, main_v385, main_call10_cst, main_call10_v0, main_v386, main_cst_74, main_v387, main_v388, main_v389, main_cst_75, main_v390, main_cst_76, main_v391, main_v392, main_v393, main_v394, main_v395, main_v396, main_v397, main_v398, main_v399, main_v400]

set_option maxRecDepth 8192 in
/-- Every operation writes its own result buffer only, and that buffer is in the list. -/
theorem ops_part7_writes : (ops_part7 : List (HloOp τ sig (Elt F))).Forall fun op => op.writes ⊆ (ops_part7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- No operation allocates a buffer. -/
theorem ops_part7_fresh : ∀ op ∈ (ops_part7 : List (HloOp τ sig (Elt F))), op.fresh = ∅ := by
  intro _ h; (repeat (cases h with | head => rfl | tail _ h => ?_)); exact nomatch h

end Cert.ReferenceIdeal.Windows

end
-- ==== Proof.RefWindows.Part8.lean ====
/- The reference program's @main is printed in windows `main_part0` … `main_part12`; this module lists window 8's host
   operations (a called function's three operations in its call's place), says that the window is the straight line of
   them, that each touches TensorCore buffers only, which buffers the window writes (one per operation, all distinct)
   and that every operation writes inside that list, and that none allocates a buffer. -/
import proofs.«415750_j38869454029182_1_alg».proof.Proof.Gen.ReferenceIdeal
import Idealize.ShloMosaic.Lib.StableHlo.Run

noncomputable section

namespace Cert.ReferenceIdeal.Windows

open Cert.ReferenceIdeal Cert.ReferenceIdeal.Gen Idealize.ShloMosaic Idealize.ShloMosaic.TcCoe Idealize.SL.Sem Idealize.ShloMosaic.StableHlo

variable {F : FTy → Type} [FloatOps F]

/-- Window 8's 62 operations, in order. -/
abbrev ops_part8 : List (HloOp τ sig (Elt F)) :=
  [ reshape main_v400 main_v401 rfl shapeCasts_S1x32x32_S32x32,
    unary main_arg9 main_v402 ((extractStridedSlice S1x32 ![5, 0] · slices_S8x32_S1x32_5_0) : (⟨S8x32, .f32⟩ : BufTy).Contents (Elt F) → (⟨S1x32, .f32⟩ : BufTy).Contents (Elt F)),
    reshape main_v402 main_v403 rfl shapeCasts_S1x32_S32,
    nullary main_c_77 (constantI S_ 32 0#32),
    unary main_c_77 main_v404 (broadcastInDim S1600000 ![] bcast_S_S1600000 : (⟨S_, .i32⟩ : BufTy).Contents (Elt F) → (⟨S1600000, .i32⟩ : BufTy).Contents (Elt F)),
    binary main_v1 main_v404 main_v405 (cmpi .slt : (⟨S1600000, .i32⟩ : BufTy).Contents (Elt F) → (⟨S1600000, .i32⟩ : BufTy).Contents (Elt F) → (⟨S1600000, .i1⟩ : BufTy).Contents (Elt F)),
    nullary main_c_78 (constantI S_ 32 50000#32),
    unary main_c_78 main_v406 (broadcastInDim S1600000 ![] bcast_S_S1600000 : (⟨S_, .i32⟩ : BufTy).Contents (Elt F) → (⟨S1600000, .i32⟩ : BufTy).Contents (Elt F)),
    binary main_v1 main_v406 main_v407 (addi : (⟨S1600000, .i32⟩ : BufTy).Contents (Elt F) → (⟨S1600000, .i32⟩ : BufTy).Contents (Elt F) → (⟨S1600000, .i32⟩ : BufTy).Contents (Elt F)),
    ternary main_v405 main_v407 main_v1 main_v408 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v408 main_v409 (broadcastInDim S1600000x1 ![0] bcast_S1600000_S1600000x1_0 : (⟨S1600000, .i32⟩ : BufTy).Contents (Elt F) → (⟨S1600000x1, .i32⟩ : BufTy).Contents (Elt F)),
    binary main_v386 main_v409 main_v410 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    nullary main_c_79 (constantI S_ 32 0#32),
    unary main_c_79 main_v411 (broadcastInDim S1600000 ![] bcast_S_S1600000 : (⟨S_, .i32⟩ : BufTy).Contents (Elt F) → (⟨S1600000, .i32⟩ : BufTy).Contents (Elt F)),
    binary main_v3 main_v411 main_v412 (cmpi .slt : (⟨S1600000, .i32⟩ : BufTy).Contents (Elt F) → (⟨S1600000, .i32⟩ : BufTy).Contents (Elt F) → (⟨S1600000, .i1⟩ : BufTy).Contents (Elt F)),
    nullary main_c_80 (constantI S_ 32 50000#32),
    unary main_c_80 main_v413 (broadcastInDim S1600000 ![] bcast_S_S1600000 : (⟨S_, .i32⟩ : BufTy).Contents (Elt F) → (⟨S1600000, .i32⟩ : BufTy).Contents (Elt F)),
    binary main_v3 main_v413 main_v414 (addi : (⟨S1600000, .i32⟩ : BufTy).Contents (Elt F) → (⟨S1600000, .i32⟩ : BufTy).Contents (Elt F) → (⟨S1600000, .i32⟩ : BufTy).Contents (Elt F)),
    ternary main_v412 main_v414 main_v3 main_v415 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v415 main_v416 (broadcastInDim S1600000x1 ![0] bcast_S1600000_S1600000x1_0 : (⟨S1600000, .i32⟩ : BufTy).Contents (Elt F) → (⟨S1600000x1, .i32⟩ : BufTy).Contents (Elt F)),
    binary main_v386 main_v416 main_v417 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    nullary main_c_81 (constantI S_ 32 0#32),
    unary main_c_81 main_v418 (broadcastInDim S1600000 ![] bcast_S_S1600000 : (⟨S_, .i32⟩ : BufTy).Contents (Elt F) → (⟨S1600000, .i32⟩ : BufTy).Contents (Elt F)),
    binary main_v1 main_v418 main_v419 (cmpi .slt : (⟨S1600000, .i32⟩ : BufTy).Contents (Elt F) → (⟨S1600000, .i32⟩ : BufTy).Contents (Elt F) → (⟨S1600000, .i1⟩ : BufTy).Contents (Elt F)),
    nullary main_c_82 (constantI S_ 32 50000#32),
    unary main_c_82 main_v420 (broadcastInDim S1600000 ![] bcast_S_S1600000 : (⟨S_, .i32⟩ : BufTy).Contents (Elt F) → (⟨S1600000, .i32⟩ : BufTy).Contents (Elt F)),
    binary main_v1 main_v420 main_v421 (addi : (⟨S1600000, .i32⟩ : BufTy).Contents (Elt F) → (⟨S1600000, .i32⟩ : BufTy).Contents (Elt F) → (⟨S1600000, .i32⟩ : BufTy).Contents (Elt F)),
    ternary main_v419 main_v421 main_v1 main_v422 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v422 main_v423 (broadcastInDim S1600000x1 ![0] bcast_S1600000_S1600000x1_0 : (⟨S1600000, .i32⟩ : BufTy).Contents (Elt F) → (⟨S1600000x1, .i32⟩ : BufTy).Contents (Elt F)),
    binary main_v386 main_v423 main_v424 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    binary main_v417 main_v424 main_v425 (subf : (⟨S1600000x32, .f32⟩ : BufTy).Contents (Elt F) → (⟨S1600000x32, .f32⟩ : BufTy).Contents (Elt F) → (⟨S1600000x32, .f32⟩ : BufTy).Contents (Elt F)),
    nary ![main_v410, main_v425, main_arg1] main_v426 (fun u => concatenate S1600000x65 1 [⟨S1600000x32, u 0⟩, ⟨S1600000x32, u 1⟩, ⟨S1600000x1, u 2⟩] concatenates_S1600000x32_S1600000x32_S1600000x1_S1600000x65_d1),
    binary main_v426 main_v393 main_v427 ((fun l r => Host.dotGeneral dot_S1600000x65_S65x32_S1600000x32_1_0_0_1_n_n none l r) : (⟨S1600000x65, .f32⟩ : BufTy).Contents (Elt F) → (⟨S65x32, .f32⟩ : BufTy).Contents (Elt F) → (⟨S1600000x32, .f32⟩ : BufTy).Contents (Elt F)),
    unary main_v395 main_v428 (broadcastInDim S1x32 ![1] bcast_S32_S1x32_1 : (⟨S32, .f32⟩ : BufTy).Contents (Elt F) → (⟨S1x32, .f32⟩ : BufTy).Contents (Elt F)),
    unary main_v428 main_v429 (broadcastInDim S1600000x32 ![0, 1] bcast_S1x32_S1600000x32_0_1 : (⟨S1x32, .f32⟩ : BufTy).Contents (Elt F) → (⟨S1600000x32, .f32⟩ : BufTy).Contents (Elt F)),
    binary main_v427 main_v429 main_v430 (addf : (⟨S1600000x32, .f32⟩ : BufTy).Contents (Elt F) → (⟨S1600000x32, .f32⟩ : BufTy).Contents (Elt F) → (⟨S1600000x32, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S1600000x32, .f32⟩) main_call11_v0) (broadcastInDim S1600000x32 ![] bcast_S_S1600000x32),
    TRef.binary (TRef.of (T := ⟨S1600000x32, .f32⟩) main_v430) (TRef.of (T := ⟨S1600000x32, .f32⟩) main_call11_v0) (TRef.of (T := ⟨S1600000x32, .f32⟩) main_v431) maximumf,
    binary main_arg1 main_v397 main_v432 ((fun l r => Host.dotGeneral dot_S1600000x1_S1x1_S1600000x1_1_0_0_1_n_n none l r) : (⟨S1600000x1, .f32⟩ : BufTy).Contents (Elt F) → (⟨S1x1, .f32⟩ : BufTy).Contents (Elt F) → (⟨S1600000x1, .f32⟩ : BufTy).Contents (Elt F)),
    unary main_v399 main_v433 (broadcastInDim S1x1 ![1] bcast_S1_S1x1_1 : (⟨S1, .f32⟩ : BufTy).Contents (Elt F) → (⟨S1x1, .f32⟩ : BufTy).Contents (Elt F)),
    unary main_v433 main_v434 (broadcastInDim S1600000x1 ![0, 1] bcast_S1x1_S1600000x1_0_1 : (⟨S1x1, .f32⟩ : BufTy).Contents (Elt F) → (⟨S1600000x1, .f32⟩ : BufTy).Contents (Elt F)),
    binary main_v432 main_v434 main_v435 (addf : (⟨S1600000x1, .f32⟩ : BufTy).Contents (Elt F) → (⟨S1600000x1, .f32⟩ : BufTy).Contents (Elt F) → (⟨S1600000x1, .f32⟩ : BufTy).Contents (Elt F)),
    unary main_v435 main_v436 (Host.negf : (⟨S1600000x1, .f32⟩ : BufTy).Contents (Elt F) → (⟨S1600000x1, .f32⟩ : BufTy).Contents (Elt F)),
    unary main_v436 main_v437 (Host.exp : (⟨S1600000x1, .f32⟩ : BufTy).Contents (Elt F) → (⟨S1600000x1, .f32⟩ : BufTy).Contents (Elt F)),
    nullary main_cst_83 (constant S_ .f32 0x3F800000#32),
    unary main_cst_83 main_v438 (broadcastInDim S1600000x1 ![] bcast_S_S1600000x1 : (⟨S_, .f32⟩ : BufTy).Contents (Elt F) → (⟨S1600000x1, .f32⟩ : BufTy).Contents (Elt F)),
    binary main_v438 main_v437 main_v439 (addf : (⟨S1600000x1, .f32⟩ : BufTy).Contents (Elt F) → (⟨S1600000x1, .f32⟩ : BufTy).Contents (Elt F) → (⟨S1600000x1, .f32⟩ : BufTy).Contents (Elt F)),
    nullary main_cst_84 (constant S_ .f32 0x3F800000#32),
    unary main_cst_84 main_v440 (broadcastInDim S1600000x1 ![] bcast_S_S1600000x1 : (⟨S_, .f32⟩ : BufTy).Contents (Elt F) → (⟨S1600000x1, .f32⟩ : BufTy).Contents (Elt F)),
    binary main_v440 main_v439 main_v441 (Host.divf : (⟨S1600000x1, .f32⟩ : BufTy).Contents (Elt F) → (⟨S1600000x1, .f32⟩ : BufTy).Contents (Elt F) → (⟨S1600000x1, .f32⟩ : BufTy).Contents (Elt F)),
    unary main_v441 main_v442 (broadcastInDim S1600000x32 ![0, 1] bcast_S1600000x1_S1600000x32_0_1 : (⟨S1600000x1, .f32⟩ : BufTy).Contents (Elt F) → (⟨S1600000x32, .f32⟩ : BufTy).Contents (Elt F)),
    binary main_v431 main_v442 main_v443 (mulf : (⟨S1600000x32, .f32⟩ : BufTy).Contents (Elt F) → (⟨S1600000x32, .f32⟩ : BufTy).Contents (Elt F) → (⟨S1600000x32, .f32⟩ : BufTy).Contents (Elt F)),
    nullary main_cst_85 (constant S_ .f32 0x00000000#32),
    unary main_cst_85 main_v444 (broadcastInDim S50000x32 ![] bcast_S_S50000x32 : (⟨S_, .f32⟩ : BufTy).Contents (Elt F) → (⟨S50000x32, .f32⟩ : BufTy).Contents (Elt F)),
    unary main_v3 main_v445 (broadcastInDim S1600000x1 ![0] bcast_S1600000_S1600000x1_0 : (⟨S1600000, .i32⟩ : BufTy).Contents (Elt F) → (⟨S1600000x1, .i32⟩ : BufTy).Contents (Elt F)),
    ternary main_v444 main_v445 main_v443 main_v446 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)),
    nullary main_cst_86 (constant S_ .f32 0x3F800000#32),
    unary main_cst_86 main_v447 (broadcastInDim S1600000x1 ![] bcast_S_S1600000x1 : (⟨S_, .f32⟩ : BufTy).Contents (Elt F) → (⟨S1600000x1, .f32⟩ : BufTy).Contents (Elt F)),
    nullary main_cst_87 (constant S_ .f32 0x00000000#32),
    unary main_cst_87 main_v448 (broadcastInDim S50000x1 ![] bcast_S_S50000x1 : (⟨S_, .f32⟩ : BufTy).Contents (Elt F) → (⟨S50000x1, .f32⟩ : BufTy).Contents (Elt F)),
    unary main_v3 main_v449 (broadcastInDim S1600000x1 ![0] bcast_S1600000_S1600000x1_0 : (⟨S1600000, .i32⟩ : BufTy).Contents (Elt F) → (⟨S1600000x1, .i32⟩ : BufTy).Contents (Elt F)) ]

set_option maxRecDepth 8192 in
/-- The window is the straight line of its operations. -/
theorem main_part8_eq (c : Dev nD) : main_part8 (F := F) c = seq ops_part8 := rfl

set_option maxRecDepth 8192 in
/-- Each operation touches TensorCore buffers only. -/
theorem ops_part8_sub : (ops_part8 : List (HloOp τ sig (Elt F))).Forall fun op => op.bufs ⊆ tcRefs τ sig :=
  ⟨reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub ..⟩

/-- The buffers the window writes: one per operation. -/
abbrev ops_part8_W : List (Ref sig .tc) := [main_v401, main_v402, main_v403, main_c_77, main_v404, main_v405, main_c_78, main_v406, main_v407, main_v408, main_v409, main_v410, main_c_79, main_v411, main_v412, main_c_80, main_v413, main_v414, main_v415, main_v416, main_v417, main_c_81, main_v418, main_v419, main_c_82, main_v420, main_v421, main_v422, main_v423, main_v424, main_v425, main_v426, main_v427, main_v428, main_v429, main_v430, main_call11_cst, main_call11_v0, main_v431, main_v432, main_v433, main_v434, main_v435, main_v436, main_v437, main_cst_83, main_v438, main_v439, main_cst_84, main_v440, main_v441, main_v442, main_v443, main_cst_85, main_v444, main_v445, main_v446, main_cst_86, main_v447, main_cst_87, main_v448, main_v449]

set_option maxRecDepth 8192 in
/-- Every operation writes its own result buffer only, and that buffer is in the list. -/
theorem ops_part8_writes : (ops_part8 : List (HloOp τ sig (Elt F))).Forall fun op => op.writes ⊆ (ops_part8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- No operation allocates a buffer. -/
theorem ops_part8_fresh : ∀ op ∈ (ops_part8 : List (HloOp τ sig (Elt F))), op.fresh = ∅ := by
  intro _ h; (repeat (cases h with | head => rfl | tail _ h => ?_)); exact nomatch h

end Cert.ReferenceIdeal.Windows

end
-- ==== Proof.RefWindows.Part9.lean ====
/- The reference program's @main is printed in windows `main_part0` … `main_part12`; this module lists window 9's host
   operations (a called function's three operations in its call's place), says that the window is the straight line of
   them, that each touches TensorCore buffers only, which buffers the window writes (one per operation, all distinct)
   and that every operation writes inside that list, and that none allocates a buffer. -/
import proofs.«415750_j38869454029182_1_alg».proof.Proof.Gen.ReferenceIdeal
import Idealize.ShloMosaic.Lib.StableHlo.Run

noncomputable section

namespace Cert.ReferenceIdeal.Windows

open Cert.ReferenceIdeal Cert.ReferenceIdeal.Gen Idealize.ShloMosaic Idealize.ShloMosaic.TcCoe Idealize.SL.Sem Idealize.ShloMosaic.StableHlo

variable {F : FTy → Type} [FloatOps F]

/-- Window 9's 62 operations, in order. -/
abbrev ops_part9 : List (HloOp τ sig (Elt F)) :=
  [ ternary main_v448 main_v449 main_v447 main_v450 ((fun x i u => Host.scatterAdd scatter_S50000x1_S1600000x1_S1600000x1_1_0_0_1 x i u) : (⟨S50000x1, .f32⟩ : BufTy).Contents (Elt F) → (⟨S1600000x1, .i32⟩ : BufTy).Contents (Elt F) → (⟨S1600000x1, .f32⟩ : BufTy).Contents (Elt F) → (⟨S50000x1, .f32⟩ : BufTy).Contents (Elt F)),
    nullary main_cst_88 (constant S_ .f32 0x3F800000#32),
    unary main_cst_88 main_v451 (broadcastInDim S50000x1 ![] bcast_S_S50000x1 : (⟨S_, .f32⟩ : BufTy).Contents (Elt F) → (⟨S50000x1, .f32⟩ : BufTy).Contents (Elt F)),
    binary main_v450 main_v451 main_v452 (maximumf : (⟨S50000x1, .f32⟩ : BufTy).Contents (Elt F) → (⟨S50000x1, .f32⟩ : BufTy).Contents (Elt F) → (⟨S50000x1, .f32⟩ : BufTy).Contents (Elt F)),
    unary main_v452 main_v453 (broadcastInDim S50000x32 ![0, 1] bcast_S50000x1_S50000x32_0_1 : (⟨S50000x1, .f32⟩ : BufTy).Contents (Elt F) → (⟨S50000x32, .f32⟩ : BufTy).Contents (Elt F)),
    binary main_v446 main_v453 main_v454 (Host.divf : (⟨S50000x32, .f32⟩ : BufTy).Contents (Elt F) → (⟨S50000x32, .f32⟩ : BufTy).Contents (Elt F) → (⟨S50000x32, .f32⟩ : BufTy).Contents (Elt F)),
    binary main_v386 main_v401 main_v455 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    unary main_v403 main_v456 (broadcastInDim S1x32 ![1] bcast_S32_S1x32_1 : (⟨S32, .f32⟩ : BufTy).Contents (Elt F) → (⟨S1x32, .f32⟩ : BufTy).Contents (Elt F)),
    unary main_v456 main_v457 (broadcastInDim S50000x32 ![0, 1] bcast_S1x32_S50000x32_0_1 : (⟨S1x32, .f32⟩ : BufTy).Contents (Elt F) → (⟨S50000x32, .f32⟩ : BufTy).Contents (Elt F)),
    binary main_v455 main_v457 main_v458 (addf : (⟨S50000x32, .f32⟩ : BufTy).Contents (Elt F) → (⟨S50000x32, .f32⟩ : BufTy).Contents (Elt F) → (⟨S50000x32, .f32⟩ : BufTy).Contents (Elt F)),
    binary main_v458 main_v454 main_v459 (addf : (⟨S50000x32, .f32⟩ : BufTy).Contents (Elt F) → (⟨S50000x32, .f32⟩ : BufTy).Contents (Elt F) → (⟨S50000x32, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S50000x32, .f32⟩) main_call12_v0) (broadcastInDim S50000x32 ![] bcast_S_S50000x32),
    TRef.binary (TRef.of (T := ⟨S50000x32, .f32⟩) main_v459) (TRef.of (T := ⟨S50000x32, .f32⟩) main_call12_v0) (TRef.of (T := ⟨S50000x32, .f32⟩) main_v460) maximumf,
    nullary main_cst_89 (constant S_ .f32 0x3F800000#32),
    unary main_cst_89 main_v461 (broadcastInDim S1600000x1 ![] bcast_S_S1600000x1 : (⟨S_, .f32⟩ : BufTy).Contents (Elt F) → (⟨S1600000x1, .f32⟩ : BufTy).Contents (Elt F)),
    binary main_v461 main_v441 main_v462 (subf : (⟨S1600000x1, .f32⟩ : BufTy).Contents (Elt F) → (⟨S1600000x1, .f32⟩ : BufTy).Contents (Elt F) → (⟨S1600000x1, .f32⟩ : BufTy).Contents (Elt F)),
    binary main_v441 main_v462 main_v463 (mulf : (⟨S1600000x1, .f32⟩ : BufTy).Contents (Elt F) → (⟨S1600000x1, .f32⟩ : BufTy).Contents (Elt F) → (⟨S1600000x1, .f32⟩ : BufTy).Contents (Elt F)),
    nullary main_cst_90 (constant S_ .f32 0x00000000#32),
    binary main_v463 main_cst_90 main_v464 ((fun x v => Host.reduceAdd x v reducesTo_S1600000x1_S_d0_1 h_S_) : (⟨S1600000x1, .f32⟩ : BufTy).Contents (Elt F) → (⟨S_, .f32⟩ : BufTy).Contents (Elt F) → (⟨S_, .f32⟩ : BufTy).Contents (Elt F)),
    nullary main_cst_91 (constant S_ .f32 0x49C35000#32),
    binary main_v464 main_cst_91 main_v465 (Host.divf : (⟨S_, .f32⟩ : BufTy).Contents (Elt F) → (⟨S_, .f32⟩ : BufTy).Contents (Elt F) → (⟨S_, .f32⟩ : BufTy).Contents (Elt F)),
    unary main_arg4 main_v466 ((extractStridedSlice S1x65x32 ![6, 0, 0] · slices_S8x65x32_S1x65x32_6_0_0) : (⟨S8x65x32, .f32⟩ : BufTy).Contents (Elt F) → (⟨S1x65x32, .f32⟩ : BufTy).Contents (Elt F)),
    reshape main_v466 main_v467 rfl shapeCasts_S1x65x32_S65x32,
    unary main_arg5 main_v468 ((extractStridedSlice S1x32 ![6, 0] · slices_S8x32_S1x32_6_0) : (⟨S8x32, .f32⟩ : BufTy).Contents (Elt F) → (⟨S1x32, .f32⟩ : BufTy).Contents (Elt F)),
    reshape main_v468 main_v469 rfl shapeCasts_S1x32_S32,
    unary main_arg6 main_v470 ((extractStridedSlice S1x1x1 ![6, 0, 0] · slices_S8x1x1_S1x1x1_6_0_0) : (⟨S8x1x1, .f32⟩ : BufTy).Contents (Elt F) → (⟨S1x1x1, .f32⟩ : BufTy).Contents (Elt F)),
    reshape main_v470 main_v471 rfl shapeCasts_S1x1x1_S1x1,
    unary main_arg7 main_v472 ((extractStridedSlice S1x1 ![6, 0] · slices_S8x1_S1x1_6_0) : (⟨S8x1, .f32⟩ : BufTy).Contents (Elt F) → (⟨S1x1, .f32⟩ : BufTy).Contents (Elt F)),
    reshape main_v472 main_v473 rfl shapeCasts_S1x1_S1,
    unary main_arg8 main_v474 ((extractStridedSlice S1x32x32 ![6, 0, 0] · slices_S8x32x32_S1x32x32_6_0_0) : (⟨S8x32x32, .f32⟩ : BufTy).Contents (Elt F) → (⟨S1x32x32, .f32⟩ : BufTy).Contents (Elt F)),
    reshape main_v474 main_v475 rfl shapeCasts_S1x32x32_S32x32,
    unary main_arg9 main_v476 ((extractStridedSlice S1x32 ![6, 0] · slices_S8x32_S1x32_6_0) : (⟨S8x32, .f32⟩ : BufTy).Contents (Elt F) → (⟨S1x32, .f32⟩ : BufTy).Contents (Elt F)),
    reshape main_v476 main_v477 rfl shapeCasts_S1x32_S32,
    nullary main_c_92 (constantI S_ 32 0#32),
    unary main_c_92 main_v478 (broadcastInDim S1600000 ![] bcast_S_S1600000 : (⟨S_, .i32⟩ : BufTy).Contents (Elt F) → (⟨S1600000, .i32⟩ : BufTy).Contents (Elt F)),
    binary main_v1 main_v478 main_v479 (cmpi .slt : (⟨S1600000, .i32⟩ : BufTy).Contents (Elt F) → (⟨S1600000, .i32⟩ : BufTy).Contents (Elt F) → (⟨S1600000, .i1⟩ : BufTy).Contents (Elt F)),
    nullary main_c_93 (constantI S_ 32 50000#32),
    unary main_c_93 main_v480 (broadcastInDim S1600000 ![] bcast_S_S1600000 : (⟨S_, .i32⟩ : BufTy).Contents (Elt F) → (⟨S1600000, .i32⟩ : BufTy).Contents (Elt F)),
    binary main_v1 main_v480 main_v481 (addi : (⟨S1600000, .i32⟩ : BufTy).Contents (Elt F) → (⟨S1600000, .i32⟩ : BufTy).Contents (Elt F) → (⟨S1600000, .i32⟩ : BufTy).Contents (Elt F)),
    ternary main_v479 main_v481 main_v1 main_v482 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v482 main_v483 (broadcastInDim S1600000x1 ![0] bcast_S1600000_S1600000x1_0 : (⟨S1600000, .i32⟩ : BufTy).Contents (Elt F) → (⟨S1600000x1, .i32⟩ : BufTy).Contents (Elt F)),
    binary main_v460 main_v483 main_v484 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    nullary main_c_94 (constantI S_ 32 0#32),
    unary main_c_94 main_v485 (broadcastInDim S1600000 ![] bcast_S_S1600000 : (⟨S_, .i32⟩ : BufTy).Contents (Elt F) → (⟨S1600000, .i32⟩ : BufTy).Contents (Elt F)),
    binary main_v3 main_v485 main_v486 (cmpi .slt : (⟨S1600000, .i32⟩ : BufTy).Contents (Elt F) → (⟨S1600000, .i32⟩ : BufTy).Contents (Elt F) → (⟨S1600000, .i1⟩ : BufTy).Contents (Elt F)),
    nullary main_c_95 (constantI S_ 32 50000#32),
    unary main_c_95 main_v487 (broadcastInDim S1600000 ![] bcast_S_S1600000 : (⟨S_, .i32⟩ : BufTy).Contents (Elt F) → (⟨S1600000, .i32⟩ : BufTy).Contents (Elt F)),
    binary main_v3 main_v487 main_v488 (addi : (⟨S1600000, .i32⟩ : BufTy).Contents (Elt F) → (⟨S1600000, .i32⟩ : BufTy).Contents (Elt F) → (⟨S1600000, .i32⟩ : BufTy).Contents (Elt F)),
    ternary main_v486 main_v488 main_v3 main_v489 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v489 main_v490 (broadcastInDim S1600000x1 ![0] bcast_S1600000_S1600000x1_0 : (⟨S1600000, .i32⟩ : BufTy).Contents (Elt F) → (⟨S1600000x1, .i32⟩ : BufTy).Contents (Elt F)),
    binary main_v460 main_v490 main_v491 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    nullary main_c_96 (constantI S_ 32 0#32),
    unary main_c_96 main_v492 (broadcastInDim S1600000 ![] bcast_S_S1600000 : (⟨S_, .i32⟩ : BufTy).Contents (Elt F) → (⟨S1600000, .i32⟩ : BufTy).Contents (Elt F)),
    binary main_v1 main_v492 main_v493 (cmpi .slt : (⟨S1600000, .i32⟩ : BufTy).Contents (Elt F) → (⟨S1600000, .i32⟩ : BufTy).Contents (Elt F) → (⟨S1600000, .i1⟩ : BufTy).Contents (Elt F)),
    nullary main_c_97 (constantI S_ 32 50000#32),
    unary main_c_97 main_v494 (broadcastInDim S1600000 ![] bcast_S_S1600000 : (⟨S_, .i32⟩ : BufTy).Contents (Elt F) → (⟨S1600000, .i32⟩ : BufTy).Contents (Elt F)),
    binary main_v1 main_v494 main_v495 (addi : (⟨S1600000, .i32⟩ : BufTy).Contents (Elt F) → (⟨S1600000, .i32⟩ : BufTy).Contents (Elt F) → (⟨S1600000, .i32⟩ : BufTy).Contents (Elt F)),
    ternary main_v493 main_v495 main_v1 main_v496 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v496 main_v497 (broadcastInDim S1600000x1 ![0] bcast_S1600000_S1600000x1_0 : (⟨S1600000, .i32⟩ : BufTy).Contents (Elt F) → (⟨S1600000x1, .i32⟩ : BufTy).Contents (Elt F)),
    binary main_v460 main_v497 main_v498 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    binary main_v491 main_v498 main_v499 (subf : (⟨S1600000x32, .f32⟩ : BufTy).Contents (Elt F) → (⟨S1600000x32, .f32⟩ : BufTy).Contents (Elt F) → (⟨S1600000x32, .f32⟩ : BufTy).Contents (Elt F)) ]

set_option maxRecDepth 8192 in
/-- The window is the straight line of its operations. -/
theorem main_part9_eq (c : Dev nD) : main_part9 (F := F) c = seq ops_part9 := rfl

set_option maxRecDepth 8192 in
/-- Each operation touches TensorCore buffers only. -/
theorem ops_part9_sub : (ops_part9 : List (HloOp τ sig (Elt F))).Forall fun op => op.bufs ⊆ tcRefs τ sig :=
  ⟨ternary_bufs_sub .., nullary_bufs_sub .., unary_bufs_sub .., binary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., binary_bufs_sub .., nullary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- The buffers the window writes: one per operation. -/
abbrev ops_part9_W : List (Ref sig .tc) := [main_v450, main_cst_88, main_v451, main_v452, main_v453, main_v454, main_v455, main_v456, main_v457, main_v458, main_v459, main_call12_cst, main_call12_v0, main_v460, main_cst_89, main_v461, main_v462, main_v463, main_cst_90, main_v464, main_cst_91, main_v465, main_v466, main_v467, main_v468, main_v469, main_v470, main_v471, main_v472, main_v473, main_v474, main_v475, main_v476, main_v477, main_c_92, main_v478, main_v479, main_c_93, main_v480, main_v481, main_v482, main_v483, main_v484, main_c_94, main_v485, main_v486, main_c_95, main_v487, main_v488, main_v489, main_v490, main_v491, main_c_96, main_v492, main_v493, main_c_97, main_v494, main_v495, main_v496, main_v497, main_v498, main_v499]

set_option maxRecDepth 8192 in
/-- Every operation writes its own result buffer only, and that buffer is in the list. -/
theorem ops_part9_writes : (ops_part9 : List (HloOp τ sig (Elt F))).Forall fun op => op.writes ⊆ (ops_part9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- No operation allocates a buffer. -/
theorem ops_part9_fresh : ∀ op ∈ (ops_part9 : List (HloOp τ sig (Elt F))), op.fresh = ∅ := by
  intro _ h; (repeat (cases h with | head => rfl | tail _ h => ?_)); exact nomatch h

end Cert.ReferenceIdeal.Windows

end
-- ==== Proof.RefWindows.Part10.lean ====
/- The reference program's @main is printed in windows `main_part0` … `main_part12`; this module lists window 10's host
   operations (a called function's three operations in its call's place), says that the window is the straight line of
   them, that each touches TensorCore buffers only, which buffers the window writes (one per operation, all distinct)
   and that every operation writes inside that list, and that none allocates a buffer. -/
import proofs.«415750_j38869454029182_1_alg».proof.Proof.Gen.ReferenceIdeal
import Idealize.ShloMosaic.Lib.StableHlo.Run

noncomputable section

namespace Cert.ReferenceIdeal.Windows

open Cert.ReferenceIdeal Cert.ReferenceIdeal.Gen Idealize.ShloMosaic Idealize.ShloMosaic.TcCoe Idealize.SL.Sem Idealize.ShloMosaic.StableHlo

variable {F : FTy → Type} [FloatOps F]

/-- Window 10's 64 operations, in order. -/
abbrev ops_part10 : List (HloOp τ sig (Elt F)) :=
  [ nary ![main_v484, main_v499, main_arg1] main_v500 (fun u => concatenate S1600000x65 1 [⟨S1600000x32, u 0⟩, ⟨S1600000x32, u 1⟩, ⟨S1600000x1, u 2⟩] concatenates_S1600000x32_S1600000x32_S1600000x1_S1600000x65_d1),
    binary main_v500 main_v467 main_v501 ((fun l r => Host.dotGeneral dot_S1600000x65_S65x32_S1600000x32_1_0_0_1_n_n none l r) : (⟨S1600000x65, .f32⟩ : BufTy).Contents (Elt F) → (⟨S65x32, .f32⟩ : BufTy).Contents (Elt F) → (⟨S1600000x32, .f32⟩ : BufTy).Contents (Elt F)),
    unary main_v469 main_v502 (broadcastInDim S1x32 ![1] bcast_S32_S1x32_1 : (⟨S32, .f32⟩ : BufTy).Contents (Elt F) → (⟨S1x32, .f32⟩ : BufTy).Contents (Elt F)),
    unary main_v502 main_v503 (broadcastInDim S1600000x32 ![0, 1] bcast_S1x32_S1600000x32_0_1 : (⟨S1x32, .f32⟩ : BufTy).Contents (Elt F) → (⟨S1600000x32, .f32⟩ : BufTy).Contents (Elt F)),
    binary main_v501 main_v503 main_v504 (addf : (⟨S1600000x32, .f32⟩ : BufTy).Contents (Elt F) → (⟨S1600000x32, .f32⟩ : BufTy).Contents (Elt F) → (⟨S1600000x32, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S1600000x32, .f32⟩) main_call13_v0) (broadcastInDim S1600000x32 ![] bcast_S_S1600000x32),
    TRef.binary (TRef.of (T := ⟨S1600000x32, .f32⟩) main_v504) (TRef.of (T := ⟨S1600000x32, .f32⟩) main_call13_v0) (TRef.of (T := ⟨S1600000x32, .f32⟩) main_v505) maximumf,
    binary main_arg1 main_v471 main_v506 ((fun l r => Host.dotGeneral dot_S1600000x1_S1x1_S1600000x1_1_0_0_1_n_n none l r) : (⟨S1600000x1, .f32⟩ : BufTy).Contents (Elt F) → (⟨S1x1, .f32⟩ : BufTy).Contents (Elt F) → (⟨S1600000x1, .f32⟩ : BufTy).Contents (Elt F)),
    unary main_v473 main_v507 (broadcastInDim S1x1 ![1] bcast_S1_S1x1_1 : (⟨S1, .f32⟩ : BufTy).Contents (Elt F) → (⟨S1x1, .f32⟩ : BufTy).Contents (Elt F)),
    unary main_v507 main_v508 (broadcastInDim S1600000x1 ![0, 1] bcast_S1x1_S1600000x1_0_1 : (⟨S1x1, .f32⟩ : BufTy).Contents (Elt F) → (⟨S1600000x1, .f32⟩ : BufTy).Contents (Elt F)),
    binary main_v506 main_v508 main_v509 (addf : (⟨S1600000x1, .f32⟩ : BufTy).Contents (Elt F) → (⟨S1600000x1, .f32⟩ : BufTy).Contents (Elt F) → (⟨S1600000x1, .f32⟩ : BufTy).Contents (Elt F)),
    unary main_v509 main_v510 (Host.negf : (⟨S1600000x1, .f32⟩ : BufTy).Contents (Elt F) → (⟨S1600000x1, .f32⟩ : BufTy).Contents (Elt F)),
    unary main_v510 main_v511 (Host.exp : (⟨S1600000x1, .f32⟩ : BufTy).Contents (Elt F) → (⟨S1600000x1, .f32⟩ : BufTy).Contents (Elt F)),
    nullary main_cst_98 (constant S_ .f32 0x3F800000#32),
    unary main_cst_98 main_v512 (broadcastInDim S1600000x1 ![] bcast_S_S1600000x1 : (⟨S_, .f32⟩ : BufTy).Contents (Elt F) → (⟨S1600000x1, .f32⟩ : BufTy).Contents (Elt F)),
    binary main_v512 main_v511 main_v513 (addf : (⟨S1600000x1, .f32⟩ : BufTy).Contents (Elt F) → (⟨S1600000x1, .f32⟩ : BufTy).Contents (Elt F) → (⟨S1600000x1, .f32⟩ : BufTy).Contents (Elt F)),
    nullary main_cst_99 (constant S_ .f32 0x3F800000#32),
    unary main_cst_99 main_v514 (broadcastInDim S1600000x1 ![] bcast_S_S1600000x1 : (⟨S_, .f32⟩ : BufTy).Contents (Elt F) → (⟨S1600000x1, .f32⟩ : BufTy).Contents (Elt F)),
    binary main_v514 main_v513 main_v515 (Host.divf : (⟨S1600000x1, .f32⟩ : BufTy).Contents (Elt F) → (⟨S1600000x1, .f32⟩ : BufTy).Contents (Elt F) → (⟨S1600000x1, .f32⟩ : BufTy).Contents (Elt F)),
    unary main_v515 main_v516 (broadcastInDim S1600000x32 ![0, 1] bcast_S1600000x1_S1600000x32_0_1 : (⟨S1600000x1, .f32⟩ : BufTy).Contents (Elt F) → (⟨S1600000x32, .f32⟩ : BufTy).Contents (Elt F)),
    binary main_v505 main_v516 main_v517 (mulf : (⟨S1600000x32, .f32⟩ : BufTy).Contents (Elt F) → (⟨S1600000x32, .f32⟩ : BufTy).Contents (Elt F) → (⟨S1600000x32, .f32⟩ : BufTy).Contents (Elt F)),
    nullary main_cst_100 (constant S_ .f32 0x00000000#32),
    unary main_cst_100 main_v518 (broadcastInDim S50000x32 ![] bcast_S_S50000x32 : (⟨S_, .f32⟩ : BufTy).Contents (Elt F) → (⟨S50000x32, .f32⟩ : BufTy).Contents (Elt F)),
    unary main_v3 main_v519 (broadcastInDim S1600000x1 ![0] bcast_S1600000_S1600000x1_0 : (⟨S1600000, .i32⟩ : BufTy).Contents (Elt F) → (⟨S1600000x1, .i32⟩ : BufTy).Contents (Elt F)),
    ternary main_v518 main_v519 main_v517 main_v520 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)),
    nullary main_cst_101 (constant S_ .f32 0x3F800000#32),
    unary main_cst_101 main_v521 (broadcastInDim S1600000x1 ![] bcast_S_S1600000x1 : (⟨S_, .f32⟩ : BufTy).Contents (Elt F) → (⟨S1600000x1, .f32⟩ : BufTy).Contents (Elt F)),
    nullary main_cst_102 (constant S_ .f32 0x00000000#32),
    unary main_cst_102 main_v522 (broadcastInDim S50000x1 ![] bcast_S_S50000x1 : (⟨S_, .f32⟩ : BufTy).Contents (Elt F) → (⟨S50000x1, .f32⟩ : BufTy).Contents (Elt F)),
    unary main_v3 main_v523 (broadcastInDim S1600000x1 ![0] bcast_S1600000_S1600000x1_0 : (⟨S1600000, .i32⟩ : BufTy).Contents (Elt F) → (⟨S1600000x1, .i32⟩ : BufTy).Contents (Elt F)),
    ternary main_v522 main_v523 main_v521 main_v524 ((fun x i u => Host.scatterAdd scatter_S50000x1_S1600000x1_S1600000x1_1_0_0_1 x i u) : (⟨S50000x1, .f32⟩ : BufTy).Contents (Elt F) → (⟨S1600000x1, .i32⟩ : BufTy).Contents (Elt F) → (⟨S1600000x1, .f32⟩ : BufTy).Contents (Elt F) → (⟨S50000x1, .f32⟩ : BufTy).Contents (Elt F)),
    nullary main_cst_103 (constant S_ .f32 0x3F800000#32),
    unary main_cst_103 main_v525 (broadcastInDim S50000x1 ![] bcast_S_S50000x1 : (⟨S_, .f32⟩ : BufTy).Contents (Elt F) → (⟨S50000x1, .f32⟩ : BufTy).Contents (Elt F)),
    binary main_v524 main_v525 main_v526 (maximumf : (⟨S50000x1, .f32⟩ : BufTy).Contents (Elt F) → (⟨S50000x1, .f32⟩ : BufTy).Contents (Elt F) → (⟨S50000x1, .f32⟩ : BufTy).Contents (Elt F)),
    unary main_v526 main_v527 (broadcastInDim S50000x32 ![0, 1] bcast_S50000x1_S50000x32_0_1 : (⟨S50000x1, .f32⟩ : BufTy).Contents (Elt F) → (⟨S50000x32, .f32⟩ : BufTy).Contents (Elt F)),
    binary main_v520 main_v527 main_v528 (Host.divf : (⟨S50000x32, .f32⟩ : BufTy).Contents (Elt F) → (⟨S50000x32, .f32⟩ : BufTy).Contents (Elt F) → (⟨S50000x32, .f32⟩ : BufTy).Contents (Elt F)),
    binary main_v460 main_v475 main_v529 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    unary main_v477 main_v530 (broadcastInDim S1x32 ![1] bcast_S32_S1x32_1 : (⟨S32, .f32⟩ : BufTy).Contents (Elt F) → (⟨S1x32, .f32⟩ : BufTy).Contents (Elt F)),
    unary main_v530 main_v531 (broadcastInDim S50000x32 ![0, 1] bcast_S1x32_S50000x32_0_1 : (⟨S1x32, .f32⟩ : BufTy).Contents (Elt F) → (⟨S50000x32, .f32⟩ : BufTy).Contents (Elt F)),
    binary main_v529 main_v531 main_v532 (addf : (⟨S50000x32, .f32⟩ : BufTy).Contents (Elt F) → (⟨S50000x32, .f32⟩ : BufTy).Contents (Elt F) → (⟨S50000x32, .f32⟩ : BufTy).Contents (Elt F)),
    binary main_v532 main_v528 main_v533 (addf : (⟨S50000x32, .f32⟩ : BufTy).Contents (Elt F) → (⟨S50000x32, .f32⟩ : BufTy).Contents (Elt F) → (⟨S50000x32, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S50000x32, .f32⟩) main_call14_v0) (broadcastInDim S50000x32 ![] bcast_S_S50000x32),
    TRef.binary (TRef.of (T := ⟨S50000x32, .f32⟩) main_v533) (TRef.of (T := ⟨S50000x32, .f32⟩) main_call14_v0) (TRef.of (T := ⟨S50000x32, .f32⟩) main_v534) maximumf,
    nullary main_cst_104 (constant S_ .f32 0x3F800000#32),
    unary main_cst_104 main_v535 (broadcastInDim S1600000x1 ![] bcast_S_S1600000x1 : (⟨S_, .f32⟩ : BufTy).Contents (Elt F) → (⟨S1600000x1, .f32⟩ : BufTy).Contents (Elt F)),
    binary main_v535 main_v515 main_v536 (subf : (⟨S1600000x1, .f32⟩ : BufTy).Contents (Elt F) → (⟨S1600000x1, .f32⟩ : BufTy).Contents (Elt F) → (⟨S1600000x1, .f32⟩ : BufTy).Contents (Elt F)),
    binary main_v515 main_v536 main_v537 (mulf : (⟨S1600000x1, .f32⟩ : BufTy).Contents (Elt F) → (⟨S1600000x1, .f32⟩ : BufTy).Contents (Elt F) → (⟨S1600000x1, .f32⟩ : BufTy).Contents (Elt F)),
    nullary main_cst_105 (constant S_ .f32 0x00000000#32),
    binary main_v537 main_cst_105 main_v538 ((fun x v => Host.reduceAdd x v reducesTo_S1600000x1_S_d0_1 h_S_) : (⟨S1600000x1, .f32⟩ : BufTy).Contents (Elt F) → (⟨S_, .f32⟩ : BufTy).Contents (Elt F) → (⟨S_, .f32⟩ : BufTy).Contents (Elt F)),
    nullary main_cst_106 (constant S_ .f32 0x49C35000#32),
    binary main_v538 main_cst_106 main_v539 (Host.divf : (⟨S_, .f32⟩ : BufTy).Contents (Elt F) → (⟨S_, .f32⟩ : BufTy).Contents (Elt F) → (⟨S_, .f32⟩ : BufTy).Contents (Elt F)),
    unary main_arg4 main_v540 ((extractStridedSlice S1x65x32 ![7, 0, 0] · slices_S8x65x32_S1x65x32_7_0_0) : (⟨S8x65x32, .f32⟩ : BufTy).Contents (Elt F) → (⟨S1x65x32, .f32⟩ : BufTy).Contents (Elt F)),
    reshape main_v540 main_v541 rfl shapeCasts_S1x65x32_S65x32,
    unary main_arg5 main_v542 ((extractStridedSlice S1x32 ![7, 0] · slices_S8x32_S1x32_7_0) : (⟨S8x32, .f32⟩ : BufTy).Contents (Elt F) → (⟨S1x32, .f32⟩ : BufTy).Contents (Elt F)),
    reshape main_v542 main_v543 rfl shapeCasts_S1x32_S32,
    unary main_arg6 main_v544 ((extractStridedSlice S1x1x1 ![7, 0, 0] · slices_S8x1x1_S1x1x1_7_0_0) : (⟨S8x1x1, .f32⟩ : BufTy).Contents (Elt F) → (⟨S1x1x1, .f32⟩ : BufTy).Contents (Elt F)),
    reshape main_v544 main_v545 rfl shapeCasts_S1x1x1_S1x1,
    unary main_arg7 main_v546 ((extractStridedSlice S1x1 ![7, 0] · slices_S8x1_S1x1_7_0) : (⟨S8x1, .f32⟩ : BufTy).Contents (Elt F) → (⟨S1x1, .f32⟩ : BufTy).Contents (Elt F)),
    reshape main_v546 main_v547 rfl shapeCasts_S1x1_S1,
    unary main_arg8 main_v548 ((extractStridedSlice S1x32x32 ![7, 0, 0] · slices_S8x32x32_S1x32x32_7_0_0) : (⟨S8x32x32, .f32⟩ : BufTy).Contents (Elt F) → (⟨S1x32x32, .f32⟩ : BufTy).Contents (Elt F)),
    reshape main_v548 main_v549 rfl shapeCasts_S1x32x32_S32x32,
    unary main_arg9 main_v550 ((extractStridedSlice S1x32 ![7, 0] · slices_S8x32_S1x32_7_0) : (⟨S8x32, .f32⟩ : BufTy).Contents (Elt F) → (⟨S1x32, .f32⟩ : BufTy).Contents (Elt F)) ]

set_option maxRecDepth 8192 in
/-- The window is the straight line of its operations. -/
theorem main_part10_eq (c : Dev nD) : main_part10 (F := F) c = seq ops_part10 := rfl

set_option maxRecDepth 8192 in
/-- Each operation touches TensorCore buffers only. -/
theorem ops_part10_sub : (ops_part10 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., binary_bufs_sub .., nullary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub ..⟩

/-- The buffers the window writes: one per operation. -/
abbrev ops_part10_W : List (Ref sig .tc) := [main_v500, main_v501, main_v502, main_v503, main_v504, main_call13_cst, main_call13_v0, main_v505, main_v506, main_v507, main_v508, main_v509, main_v510, main_v511, main_cst_98, main_v512, main_v513, main_cst_99, main_v514, main_v515, main_v516, main_v517, main_cst_100, main_v518, main_v519, main_v520, main_cst_101, main_v521, main_cst_102, main_v522, main_v523, main_v524, main_cst_103, main_v525, main_v526, main_v527, main_v528, main_v529, main_v530, main_v531, main_v532, main_v533, main_call14_cst, main_call14_v0, main_v534, main_cst_104, main_v535, main_v536, main_v537, main_cst_105, main_v538, main_cst_106, main_v539, main_v540, main_v541, main_v542, main_v543, main_v544, main_v545, main_v546, main_v547, main_v548, main_v549, main_v550]

set_option maxRecDepth 8192 in
/-- Every operation writes its own result buffer only, and that buffer is in the list. -/
theorem ops_part10_writes : (ops_part10 : List (HloOp τ sig (Elt F))).Forall fun op => op.writes ⊆ (ops_part10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- No operation allocates a buffer. -/
theorem ops_part10_fresh : ∀ op ∈ (ops_part10 : List (HloOp τ sig (Elt F))), op.fresh = ∅ := by
  intro _ h; (repeat (cases h with | head => rfl | tail _ h => ?_)); exact nomatch h

end Cert.ReferenceIdeal.Windows

end
-- ==== Proof.RefWindows.Part11.lean ====
/- The reference program's @main is printed in windows `main_part0` … `main_part12`; this module lists window 11's host
   operations (a called function's three operations in its call's place), says that the window is the straight line of
   them, that each touches TensorCore buffers only, which buffers the window writes (one per operation, all distinct)
   and that every operation writes inside that list, and that none allocates a buffer. -/
import proofs.«415750_j38869454029182_1_alg».proof.Proof.Gen.ReferenceIdeal
import Idealize.ShloMosaic.Lib.StableHlo.Run

noncomputable section

namespace Cert.ReferenceIdeal.Windows

open Cert.ReferenceIdeal Cert.ReferenceIdeal.Gen Idealize.ShloMosaic Idealize.ShloMosaic.TcCoe Idealize.SL.Sem Idealize.ShloMosaic.StableHlo

variable {F : FTy → Type} [FloatOps F]

/-- Window 11's 62 operations, in order. -/
abbrev ops_part11 : List (HloOp τ sig (Elt F)) :=
  [ reshape main_v550 main_v551 rfl shapeCasts_S1x32_S32,
    nullary main_c_107 (constantI S_ 32 0#32),
    unary main_c_107 main_v552 (broadcastInDim S1600000 ![] bcast_S_S1600000 : (⟨S_, .i32⟩ : BufTy).Contents (Elt F) → (⟨S1600000, .i32⟩ : BufTy).Contents (Elt F)),
    binary main_v1 main_v552 main_v553 (cmpi .slt : (⟨S1600000, .i32⟩ : BufTy).Contents (Elt F) → (⟨S1600000, .i32⟩ : BufTy).Contents (Elt F) → (⟨S1600000, .i1⟩ : BufTy).Contents (Elt F)),
    nullary main_c_108 (constantI S_ 32 50000#32),
    unary main_c_108 main_v554 (broadcastInDim S1600000 ![] bcast_S_S1600000 : (⟨S_, .i32⟩ : BufTy).Contents (Elt F) → (⟨S1600000, .i32⟩ : BufTy).Contents (Elt F)),
    binary main_v1 main_v554 main_v555 (addi : (⟨S1600000, .i32⟩ : BufTy).Contents (Elt F) → (⟨S1600000, .i32⟩ : BufTy).Contents (Elt F) → (⟨S1600000, .i32⟩ : BufTy).Contents (Elt F)),
    ternary main_v553 main_v555 main_v1 main_v556 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v556 main_v557 (broadcastInDim S1600000x1 ![0] bcast_S1600000_S1600000x1_0 : (⟨S1600000, .i32⟩ : BufTy).Contents (Elt F) → (⟨S1600000x1, .i32⟩ : BufTy).Contents (Elt F)),
    binary main_v534 main_v557 main_v558 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    nullary main_c_109 (constantI S_ 32 0#32),
    unary main_c_109 main_v559 (broadcastInDim S1600000 ![] bcast_S_S1600000 : (⟨S_, .i32⟩ : BufTy).Contents (Elt F) → (⟨S1600000, .i32⟩ : BufTy).Contents (Elt F)),
    binary main_v3 main_v559 main_v560 (cmpi .slt : (⟨S1600000, .i32⟩ : BufTy).Contents (Elt F) → (⟨S1600000, .i32⟩ : BufTy).Contents (Elt F) → (⟨S1600000, .i1⟩ : BufTy).Contents (Elt F)),
    nullary main_c_110 (constantI S_ 32 50000#32),
    unary main_c_110 main_v561 (broadcastInDim S1600000 ![] bcast_S_S1600000 : (⟨S_, .i32⟩ : BufTy).Contents (Elt F) → (⟨S1600000, .i32⟩ : BufTy).Contents (Elt F)),
    binary main_v3 main_v561 main_v562 (addi : (⟨S1600000, .i32⟩ : BufTy).Contents (Elt F) → (⟨S1600000, .i32⟩ : BufTy).Contents (Elt F) → (⟨S1600000, .i32⟩ : BufTy).Contents (Elt F)),
    ternary main_v560 main_v562 main_v3 main_v563 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v563 main_v564 (broadcastInDim S1600000x1 ![0] bcast_S1600000_S1600000x1_0 : (⟨S1600000, .i32⟩ : BufTy).Contents (Elt F) → (⟨S1600000x1, .i32⟩ : BufTy).Contents (Elt F)),
    binary main_v534 main_v564 main_v565 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    nullary main_c_111 (constantI S_ 32 0#32),
    unary main_c_111 main_v566 (broadcastInDim S1600000 ![] bcast_S_S1600000 : (⟨S_, .i32⟩ : BufTy).Contents (Elt F) → (⟨S1600000, .i32⟩ : BufTy).Contents (Elt F)),
    binary main_v1 main_v566 main_v567 (cmpi .slt : (⟨S1600000, .i32⟩ : BufTy).Contents (Elt F) → (⟨S1600000, .i32⟩ : BufTy).Contents (Elt F) → (⟨S1600000, .i1⟩ : BufTy).Contents (Elt F)),
    nullary main_c_112 (constantI S_ 32 50000#32),
    unary main_c_112 main_v568 (broadcastInDim S1600000 ![] bcast_S_S1600000 : (⟨S_, .i32⟩ : BufTy).Contents (Elt F) → (⟨S1600000, .i32⟩ : BufTy).Contents (Elt F)),
    binary main_v1 main_v568 main_v569 (addi : (⟨S1600000, .i32⟩ : BufTy).Contents (Elt F) → (⟨S1600000, .i32⟩ : BufTy).Contents (Elt F) → (⟨S1600000, .i32⟩ : BufTy).Contents (Elt F)),
    ternary main_v567 main_v569 main_v1 main_v570 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v570 main_v571 (broadcastInDim S1600000x1 ![0] bcast_S1600000_S1600000x1_0 : (⟨S1600000, .i32⟩ : BufTy).Contents (Elt F) → (⟨S1600000x1, .i32⟩ : BufTy).Contents (Elt F)),
    binary main_v534 main_v571 main_v572 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    binary main_v565 main_v572 main_v573 (subf : (⟨S1600000x32, .f32⟩ : BufTy).Contents (Elt F) → (⟨S1600000x32, .f32⟩ : BufTy).Contents (Elt F) → (⟨S1600000x32, .f32⟩ : BufTy).Contents (Elt F)),
    nary ![main_v558, main_v573, main_arg1] main_v574 (fun u => concatenate S1600000x65 1 [⟨S1600000x32, u 0⟩, ⟨S1600000x32, u 1⟩, ⟨S1600000x1, u 2⟩] concatenates_S1600000x32_S1600000x32_S1600000x1_S1600000x65_d1),
    binary main_v574 main_v541 main_v575 ((fun l r => Host.dotGeneral dot_S1600000x65_S65x32_S1600000x32_1_0_0_1_n_n none l r) : (⟨S1600000x65, .f32⟩ : BufTy).Contents (Elt F) → (⟨S65x32, .f32⟩ : BufTy).Contents (Elt F) → (⟨S1600000x32, .f32⟩ : BufTy).Contents (Elt F)),
    unary main_v543 main_v576 (broadcastInDim S1x32 ![1] bcast_S32_S1x32_1 : (⟨S32, .f32⟩ : BufTy).Contents (Elt F) → (⟨S1x32, .f32⟩ : BufTy).Contents (Elt F)),
    unary main_v576 main_v577 (broadcastInDim S1600000x32 ![0, 1] bcast_S1x32_S1600000x32_0_1 : (⟨S1x32, .f32⟩ : BufTy).Contents (Elt F) → (⟨S1600000x32, .f32⟩ : BufTy).Contents (Elt F)),
    binary main_v575 main_v577 main_v578 (addf : (⟨S1600000x32, .f32⟩ : BufTy).Contents (Elt F) → (⟨S1600000x32, .f32⟩ : BufTy).Contents (Elt F) → (⟨S1600000x32, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S1600000x32, .f32⟩) main_call15_v0) (broadcastInDim S1600000x32 ![] bcast_S_S1600000x32),
    TRef.binary (TRef.of (T := ⟨S1600000x32, .f32⟩) main_v578) (TRef.of (T := ⟨S1600000x32, .f32⟩) main_call15_v0) (TRef.of (T := ⟨S1600000x32, .f32⟩) main_v579) maximumf,
    binary main_arg1 main_v545 main_v580 ((fun l r => Host.dotGeneral dot_S1600000x1_S1x1_S1600000x1_1_0_0_1_n_n none l r) : (⟨S1600000x1, .f32⟩ : BufTy).Contents (Elt F) → (⟨S1x1, .f32⟩ : BufTy).Contents (Elt F) → (⟨S1600000x1, .f32⟩ : BufTy).Contents (Elt F)),
    unary main_v547 main_v581 (broadcastInDim S1x1 ![1] bcast_S1_S1x1_1 : (⟨S1, .f32⟩ : BufTy).Contents (Elt F) → (⟨S1x1, .f32⟩ : BufTy).Contents (Elt F)),
    unary main_v581 main_v582 (broadcastInDim S1600000x1 ![0, 1] bcast_S1x1_S1600000x1_0_1 : (⟨S1x1, .f32⟩ : BufTy).Contents (Elt F) → (⟨S1600000x1, .f32⟩ : BufTy).Contents (Elt F)),
    binary main_v580 main_v582 main_v583 (addf : (⟨S1600000x1, .f32⟩ : BufTy).Contents (Elt F) → (⟨S1600000x1, .f32⟩ : BufTy).Contents (Elt F) → (⟨S1600000x1, .f32⟩ : BufTy).Contents (Elt F)),
    unary main_v583 main_v584 (Host.negf : (⟨S1600000x1, .f32⟩ : BufTy).Contents (Elt F) → (⟨S1600000x1, .f32⟩ : BufTy).Contents (Elt F)),
    unary main_v584 main_v585 (Host.exp : (⟨S1600000x1, .f32⟩ : BufTy).Contents (Elt F) → (⟨S1600000x1, .f32⟩ : BufTy).Contents (Elt F)),
    nullary main_cst_113 (constant S_ .f32 0x3F800000#32),
    unary main_cst_113 main_v586 (broadcastInDim S1600000x1 ![] bcast_S_S1600000x1 : (⟨S_, .f32⟩ : BufTy).Contents (Elt F) → (⟨S1600000x1, .f32⟩ : BufTy).Contents (Elt F)),
    binary main_v586 main_v585 main_v587 (addf : (⟨S1600000x1, .f32⟩ : BufTy).Contents (Elt F) → (⟨S1600000x1, .f32⟩ : BufTy).Contents (Elt F) → (⟨S1600000x1, .f32⟩ : BufTy).Contents (Elt F)),
    nullary main_cst_114 (constant S_ .f32 0x3F800000#32),
    unary main_cst_114 main_v588 (broadcastInDim S1600000x1 ![] bcast_S_S1600000x1 : (⟨S_, .f32⟩ : BufTy).Contents (Elt F) → (⟨S1600000x1, .f32⟩ : BufTy).Contents (Elt F)),
    binary main_v588 main_v587 main_v589 (Host.divf : (⟨S1600000x1, .f32⟩ : BufTy).Contents (Elt F) → (⟨S1600000x1, .f32⟩ : BufTy).Contents (Elt F) → (⟨S1600000x1, .f32⟩ : BufTy).Contents (Elt F)),
    unary main_v589 main_v590 (broadcastInDim S1600000x32 ![0, 1] bcast_S1600000x1_S1600000x32_0_1 : (⟨S1600000x1, .f32⟩ : BufTy).Contents (Elt F) → (⟨S1600000x32, .f32⟩ : BufTy).Contents (Elt F)),
    binary main_v579 main_v590 main_v591 (mulf : (⟨S1600000x32, .f32⟩ : BufTy).Contents (Elt F) → (⟨S1600000x32, .f32⟩ : BufTy).Contents (Elt F) → (⟨S1600000x32, .f32⟩ : BufTy).Contents (Elt F)),
    nullary main_cst_115 (constant S_ .f32 0x00000000#32),
    unary main_cst_115 main_v592 (broadcastInDim S50000x32 ![] bcast_S_S50000x32 : (⟨S_, .f32⟩ : BufTy).Contents (Elt F) → (⟨S50000x32, .f32⟩ : BufTy).Contents (Elt F)),
    unary main_v3 main_v593 (broadcastInDim S1600000x1 ![0] bcast_S1600000_S1600000x1_0 : (⟨S1600000, .i32⟩ : BufTy).Contents (Elt F) → (⟨S1600000x1, .i32⟩ : BufTy).Contents (Elt F)),
    ternary main_v592 main_v593 main_v591 main_v594 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)),
    nullary main_cst_116 (constant S_ .f32 0x3F800000#32),
    unary main_cst_116 main_v595 (broadcastInDim S1600000x1 ![] bcast_S_S1600000x1 : (⟨S_, .f32⟩ : BufTy).Contents (Elt F) → (⟨S1600000x1, .f32⟩ : BufTy).Contents (Elt F)),
    nullary main_cst_117 (constant S_ .f32 0x00000000#32),
    unary main_cst_117 main_v596 (broadcastInDim S50000x1 ![] bcast_S_S50000x1 : (⟨S_, .f32⟩ : BufTy).Contents (Elt F) → (⟨S50000x1, .f32⟩ : BufTy).Contents (Elt F)),
    unary main_v3 main_v597 (broadcastInDim S1600000x1 ![0] bcast_S1600000_S1600000x1_0 : (⟨S1600000, .i32⟩ : BufTy).Contents (Elt F) → (⟨S1600000x1, .i32⟩ : BufTy).Contents (Elt F)),
    ternary main_v596 main_v597 main_v595 main_v598 ((fun x i u => Host.scatterAdd scatter_S50000x1_S1600000x1_S1600000x1_1_0_0_1 x i u) : (⟨S50000x1, .f32⟩ : BufTy).Contents (Elt F) → (⟨S1600000x1, .i32⟩ : BufTy).Contents (Elt F) → (⟨S1600000x1, .f32⟩ : BufTy).Contents (Elt F) → (⟨S50000x1, .f32⟩ : BufTy).Contents (Elt F)),
    nullary main_cst_118 (constant S_ .f32 0x3F800000#32) ]

set_option maxRecDepth 8192 in
/-- The window is the straight line of its operations. -/
theorem main_part11_eq (c : Dev nD) : main_part11 (F := F) c = seq ops_part11 := rfl

set_option maxRecDepth 8192 in
/-- Each operation touches TensorCore buffers only. -/
theorem ops_part11_sub : (ops_part11 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub ..⟩

/-- The buffers the window writes: one per operation. -/
abbrev ops_part11_W : List (Ref sig .tc) := [main_v551, main_c_107, main_v552, main_v553, main_c_108, main_v554, main_v555, main_v556, main_v557, main_v558, main_c_109, main_v559, main_v560, main_c_110, main_v561, main_v562, main_v563, main_v564, main_v565, main_c_111, main_v566, main_v567, main_c_112, main_v568, main_v569, main_v570, main_v571, main_v572, main_v573, main_v574, main_v575, main_v576, main_v577, main_v578, main_call15_cst, main_call15_v0, main_v579, main_v580, main_v581, main_v582, main_v583, main_v584, main_v585, main_cst_113, main_v586, main_v587, main_cst_114, main_v588, main_v589, main_v590, main_v591, main_cst_115, main_v592, main_v593, main_v594, main_cst_116, main_v595, main_cst_117, main_v596, main_v597, main_v598, main_cst_118]

set_option maxRecDepth 8192 in
/-- Every operation writes its own result buffer only, and that buffer is in the list. -/
theorem ops_part11_writes : (ops_part11 : List (HloOp τ sig (Elt F))).Forall fun op => op.writes ⊆ (ops_part11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- No operation allocates a buffer. -/
theorem ops_part11_fresh : ∀ op ∈ (ops_part11 : List (HloOp τ sig (Elt F))), op.fresh = ∅ := by
  intro _ h; (repeat (cases h with | head => rfl | tail _ h => ?_)); exact nomatch h

end Cert.ReferenceIdeal.Windows

end
-- ==== Proof.RefWindows.Part12.lean ====
/- The reference program's @main is printed in windows `main_part0` … `main_part12`; this module lists window 12's host
   operations (a called function's three operations in its call's place), says that the window is the straight line of
   them, that each touches TensorCore buffers only, which buffers the window writes (one per operation, all distinct)
   and that every operation writes inside that list, and that none allocates a buffer. -/
import proofs.«415750_j38869454029182_1_alg».proof.Proof.Gen.ReferenceIdeal
import Idealize.ShloMosaic.Lib.StableHlo.Run

noncomputable section

namespace Cert.ReferenceIdeal.Windows

open Cert.ReferenceIdeal Cert.ReferenceIdeal.Gen Idealize.ShloMosaic Idealize.ShloMosaic.TcCoe Idealize.SL.Sem Idealize.ShloMosaic.StableHlo

variable {F : FTy → Type} [FloatOps F]

/-- Window 12's 20 operations, in order. -/
abbrev ops_part12 : List (HloOp τ sig (Elt F)) :=
  [ unary main_cst_118 main_v599 (broadcastInDim S50000x1 ![] bcast_S_S50000x1 : (⟨S_, .f32⟩ : BufTy).Contents (Elt F) → (⟨S50000x1, .f32⟩ : BufTy).Contents (Elt F)),
    binary main_v598 main_v599 main_v600 (maximumf : (⟨S50000x1, .f32⟩ : BufTy).Contents (Elt F) → (⟨S50000x1, .f32⟩ : BufTy).Contents (Elt F) → (⟨S50000x1, .f32⟩ : BufTy).Contents (Elt F)),
    unary main_v600 main_v601 (broadcastInDim S50000x32 ![0, 1] bcast_S50000x1_S50000x32_0_1 : (⟨S50000x1, .f32⟩ : BufTy).Contents (Elt F) → (⟨S50000x32, .f32⟩ : BufTy).Contents (Elt F)),
    binary main_v594 main_v601 main_v602 (Host.divf : (⟨S50000x32, .f32⟩ : BufTy).Contents (Elt F) → (⟨S50000x32, .f32⟩ : BufTy).Contents (Elt F) → (⟨S50000x32, .f32⟩ : BufTy).Contents (Elt F)),
    binary main_v534 main_v549 main_v603 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    unary main_v551 main_v604 (broadcastInDim S1x32 ![1] bcast_S32_S1x32_1 : (⟨S32, .f32⟩ : BufTy).Contents (Elt F) → (⟨S1x32, .f32⟩ : BufTy).Contents (Elt F)),
    unary main_v604 main_v605 (broadcastInDim S50000x32 ![0, 1] bcast_S1x32_S50000x32_0_1 : (⟨S1x32, .f32⟩ : BufTy).Contents (Elt F) → (⟨S50000x32, .f32⟩ : BufTy).Contents (Elt F)),
    binary main_v603 main_v605 main_v606 (addf : (⟨S50000x32, .f32⟩ : BufTy).Contents (Elt F) → (⟨S50000x32, .f32⟩ : BufTy).Contents (Elt F) → (⟨S50000x32, .f32⟩ : BufTy).Contents (Elt F)),
    binary main_v606 main_v602 main_v607 (addf : (⟨S50000x32, .f32⟩ : BufTy).Contents (Elt F) → (⟨S50000x32, .f32⟩ : BufTy).Contents (Elt F) → (⟨S50000x32, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S50000x32, .f32⟩) main_call16_v0) (broadcastInDim S50000x32 ![] bcast_S_S50000x32),
    TRef.binary (TRef.of (T := ⟨S50000x32, .f32⟩) main_v607) (TRef.of (T := ⟨S50000x32, .f32⟩) main_call16_v0) (TRef.of (T := ⟨S50000x32, .f32⟩) main_v608) maximumf,
    nullary main_cst_119 (constant S_ .f32 0x3F800000#32),
    unary main_cst_119 main_v609 (broadcastInDim S1600000x1 ![] bcast_S_S1600000x1 : (⟨S_, .f32⟩ : BufTy).Contents (Elt F) → (⟨S1600000x1, .f32⟩ : BufTy).Contents (Elt F)),
    binary main_v609 main_v589 main_v610 (subf : (⟨S1600000x1, .f32⟩ : BufTy).Contents (Elt F) → (⟨S1600000x1, .f32⟩ : BufTy).Contents (Elt F) → (⟨S1600000x1, .f32⟩ : BufTy).Contents (Elt F)),
    binary main_v589 main_v610 main_v611 (mulf : (⟨S1600000x1, .f32⟩ : BufTy).Contents (Elt F) → (⟨S1600000x1, .f32⟩ : BufTy).Contents (Elt F) → (⟨S1600000x1, .f32⟩ : BufTy).Contents (Elt F)),
    nullary main_cst_120 (constant S_ .f32 0x00000000#32),
    binary main_v611 main_cst_120 main_v612 ((fun x v => Host.reduceAdd x v reducesTo_S1600000x1_S_d0_1 h_S_) : (⟨S1600000x1, .f32⟩ : BufTy).Contents (Elt F) → (⟨S_, .f32⟩ : BufTy).Contents (Elt F) → (⟨S_, .f32⟩ : BufTy).Contents (Elt F)),
    nullary main_cst_121 (constant S_ .f32 0x49C35000#32),
    binary main_v612 main_cst_121 main_v613 (Host.divf : (⟨S_, .f32⟩ : BufTy).Contents (Elt F) → (⟨S_, .f32⟩ : BufTy).Contents (Elt F) → (⟨S_, .f32⟩ : BufTy).Contents (Elt F)) ]

set_option maxRecDepth 8192 in
/-- The window is the straight line of its operations. -/
theorem main_part12_eq (c : Dev nD) : main_part12 (F := F) c = seq ops_part12 := rfl

set_option maxRecDepth 8192 in
/-- Each operation touches TensorCore buffers only. -/
theorem ops_part12_sub : (ops_part12 : List (HloOp τ sig (Elt F))).Forall fun op => op.bufs ⊆ tcRefs τ sig :=
  ⟨unary_bufs_sub .., binary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., binary_bufs_sub .., nullary_bufs_sub .., binary_bufs_sub ..⟩

/-- The buffers the window writes: one per operation. -/
abbrev ops_part12_W : List (Ref sig .tc) := [main_v599, main_v600, main_v601, main_v602, main_v603, main_v604, main_v605, main_v606, main_v607, main_call16_cst, main_call16_v0, main_v608, main_cst_119, main_v609, main_v610, main_v611, main_cst_120, main_v612, main_cst_121, main_v613]

set_option maxRecDepth 8192 in
/-- Every operation writes its own result buffer only, and that buffer is in the list. -/
theorem ops_part12_writes : (ops_part12 : List (HloOp τ sig (Elt F))).Forall fun op => op.writes ⊆ (ops_part12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- No operation allocates a buffer. -/
theorem ops_part12_fresh : ∀ op ∈ (ops_part12 : List (HloOp τ sig (Elt F))), op.fresh = ∅ := by
  intro _ h; (repeat (cases h with | head => rfl | tail _ h => ?_)); exact nomatch h

end Cert.ReferenceIdeal.Windows

end
-- ==== Proof.RefRun.lean ====
/-
  The reference program's run, read window by window.

  The reference's @main is one straight line of 772 host operations (a called function's operations standing in its
  call's place), printed in thirteen windows.  Each window is the straight line of its own operations (the window
  modules), so @main is the straight line of the thirteen lists appended; every operation touches TensorCore buffers only
  and allocates nothing, so every weakly fair execution terminates with each buffer at the fold of the operations'
  results over its launch contents.  That fold is taken one window at a time: a buffer no operation of a window writes
  passes through the window unchanged.  No window writes an argument, so the eleven arguments end as launched.  The second
  result, the side loss, is written in window 1 from the angles (an argument), the first gate weight and the first gate
  bias (two slices of arguments, made in window 0), and no later window writes it: it ends at the composed term
  `sideLossTerm` of those three — the sum over all edges of `g · (1 − g)`, `g = 1 / (1 + e^(−(a · w + b)))`, divided by the
  edge count, all in the host's own operations.  Everything else the program computes (the eight message-passing layers
  with their gathers and scatter-adds) reaches neither result.
-/
import proofs.«415750_j38869454029182_1_alg».proof.Proof.RefWindows.Part0
import proofs.«415750_j38869454029182_1_alg».proof.Proof.RefWindows.Part1
import proofs.«415750_j38869454029182_1_alg».proof.Proof.RefWindows.Part2
import proofs.«415750_j38869454029182_1_alg».proof.Proof.RefWindows.Part3
import proofs.«415750_j38869454029182_1_alg».proof.Proof.RefWindows.Part4
import proofs.«415750_j38869454029182_1_alg».proof.Proof.RefWindows.Part5
import proofs.«415750_j38869454029182_1_alg».proof.Proof.RefWindows.Part6
import proofs.«415750_j38869454029182_1_alg».proof.Proof.RefWindows.Part7
import proofs.«415750_j38869454029182_1_alg».proof.Proof.RefWindows.Part8
import proofs.«415750_j38869454029182_1_alg».proof.Proof.RefWindows.Part9
import proofs.«415750_j38869454029182_1_alg».proof.Proof.RefWindows.Part10
import proofs.«415750_j38869454029182_1_alg».proof.Proof.RefWindows.Part11
import proofs.«415750_j38869454029182_1_alg».proof.Proof.RefWindows.Part12
import Idealize.ShloMosaic.Lib.StableHlo.Run
import Idealize.ShloMosaic.Lib.Pipeline.Frame

noncomputable section

namespace Cert.ReferenceIdeal.Windows

open Cert.ReferenceIdeal Cert.ReferenceIdeal.Gen Idealize.ShloMosaic Idealize.ShloMosaic.TcCoe Idealize.SL.Sem Idealize.ShloMosaic.StableHlo

variable {F : FTy → Type} [FloatOps F]

/-! ## @main as one straight line -/

/-- @main's 772 operations, in order: the thirteen windows appended. -/
abbrev ops : List (HloOp τ sig (Elt F)) :=
  ops_part0 ++ (ops_part1 ++ (ops_part2 ++ (ops_part3 ++ (ops_part4 ++ (ops_part5 ++ (ops_part6 ++ (ops_part7 ++ (ops_part8 ++ (ops_part9 ++ (ops_part10 ++ (ops_part11 ++ (ops_part12))))))))))))

set_option maxRecDepth 8192 in
/-- @main runs its windows in order, and each is the straight line of its operations. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only: it is in one of the windows. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h, List.forall_iff_forall_mem.mp ops_part6_sub op h, List.forall_iff_forall_mem.mp ops_part7_sub op h, List.forall_iff_forall_mem.mp ops_part8_sub op h, List.forall_iff_forall_mem.mp ops_part9_sub op h, List.forall_iff_forall_mem.mp ops_part10_sub op h, List.forall_iff_forall_mem.mp ops_part11_sub op h, List.forall_iff_forall_mem.mp ops_part12_sub op h]

/-- No operation allocates a buffer. -/
theorem ops_fresh : ∀ op ∈ (ops : List (HloOp τ sig (Elt F))), op.fresh = ∅ := by
  intro op h
  simp only [ops, List.mem_append] at h
  rcases h with h | h | h | h | h | h | h | h | h | h | h | h | h
  exacts [ops_part0_fresh op h, ops_part1_fresh op h, ops_part2_fresh op h, ops_part3_fresh op h, ops_part4_fresh op h, ops_part5_fresh op h, ops_part6_fresh op h, ops_part7_fresh op h, ops_part8_fresh op h, ops_part9_fresh op h, ops_part10_fresh op h, ops_part11_fresh op h, ops_part12_fresh op h]

/-! ## The buffer contents, window by window -/

/-- The buffer contents before the first window. -/
def val0 (V0 : Valuation τ sig (Elt F)) : Valuation τ sig (Elt F) := V0
/-- The buffer contents after window 0. -/
def val1 (V0 : Valuation τ sig (Elt F)) : Valuation τ sig (Elt F) := after ops_part0 (val0 V0)
/-- A buffer window 0 does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
/-- The buffer contents after window 1. -/
def val2 (V0 : Valuation τ sig (Elt F)) : Valuation τ sig (Elt F) := after ops_part1 (val1 V0)
/-- A buffer window 1 does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
/-- The buffer contents after window 2. -/
def val3 (V0 : Valuation τ sig (Elt F)) : Valuation τ sig (Elt F) := after ops_part2 (val2 V0)
/-- A buffer window 2 does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
/-- The buffer contents after window 3. -/
def val4 (V0 : Valuation τ sig (Elt F)) : Valuation τ sig (Elt F) := after ops_part3 (val3 V0)
/-- A buffer window 3 does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
/-- The buffer contents after window 4. -/
def val5 (V0 : Valuation τ sig (Elt F)) : Valuation τ sig (Elt F) := after ops_part4 (val4 V0)
/-- A buffer window 4 does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
/-- The buffer contents after window 5. -/
def val6 (V0 : Valuation τ sig (Elt F)) : Valuation τ sig (Elt F) := after ops_part5 (val5 V0)
/-- A buffer window 5 does not write keeps its contents through it. -/
theorem val6_keep (V0 : Valuation τ sig (Elt F)) (r : Ref sig .tc) (h : r ∉ ops_part5_W) :
    val6 V0 (Proc.devRef .tc r) = val5 V0 (Proc.devRef .tc r) :=
  after_of_writes_sub ops_part5 _ ops_part5_writes h
/-- The buffer contents after window 6. -/
def val7 (V0 : Valuation τ sig (Elt F)) : Valuation τ sig (Elt F) := after ops_part6 (val6 V0)
/-- A buffer window 6 does not write keeps its contents through it. -/
theorem val7_keep (V0 : Valuation τ sig (Elt F)) (r : Ref sig .tc) (h : r ∉ ops_part6_W) :
    val7 V0 (Proc.devRef .tc r) = val6 V0 (Proc.devRef .tc r) :=
  after_of_writes_sub ops_part6 _ ops_part6_writes h
/-- The buffer contents after window 7. -/
def val8 (V0 : Valuation τ sig (Elt F)) : Valuation τ sig (Elt F) := after ops_part7 (val7 V0)
/-- A buffer window 7 does not write keeps its contents through it. -/
theorem val8_keep (V0 : Valuation τ sig (Elt F)) (r : Ref sig .tc) (h : r ∉ ops_part7_W) :
    val8 V0 (Proc.devRef .tc r) = val7 V0 (Proc.devRef .tc r) :=
  after_of_writes_sub ops_part7 _ ops_part7_writes h
/-- The buffer contents after window 8. -/
def val9 (V0 : Valuation τ sig (Elt F)) : Valuation τ sig (Elt F) := after ops_part8 (val8 V0)
/-- A buffer window 8 does not write keeps its contents through it. -/
theorem val9_keep (V0 : Valuation τ sig (Elt F)) (r : Ref sig .tc) (h : r ∉ ops_part8_W) :
    val9 V0 (Proc.devRef .tc r) = val8 V0 (Proc.devRef .tc r) :=
  after_of_writes_sub ops_part8 _ ops_part8_writes h
/-- The buffer contents after window 9. -/
def val10 (V0 : Valuation τ sig (Elt F)) : Valuation τ sig (Elt F) := after ops_part9 (val9 V0)
/-- A buffer window 9 does not write keeps its contents through it. -/
theorem val10_keep (V0 : Valuation τ sig (Elt F)) (r : Ref sig .tc) (h : r ∉ ops_part9_W) :
    val10 V0 (Proc.devRef .tc r) = val9 V0 (Proc.devRef .tc r) :=
  after_of_writes_sub ops_part9 _ ops_part9_writes h
/-- The buffer contents after window 10. -/
def val11 (V0 : Valuation τ sig (Elt F)) : Valuation τ sig (Elt F) := after ops_part10 (val10 V0)
/-- A buffer window 10 does not write keeps its contents through it. -/
theorem val11_keep (V0 : Valuation τ sig (Elt F)) (r : Ref sig .tc) (h : r ∉ ops_part10_W) :
    val11 V0 (Proc.devRef .tc r) = val10 V0 (Proc.devRef .tc r) :=
  after_of_writes_sub ops_part10 _ ops_part10_writes h
/-- The buffer contents after window 11. -/
def val12 (V0 : Valuation τ sig (Elt F)) : Valuation τ sig (Elt F) := after ops_part11 (val11 V0)
/-- A buffer window 11 does not write keeps its contents through it. -/
theorem val12_keep (V0 : Valuation τ sig (Elt F)) (r : Ref sig .tc) (h : r ∉ ops_part11_W) :
    val12 V0 (Proc.devRef .tc r) = val11 V0 (Proc.devRef .tc r) :=
  after_of_writes_sub ops_part11 _ ops_part11_writes h
/-- The buffer contents after window 12. -/
def val13 (V0 : Valuation τ sig (Elt F)) : Valuation τ sig (Elt F) := after ops_part12 (val12 V0)
/-- A buffer window 12 does not write keeps its contents through it. -/
theorem val13_keep (V0 : Valuation τ sig (Elt F)) (r : Ref sig .tc) (h : r ∉ ops_part12_W) :
    val13 V0 (Proc.devRef .tc r) = val12 V0 (Proc.devRef .tc r) :=
  after_of_writes_sub ops_part12 _ ops_part12_writes h

/-- The contents after all of @main are the contents after the last window. -/
theorem after_ops (V0 : Valuation τ sig (Elt F)) : after ops V0 = val13 V0 := by
  simp only [ops, after_append]
  rfl

/-- A buffer no window writes ends as it began. -/
theorem val13_of_unwritten (V0 : Valuation τ sig (Elt F)) (r : Ref sig .tc) (h0 : r ∉ ops_part0_W) (h1 : r ∉ ops_part1_W) (h2 : r ∉ ops_part2_W) (h3 : r ∉ ops_part3_W) (h4 : r ∉ ops_part4_W) (h5 : r ∉ ops_part5_W) (h6 : r ∉ ops_part6_W) (h7 : r ∉ ops_part7_W) (h8 : r ∉ ops_part8_W) (h9 : r ∉ ops_part9_W) (h10 : r ∉ ops_part10_W) (h11 : r ∉ ops_part11_W) (h12 : r ∉ ops_part12_W) :
    val13 V0 (Proc.devRef .tc r) = V0 (Proc.devRef .tc r) :=
  (val13_keep V0 r h12).trans ((val12_keep V0 r h11).trans ((val11_keep V0 r h10).trans ((val10_keep V0 r h9).trans ((val9_keep V0 r h8).trans ((val8_keep V0 r h7).trans ((val7_keep V0 r h6).trans ((val6_keep V0 r h5).trans ((val5_keep V0 r h4).trans ((val4_keep V0 r h3).trans ((val3_keep V0 r h2).trans ((val2_keep V0 r h1).trans (val1_keep V0 r h0))))))))))))

/-- A buffer no window after window 1 writes ends as window 1 left it. -/
theorem val13_of_unwritten_late (V0 : Valuation τ sig (Elt F)) (r : Ref sig .tc) (h2 : r ∉ ops_part2_W) (h3 : r ∉ ops_part3_W) (h4 : r ∉ ops_part4_W) (h5 : r ∉ ops_part5_W) (h6 : r ∉ ops_part6_W) (h7 : r ∉ ops_part7_W) (h8 : r ∉ ops_part8_W) (h9 : r ∉ ops_part9_W) (h10 : r ∉ ops_part10_W) (h11 : r ∉ ops_part11_W) (h12 : r ∉ ops_part12_W) :
    val13 V0 (Proc.devRef .tc r) = val2 V0 (Proc.devRef .tc r) :=
  (val13_keep V0 r h12).trans ((val12_keep V0 r h11).trans ((val11_keep V0 r h10).trans ((val10_keep V0 r h9).trans ((val9_keep V0 r h8).trans ((val8_keep V0 r h7).trans ((val7_keep V0 r h6).trans ((val6_keep V0 r h5).trans ((val5_keep V0 r h4).trans ((val4_keep V0 r h3).trans (val3_keep V0 r h2))))))))))

/-! ## The side loss -/

/-- The gate of every edge, in the host's operations: `1 / (1 + e^(−(a · w + b)))` with `a · w` the product of the angles
    column and the 1×1 weight, `b` the one-element bias broadcast down the column. -/
def gateCol (a : FVec F S1600000x1 .f32) (w : FVec F S1x1 .f32) (b : FVec F S1 .f32) : FVec F S1600000x1 .f32 :=
  Host.divf (broadcastInDim S1600000x1 ![] bcast_S_S1600000x1 (constant S_ .f32 0x3F800000#32))
    (addf (broadcastInDim S1600000x1 ![] bcast_S_S1600000x1 (constant S_ .f32 0x3F800000#32))
      (Host.exp (Host.negf (addf (Host.dotGeneral dot_S1600000x1_S1x1_S1600000x1_1_0_0_1_n_n none a w)
        (broadcastInDim S1600000x1 ![0, 1] bcast_S1x1_S1600000x1_0_1 (broadcastInDim S1x1 ![1] bcast_S1_S1x1_1 b))))))

/-- The side loss in the host's operations: the sum over the column of `g · (1 − g)`, from zero, divided by the edge count. -/
def sideLossTerm (a : FVec F S1600000x1 .f32) (w : FVec F S1x1 .f32) (b : FVec F S1 .f32) : FVec F S_ .f32 :=
  Host.divf (Host.reduceAdd (mulf (gateCol a w b)
      (subf (broadcastInDim S1600000x1 ![] bcast_S_S1600000x1 (constant S_ .f32 0x3F800000#32)) (gateCol a w b)))
    (constant S_ .f32 0x00000000#32) reducesTo_S1600000x1_S_d0_1 h_S_) (constant S_ .f32 0x49C35000#32)

/-- The first layer's gate weight as window 0 leaves it: the leading 1×1×1 slice of the weights, viewed 1×1. -/
def gateW (V0 : Valuation τ sig (Elt F)) : FVec F S1x1 .f32 :=
  shapeCast S1x1 (extractStridedSlice S1x1x1 ![0, 0, 0] (V0 (Proc.devRef .tc main_arg6)) slices_S8x1x1_S1x1x1_0_0_0) shapeCasts_S1x1x1_S1x1
/-- The first layer's gate bias as window 0 leaves it: the leading 1×1 slice of the biases, viewed as one element. -/
def gateB (V0 : Valuation τ sig (Elt F)) : FVec F S1 .f32 :=
  shapeCast S1 (extractStridedSlice S1x1 ![0, 0] (V0 (Proc.devRef .tc main_arg7)) slices_S8x1_S1x1_0_0) shapeCasts_S1x1_S1

theorem val1_main_arg1 (V0 : Valuation τ sig (Elt F)) : val1 V0 (no_index (Proc.devRef .tc main_arg1)) = V0 (Proc.devRef .tc main_arg1) :=
  val1_keep V0 main_arg1 (by decide)

set_option maxRecDepth 8192 in
set_option maxHeartbeats 2000000 in
theorem val1_main_v27 (V0 : Valuation τ sig (Elt F)) : val1 V0 (no_index (Proc.devRef .tc main_v27)) = gateW V0 := by
  unfold val1 val0 gateW
  simp only [ops_part0]
  after_results_simp
  rfl

set_option maxRecDepth 8192 in
set_option maxHeartbeats 2000000 in
theorem val1_main_v29 (V0 : Valuation τ sig (Elt F)) : val1 V0 (no_index (Proc.devRef .tc main_v29)) = gateB V0 := by
  unfold val1 val0 gateB
  simp only [ops_part0]
  after_results_simp
  rfl

set_option maxRecDepth 8192 in
set_option maxHeartbeats 4000000 in
/-- Window 1 writes the side loss from the angles and the two slices window 0 made. -/
theorem val2_main_v95 (V0 : Valuation τ sig (Elt F)) :
    val2 V0 (Proc.devRef .tc main_v95) = sideLossTerm (V0 (Proc.devRef .tc main_arg1)) (gateW V0) (gateB V0) := by
  unfold val2 sideLossTerm gateCol
  simp only [ops_part1]
  after_results_simp
  simp only [val1_main_arg1, val1_main_v27, val1_main_v29] <;> rfl

/-! ## The run -/

/-- On every device, for any float values, from any memory with zero counters: every weakly fair execution of @main
    terminates with the side loss at `sideLossTerm` of the angles, the first gate weight and the first gate bias, and
    every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95)
        = sideLossTerm (m ((c.tc : Thread nD τ).loc main_arg1)) (gateW (launchContents m c)) (gateB (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v95).trans (by
        rw [after_ops, val13_of_unwritten_late _ main_v95 (by decide) (by decide) (by decide) (by decide) (by decide) (by decide) (by decide) (by decide) (by decide) (by decide) (by decide)]
        exact val2_main_v95 (launchContents m c)),
      (h c main_arg0).trans (by rw [after_ops]; exact val13_of_unwritten _ main_arg0 (by decide) (by decide) (by decide) (by decide) (by decide) (by decide) (by decide) (by decide) (by decide) (by decide) (by decide) (by decide) (by decide)),
      (h c main_arg1).trans (by rw [after_ops]; exact val13_of_unwritten _ main_arg1 (by decide) (by decide) (by decide) (by decide) (by decide) (by decide) (by decide) (by decide) (by decide) (by decide) (by decide) (by decide) (by decide)),
      (h c main_arg2).trans (by rw [after_ops]; exact val13_of_unwritten _ main_arg2 (by decide) (by decide) (by decide) (by decide) (by decide) (by decide) (by decide) (by decide) (by decide) (by decide) (by decide) (by decide) (by decide)),
      (h c main_arg3).trans (by rw [after_ops]; exact val13_of_unwritten _ main_arg3 (by decide) (by decide) (by decide) (by decide) (by decide) (by decide) (by decide) (by decide) (by decide) (by decide) (by decide) (by decide) (by decide)),
      (h c main_arg4).trans (by rw [after_ops]; exact val13_of_unwritten _ main_arg4 (by decide) (by decide) (by decide) (by decide) (by decide) (by decide) (by decide) (by decide) (by decide) (by decide) (by decide) (by decide) (by decide)),
      (h c main_arg5).trans (by rw [after_ops]; exact val13_of_unwritten _ main_arg5 (by decide) (by decide) (by decide) (by decide) (by decide) (by decide) (by decide) (by decide) (by decide) (by decide) (by decide) (by decide) (by decide)),
      (h c main_arg6).trans (by rw [after_ops]; exact val13_of_unwritten _ main_arg6 (by decide) (by decide) (by decide) (by decide) (by decide) (by decide) (by decide) (by decide) (by decide) (by decide) (by decide) (by decide) (by decide)),
      (h c main_arg7).trans (by rw [after_ops]; exact val13_of_unwritten _ main_arg7 (by decide) (by decide) (by decide) (by decide) (by decide) (by decide) (by decide) (by decide) (by decide) (by decide) (by decide) (by decide) (by decide)),
      (h c main_arg8).trans (by rw [after_ops]; exact val13_of_unwritten _ main_arg8 (by decide) (by decide) (by decide) (by decide) (by decide) (by decide) (by decide) (by decide) (by decide) (by decide) (by decide) (by decide) (by decide)),
      (h c main_arg9).trans (by rw [after_ops]; exact val13_of_unwritten _ main_arg9 (by decide) (by decide) (by decide) (by decide) (by decide) (by decide) (by decide) (by decide) (by decide) (by decide) (by decide) (by decide) (by decide)),
      (h c main_arg10).trans (by rw [after_ops]; exact val13_of_unwritten _ main_arg10 (by decide) (by decide) (by decide) (by decide) (by decide) (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.Windows

end
-- ==== Proof.RefValue.lean ====
/-
  The reference program's second result as a number, at the ideal instance.

  The reference's run leaves the side loss at a term in the host's own operations (`sideLossTerm`): the angles column
  times the 1×1 gate weight, plus the gate bias broadcast down the column, through `1 / (1 + e^(−z))`, then `g · (1 − g)`,
  summed over both axes from zero and divided by the edge count.  Read at an edge, the product with a 1×1 matrix is a sum
  over a contraction index of extent one, so it is the angle times the weight; the two broadcasts read the bias element;
  the quotient is the logistic function; and a sum over every axis is the sum over all indices.  So the term is the side
  loss of the angles, the weights' leading element and the biases' leading element.
-/
import proofs.«415750_j38869454029182_1_alg».proof.Proof.RefRun
import proofs.«415750_j38869454029182_1_alg».proof.Proof.GatePenalty
import Idealize.ShloMosaic.Lib.Pipeline.Value
import Idealize.ShloMosaic.Lib.IdealHost
import Idealize.ShloMosaic.Lib.ValueIdx
import Idealize.ShloMosaic.PureOps.Ideal.Laws

-- sums over the column's 1,600,000 indices: the elaborator recurses on the long axis
set_option maxRecDepth 16384
noncomputable section
open scoped BigOperators
namespace Cert.ReferenceIdeal.SideLoss
open Cert.ReferenceIdeal Cert.ReferenceIdeal.Gen Cert.ReferenceIdeal.Windows Idealize.ShloMosaic Idealize.ShloMosaic.TcCoe Idealize.SL.Sem
open Idealize.ShloMosaic.ValueIdx Cert.GatePenalty

/-- The dimension numbers of the product of the angles column with the 1×1 gate weight: one contracted axis, of extent one. -/
abbrev D := dot_S1600000x1_S1x1_S1600000x1_1_0_0_1_n_n

/-- The contraction index's one coordinate is zero. -/
theorem contr_zero (k : D.contr.Idx) : (k ⟨0, by decide⟩).val = 0 := by
  have h := (k ⟨0, by decide⟩).isLt
  have h1 : D.contr.size ⟨0, by decide⟩ = 1 := rfl
  omega

/-- At any contraction index the left operand is read at the output index itself … -/
theorem lhsIdx_eq (j : S1600000x1.Idx) (k : D.contr.Idx) : D.lhsIdx j k = j := by
  funext a
  match a with
  | ⟨0, _⟩ => exact Fin.ext rfl
  | ⟨1, _⟩ =>
    apply Fin.ext
    have h1 : (D.lhsIdx j k 1).val = (k ⟨0, by decide⟩).val := rfl
    have h2 := contr_zero k
    have h3 := idx2_lt1 j
    show (D.lhsIdx j k 1).val = (j 1).val
    omega

/-- … and the right operand at its one element. -/
theorem rhsIdx_eq (j : S1600000x1.Idx) (k : D.contr.Idx) : D.rhsIdx j k = ix2 (0 : Fin 1) (0 : Fin 1) := by
  funext a
  match a with
  | ⟨0, _⟩ =>
    apply Fin.ext
    have h1 : (D.rhsIdx j k 0).val = (k ⟨0, by decide⟩).val := rfl
    have h2 := contr_zero k
    show (D.rhsIdx j k 0).val = 0
    omega
  | ⟨1, _⟩ =>
    apply Fin.ext
    have h1 : (D.rhsIdx j k 1).val = (j 1).val := rfl
    have h3 := idx2_lt1 j
    show (D.rhsIdx j k 1).val = 0
    omega

/-- The product of the angles column with the 1×1 weight, at an edge, is the edge's angle times the weight. -/
theorem dot_apply (a : FVec Ideal S1600000x1 .f32) (w : FVec Ideal S1x1 .f32) (i : S1600000x1.Idx) :
    Host.dotGeneral D none a w i = a i * w (ix2 0 0) := by
  simp only [Host.dotGeneral]
  rw [Ideal.dotGeneral_apply]
  rw [Finset.sum_congr rfl (fun k _ => by rw [lhsIdx_eq, rhsIdx_eq])]
  rw [Finset.sum_const, Finset.card_univ, Fintype.card_congr (contrEquiv1 D 1 rfl rfl), Fintype.card_fin, one_nsmul]

/-- The one-element bias broadcast to 1×1 and then down the column reads the bias element at every edge. -/
theorem bias_apply (b : FVec Ideal S1 .f32) (i : S1600000x1.Idx) :
    broadcastInDim S1600000x1 ![0, 1] bcast_S1x1_S1600000x1_0_1 (broadcastInDim S1x1 ![1] bcast_S1_S1x1_1 b) i = b (ix1 0) := by
  refine (broadcastInDim_apply _ _ _ i (ix2 (0 : Fin 1) (0 : Fin 1)) (fun a => by match a with | ⟨0, _⟩ => rfl | ⟨1, _⟩ => rfl)).trans ?_
  exact broadcastInDim_apply _ _ _ _ (ix1 (0 : Fin 1)) (fun a => by match a with | ⟨0, _⟩ => rfl)

/-- The host's exponential reads the element's exponential … -/
theorem hostExp_apply {s : Shape} {φ : FTy} (x : FVec Ideal s φ) (i : s.Idx) : Host.exp x i = Ideal.exp (x i) := rfl
/-- … and the host's negation the element's negative. -/
theorem hostNegf_apply {s : Shape} {φ : FTy} (x : FVec Ideal s φ) (i : s.Idx) : Host.negf x i = -(x i) := rfl

/-- The gate at an edge is the logistic function of angle times weight plus bias. -/
theorem gateCol_apply (a : FVec Ideal S1600000x1 .f32) (w : FVec Ideal S1x1 .f32) (b : FVec Ideal S1 .f32) (i : S1600000x1.Idx) :
    gateCol (F := Ideal) a w b i = Ideal.logistic (a i * w (ix2 0 0) + b (ix1 0)) := by
  unfold gateCol
  rw [hostDivf_apply, addf_apply, hostExp_apply, hostNegf_apply, addf_apply, broadcastInDim_scalar_apply, constant_apply,
    dot_apply, bias_apply]
  exact logistic_expanded _

/-- The reference's composed term is the side loss of the angles, the weight element and the bias element. -/
theorem sideLossTerm_eq (a : FVec Ideal S1600000x1 .f32) (w : FVec Ideal S1x1 .f32) (b : FVec Ideal S1 .f32) :
    sideLossTerm (F := Ideal) a w b = fun _ => sideLoss (w (ix2 0 0)) (b (ix1 0)) a := by
  funext j
  unfold sideLossTerm
  rw [hostDivf_apply, hostReduceAdd_apply, Ideal.hostReduceAdd_total _ (fun b => b.elim0), constant_apply, constant_apply,
    Ideal.ofBits_zero_f32, zero_add]
  unfold sideLoss total
  refine congrArg (fun s => Ideal.div s (Ideal.ofBits .f32 0x49C35000#32)) ?_
  refine Finset.sum_congr rfl fun i _ => ?_
  rw [mulf_apply, subf_apply, gateCol_apply, broadcastInDim_scalar_apply, constant_apply]
  rfl

/-- The gate weight window 0 leaves is the weights' leading element. -/
theorem gateW_apply (m : (ℓ : Loc nD τ sig) → Buf (Elt Ideal) ℓ) (c : Dev nD) :
    gateW (F := Ideal) (StableHlo.launchContents m c) (ix2 0 0)
      = (m ((c.tc : Thread nD τ).loc main_arg6) : S8x1x1.Idx → EReal) (ix3 0 0 0) := by
  unfold gateW
  refine (shapeCast_apply _ _ (ix2 (0 : Fin 1) (0 : Fin 1)) (ix3 (0 : Fin 1) (0 : Fin 1) (0 : Fin 1)) ?_).trans ?_
  · rw [Shape.rowMajor_val_three, Shape.rowMajor_val_two]; rfl
  · exact extractStridedSlice_apply _ _ _ _ (ix3 (0 : Fin 8) (0 : Fin 1) (0 : Fin 1))
      (fun a => by match a with | ⟨0, _⟩ => rfl | ⟨1, _⟩ => rfl | ⟨2, _⟩ => rfl)

/-- The gate bias window 0 leaves is the biases' leading element. -/
theorem gateB_apply (m : (ℓ : Loc nD τ sig) → Buf (Elt Ideal) ℓ) (c : Dev nD) :
    gateB (F := Ideal) (StableHlo.launchContents m c) (ix1 0)
      = (m ((c.tc : Thread nD τ).loc main_arg7) : S8x1.Idx → EReal) (ix2 0 0) := by
  unfold gateB
  refine (shapeCast_apply _ _ (ix1 (0 : Fin 1)) (ix2 (0 : Fin 1) (0 : Fin 1)) ?_).trans ?_
  · rw [Shape.rowMajor_val_one, Shape.rowMajor_val_two]; rfl
  · exact extractStridedSlice_apply _ _ _ _ (ix2 (0 : Fin 8) (0 : Fin 1))
      (fun a => by match a with | ⟨0, _⟩ => rfl | ⟨1, _⟩ => rfl)

/-- The reference program's run, read: the second result ends at the side loss of the arguments as launched, and every
    argument ends unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v95)
        = ((fun _ => sideLoss ((m ((c.tc : Thread nD τ).loc main_arg6) : S8x1x1.Idx → EReal) (ix3 0 0 0))
            ((m ((c.tc : Thread nD τ).loc main_arg7) : S8x1.Idx → EReal) (ix2 0 0))
            (m ((c.tc : Thread nD τ).loc main_arg1))) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (by rw [sideLossTerm_eq, gateW_apply, gateB_apply]), (h c).2⟩)
    (Windows.run (F := Ideal) m ρ)

end Cert.ReferenceIdeal.SideLoss
end
-- ==== Proof.lean ====
/-
  The certificate's claims, assembled.

  Both programs return the edge features unchanged and the first layer's side loss: the mean over all 1,600,000 edges
  of `g · (1 − g)`, `g = 1 / (1 + e^(−(a · w + b)))`, with `a` the edge's angle, `w` the first gate weight and `b` the
  first gate bias.  The kernel program computes exactly that, from a row-major [12500, 128] re-layout of the angles,
  summing lanes and then rows inside one kernel and dividing by the edge count on the host.  The reference computes the
  whole eight-layer message-passing network, but its two results depend only on the edge features (returned as they
  came) and on the angles, `w` and `b`: the side loss is the column sum of the same penalties divided by the same count.
  Over the extended reals a sum does not depend on its order or grouping, so the two side losses are one number for
  every input; no finiteness of the inputs is used.  The kernel's logistic operation and the reference's quotient
  `1 / (1 + e^(−z))` are one function.  Every host operation of the reference is, in the model, a total function of buffer contents,
  so the reference runs to the end on every input, whatever its integer indices.
-/
import proofs.«415750_j38869454029182_1_alg».proof.Defs
import proofs.«415750_j38869454029182_1_alg».proof.Proof.Gen.Kernel
import proofs.«415750_j38869454029182_1_alg».proof.Proof.Gen.Kernel.Frame
import proofs.«415750_j38869454029182_1_alg».proof.Proof.Gen.KernelIdeal
import proofs.«415750_j38869454029182_1_alg».proof.Proof.Gen.KernelIdeal.Frame
import proofs.«415750_j38869454029182_1_alg».proof.Proof.Gen.ReferenceIdeal
import proofs.«415750_j38869454029182_1_alg».proof.Proof.Gen.Pre_finite_inputs
import proofs.«415750_j38869454029182_1_alg».proof.Proof.KernelValue
import proofs.«415750_j38869454029182_1_alg».proof.Proof.RefValue
import Idealize.ShloMosaic.Adequacy
import Idealize.ShloMosaic.Init

noncomputable section

namespace Cert.Proof

open Idealize.ShloMosaic Idealize.SL.Sem Idealize.ShloMosaic.ValueIdx Cert.GatePenalty

/-- The kernel program as printed runs to the end and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs to the end and leaves its arguments unchanged: its run, the side loss dropped. -/
theorem frame_ri : Cert.frame_ReferenceIdeal := fun m ρ _ =>
  (θ_run Cert.ReferenceIdeal.defs _ _).mono (fun _ h c => (h c).2) (Cert.ReferenceIdeal.Windows.run (F := Ideal) m ρ)

/-- From memories that agree on the arguments both programs end with the edge features as launched and with the side
    loss of the angles, the first gate weight and the first gate bias: the kernel's by its frame run read through the
    one block, the reference's by its run read window by window, the two stated with one term. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => ((fun _ => sideLoss (Cert.KernelIdeal.SideLoss.gw m c) (Cert.KernelIdeal.SideLoss.gb m c)
      (Cert.KernelIdeal.SideLoss.ang m c)) : Cert.KernelIdeal.S_.Idx → EReal), ?_, ?_⟩
  · exact (θ_run Cert.KernelIdeal.defs _ _).mono (fun _ h c => ⟨(h c).2.1, (h c).1, (h c).2⟩)
      (Cert.KernelIdeal.SideLoss.run m ρ)
  · refine (θ_run Cert.ReferenceIdeal.defs _ _).mono
      (fun _ h c => ⟨(h c).2.1.trans (hagree c).1, (h c).1.trans ?_, (h c).2⟩)
      (Cert.ReferenceIdeal.SideLoss.run m' ρ')
    obtain ⟨-, e1, -, -, -, -, e6, e7, -⟩ := hagree c
    rw [e1, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
